-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S128x8 : Shape := ⟨2, ![128, 8]⟩
abbrev S200000 : Shape := ⟨1, ![200000]⟩
abbrev S2x6400000 : Shape := ⟨2, ![2, 6400000]⟩
abbrev S16x32 : Shape := ⟨2, ![16, 32]⟩
abbrev S32 : Shape := ⟨1, ![32]⟩
abbrev S8x32 : Shape := ⟨2, ![8, 32]⟩
abbrev S96x32 : Shape := ⟨2, ![96, 32]⟩
abbrev S32x32 : Shape := ⟨2, ![32, 32]⟩
abbrev S32x2 : Shape := ⟨2, ![32, 2]⟩
abbrev S2 : Shape := ⟨1, ![2]⟩
abbrev S_ : Shape := ⟨0, ![]⟩
abbrev S1x6400000 : Shape := ⟨2, ![1, 6400000]⟩
abbrev S6400000 : Shape := ⟨1, ![6400000]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S8x32 : S_.BroadcastsInDim S8x32 (![] : Fin 0 → Fin S8x32.rank)
  reducesTo_S8x32_S_d0_1 : S8x32.ReducesTo [0, 1] S_
  bcast_S_S96x32 : S_.BroadcastsInDim S96x32 (![] : Fin 0 → Fin S96x32.rank)
  reducesTo_S96x32_S_d0_1 : S96x32.ReducesTo [0, 1] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  slices_S2x6400000_S1x6400000_0_0 : S2x6400000.Slices ![0, 0] S1x6400000
  shapeCasts_S1x6400000_S6400000 : S1x6400000.ShapeCasts S6400000
  bcast_S_S6400000 : S_.BroadcastsInDim S6400000 (![] : Fin 0 → Fin S6400000.rank)
  reducesTo_S6400000_S_d0 : S6400000.ReducesTo [0] S_

variable [Facts]

def fn_part4 {F : FTy → Type} [FloatOps F] (main_arg3 : IVec S2x6400000 32) (main_v63 : IVec S_ 1) (main_v67 : IVec S_ 1) : IVec S_ 1 :=
  let main_v68 : IVec S_ 1 := andi main_v63 main_v67
  let main_v69 : IVec S1x6400000 32 := (extractStridedSlice S1x6400000 ![0, 0] · slices_S2x6400000_S1x6400000_0_0) main_arg3
  let main_v70 : IVec S6400000 32 := shapeCast S6400000 main_v69 shapeCasts_S1x6400000_S6400000
  let main_c_26 : IVec S_ 32 := constantI S_ 32 0#32
  let main_v71 : IVec S6400000 32 := broadcastInDim S6400000 ![] bcast_S_S6400000 main_c_26
  let main_v72 : IVec S6400000 1 := cmpi .sge main_v70 main_v71
  let main_v73 : IVec S1x6400000 32 := (extractStridedSlice S1x6400000 ![0, 0] · slices_S2x6400000_S1x6400000_0_0) main_arg3
  let main_v74 : IVec S6400000 32 := shapeCast S6400000 main_v73 shapeCasts_S1x6400000_S6400000
  let main_c_27 : IVec S_ 32 := constantI S_ 32 200000#32
  let main_v75 : IVec S6400000 32 := broadcastInDim S6400000 ![] bcast_S_S6400000 main_c_27
  let main_v76 : IVec S6400000 1 := cmpi .slt main_v74 main_v75
  let main_v77 : IVec S6400000 1 := andi main_v72 main_v76
  let main_c_28 : IVec S_ 1 := constantI S_ 1 1#1
  let main_v78 : IVec S_ 1 := (fun x v => Host.reduce IntOp.andi x v reducesTo_S6400000_S_d0 h_S_) main_v77 main_c_28
  let main_v79 : IVec S_ 1 := andi main_v68 main_v78
  main_v79

def fn_part3 {F : FTy → Type} [FloatOps F] (main_arg3 : IVec S2x6400000 32) (main_arg13 : FVec F S32 .f32) (main_arg14 : FVec F S32x2 .f32) (main_arg15 : FVec F S2 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x2 .f32 := Host.absf main_arg14
  let main_cst_22 : FVec F S_ .f32 := constant S_ .f32 0x7F800000#32
  let main_v60 : FVec F S32x2 .f32 := broadcastInDim S32x2 ![] bcast_S_S32x2 main_cst_22
  let main_v61 : IVec S32x2 1 := cmpf .olt main_v59 main_v60
  let main_c_23 : IVec S_ 1 := constantI S_ 1 1#1
  let main_v62 : IVec S_ 1 := (fun x v => Host.reduce IntOp.andi x v reducesTo_S32x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg3 main_v63 main_v67

def fn_part2 {F : FTy → Type} [FloatOps F] (main_arg3 : IVec S2x6400000 32) (main_arg9 : FVec F S32 .f32) (main_arg10 : FVec F S32x32 .f32) (main_arg11 : FVec F S32 .f32) (main_arg12 : FVec F S32x32 .f32) (main_arg13 : FVec F S32 .f32) (main_arg14 : FVec F S32x2 .f32) (main_arg15 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg3 main_arg13 main_arg14 main_arg15 main_v48 main_v49 main_v50

def fn_part1 {F : FTy → Type} [FloatOps F] (main_arg3 : IVec S2x6400000 32) (main_arg6 : FVec F S8x32 .f32) (main_arg7 : FVec F S32 .f32) (main_arg8 : FVec F S96x32 .f32) (main_arg9 : FVec F S32 .f32) (main_arg10 : FVec F S32x32 .f32) (main_arg11 : FVec F S32 .f32) (main_arg12 : FVec F S32x32 .f32) (main_arg13 : FVec F S32 .f32) (main_arg14 : FVec F S32x2 .f32) (main_arg15 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x32 .f32 := Host.absf main_arg6
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S96x32 .f32 := Host.absf main_arg8
  let main_cst_10 : FVec F S_ .f32 := constant S_ .f32 0x7F800000#32
  let main_v30 : FVec F S96x32 .f32 := broadcastInDim S96x32 ![] bcast_S_S96x32 main_cst_10
  let main_v31 : IVec S96x32 1 := cmpf .olt main_v29 main_v30
  let main_c_11 : IVec S_ 1 := constantI S_ 1 1#1
  let main_v32 : IVec S_ 1 := (fun x v => Host.reduce IntOp.andi x v reducesTo_S96x32_S_d0_1 h_S_) main_v31 main_c_11
  let main_v33 : IVec S_ 1 := andi main_v28 main_v32
  fn_part2 (F := F) main_arg3 main_arg9 main_arg10 main_arg11 main_arg12 main_arg13 main_arg14 main_arg15 main_v33

def fn {F : FTy → Type} [FloatOps F] (main_arg0 : FVec F S200000x16 .f32) (main_arg1 : FVec F S128x8 .f32) (main_arg2 : IVec S200000 32) (main_arg3 : IVec S2x6400000 32) (main_arg4 : FVec F S16x32 .f32) (main_arg5 : FVec F S32 .f32) (main_arg6 : FVec F S8x32 .f32) (main_arg7 : FVec F S32 .f32) (main_arg8 : FVec F S96x32 .f32) (main_arg9 : FVec F S32 .f32) (main_arg10 : FVec F S32x32 .f32) (main_arg11 : FVec F S32 .f32) (main_arg12 : FVec F S32x32 .f32) (main_arg13 : FVec F S32 .f32) (main_arg14 : FVec F S32x2 .f32) (main_arg15 : FVec F S2 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S16x32 .f32 := Host.absf main_arg4
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg3 main_arg6 main_arg7 main_arg8 main_arg9 main_arg10 main_arg11 main_arg12 main_arg13 main_arg14 main_arg15 main_v13 main_v16
-- ==== Kernel.lean ====
abbrev S200000x16 : Shape := ⟨2, ![200000, 16]⟩
abbrev S128x8 : Shape := ⟨2, ![128, 8]⟩
abbrev S200000 : Shape := ⟨1, ![200000]⟩
abbrev S2x6400000 : Shape := ⟨2, ![2, 6400000]⟩
abbrev S16x32 : Shape := ⟨2, ![16, 32]⟩
abbrev S32 : Shape := ⟨1, ![32]⟩
abbrev S8x32 : Shape := ⟨2, ![8, 32]⟩
abbrev S96x32 : Shape := ⟨2, ![96, 32]⟩
abbrev S32x32 : Shape := ⟨2, ![32, 32]⟩
abbrev S32x2 : Shape := ⟨2, ![32, 2]⟩
abbrev S2 : Shape := ⟨1, ![2]⟩
abbrev S1x32 : Shape := ⟨2, ![1, 32]⟩
abbrev S1x2 : Shape := ⟨2, ![1, 2]⟩
abbrev S128x32 : Shape := ⟨2, ![128, 32]⟩
abbrev S_ : Shape := ⟨0, ![]⟩
abbrev S200000x1 : Shape := ⟨2, ![200000, 1]⟩
abbrev S200000x32 : Shape := ⟨2, ![200000, 32]⟩
abbrev S4000x16 : Shape := ⟨2, ![4000, 16]⟩
abbrev S4000x32 : Shape := ⟨2, ![4000, 32]⟩
abbrev S1x6400000 : Shape := ⟨2, ![1, 6400000]⟩
abbrev S6400000 : Shape := ⟨1, ![6400000]⟩
abbrev S6400000x1 : Shape := ⟨2, ![6400000, 1]⟩
abbrev S1 : Shape := ⟨1, ![1]⟩
abbrev S1x1 : Shape := ⟨2, ![1, 1]⟩
abbrev S6400000x32 : Shape := ⟨2, ![6400000, 32]⟩
abbrev S200000x2 : Shape := ⟨2, ![200000, 2]⟩
abbrev S4000x2 : Shape := ⟨2, ![4000, 2]⟩

abbrev nBuf : Space → Nat
  | .hbm => 71
  | .vmem => 26
  | .smem => 0
  | _ => 0

abbrev bufTy : (tb : Table) → Fin (tcTables nBuf tb) → BufTy
  | .hbm, ⟨0, _⟩ => ⟨S200000x16, .f32⟩
  | .hbm, ⟨1, _⟩ => ⟨S128x8, .f32⟩
  | .hbm, ⟨2, _⟩ => ⟨S200000, .i32⟩
  | .hbm, ⟨3, _⟩ => ⟨S2x6400000, .i32⟩
  | .hbm, ⟨4, _⟩ => ⟨S16x32, .f32⟩
  | .hbm, ⟨5, _⟩ => ⟨S32, .f32⟩
  | .hbm, ⟨6, _⟩ => ⟨S8x32, .f32⟩
  | .hbm, ⟨7, _⟩ => ⟨S32, .f32⟩
  | .hbm, ⟨8, _⟩ => ⟨S96x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32x2, .f32⟩
  | .hbm, ⟨15, _⟩ => ⟨S2, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x2, .f32⟩
  | .hbm, ⟨22, _⟩ => ⟨S128x32, .f32⟩
  | .hbm, ⟨23, _⟩ => ⟨S128x32, .f32⟩
  | .hbm, ⟨24, _⟩ => ⟨S128x32, .f32⟩
  | .hbm, ⟨25, _⟩ => ⟨S_, .f32⟩
  | .hbm, ⟨26, _⟩ => ⟨S128x32, .f32⟩
  | .hbm, ⟨27, _⟩ => ⟨S128x32, .f32⟩
  | .hbm, ⟨28, _⟩ => ⟨S_, .i32⟩
  | .hbm, ⟨29, _⟩ => ⟨S200000, .i32⟩
  | .hbm, ⟨30, _⟩ => ⟨S200000, .i1⟩
  | .hbm, ⟨31, _⟩ => ⟨S_, .i32⟩
  | .hbm, ⟨32, _⟩ => ⟨S200000, .i32⟩
  | .hbm, ⟨33, _⟩ => ⟨S200000, .i32⟩
  | .hbm, ⟨34, _⟩ => ⟨S200000, .i32⟩
  | .hbm, ⟨35, _⟩ => ⟨S200000x1, .i32⟩
  | .hbm, ⟨36, _⟩ => ⟨S200000x32, .f32⟩
  | .hbm, ⟨37, _⟩ => ⟨S200000x32, .f32⟩
  | .hbm, ⟨38, _⟩ => ⟨S200000x32, .f32⟩
  | .hbm, ⟨39, _⟩ => ⟨S1x6400000, .i32⟩
  | .hbm, ⟨40, _⟩ => ⟨S6400000, .i32⟩
  | .hbm, ⟨41, _⟩ => ⟨S1x6400000, .i32⟩
  | .hbm, ⟨42, _⟩ => ⟨S6400000, .i32⟩
  | .hbm, ⟨43, _⟩ => ⟨S_, .i32⟩
  | .hbm, ⟨44, _⟩ => ⟨S6400000, .i32⟩
  | .hbm, ⟨45, _⟩ => ⟨S6400000, .i1⟩
  | .hbm, ⟨46, _⟩ => ⟨S_, .i32⟩
  | .hbm, ⟨47, _⟩ => ⟨S6400000, .i32⟩
  | .hbm, ⟨48, _⟩ => ⟨S6400000, .i32⟩
  | .hbm, ⟨49, _⟩ => ⟨S6400000, .i32⟩
  | .hbm, ⟨50, _⟩ => ⟨S6400000x1, .i32⟩
  | .hbm, ⟨51, _⟩ => ⟨S1, .i32⟩
  | .hbm, ⟨52, _⟩ => ⟨S_, .i32⟩
  | .hbm, ⟨53, _⟩ => ⟨S6400000x1, .i32⟩
  | .hbm, ⟨54, _⟩ => ⟨S6400000x1, .i1⟩
  | .hbm, ⟨55, _⟩ => ⟨S1x1, .i32⟩
  | .hbm, ⟨56, _⟩ => ⟨S6400000x1, .i32⟩
  | .hbm, ⟨57, _⟩ => ⟨S6400000x1, .i1⟩
  | .hbm, ⟨58, _⟩ => ⟨S6400000x1, .i1⟩
  | .hbm, ⟨59, _⟩ => ⟨S_, .i1⟩
  | .hbm, ⟨60, _⟩ => ⟨S6400000, .i1⟩
  | .hbm, ⟨61, _⟩ => ⟨S6400000x32, .f32⟩
  | .hbm, ⟨62, _⟩ => ⟨S6400000x32, .i1⟩
  | .hbm, ⟨63, _⟩ => ⟨S_, .f32⟩
  | .hbm, ⟨64, _⟩ => ⟨S6400000x32, .f32⟩
  | .hbm, ⟨65, _⟩ => ⟨S6400000x32, .f32⟩
  | .hbm, ⟨66, _⟩ => ⟨S_, .f32⟩
  | .hbm, ⟨67, _⟩ => ⟨S200000x32, .f32⟩
  | .hbm, ⟨68, _⟩ => ⟨S6400000x1, .i32⟩
  | .hbm, ⟨69, _⟩ => ⟨S200000x32, .f32⟩
  | .hbm, ⟨70, _⟩ => ⟨S200000x2, .f32⟩
  | .local _ .vmem, ⟨0, _⟩ => ⟨S4000x16, .f32⟩
  | .local _ .vmem, ⟨1, _⟩ => ⟨S4000x16, .f32⟩
  | .local _ .vmem, ⟨2, _⟩ => ⟨S4000x32, .f32⟩
  | .local _ .vmem, ⟨3, _⟩ => ⟨S4000x32, .f32⟩
  | .local _ .vmem, ⟨4, _⟩ => ⟨S16x32, .f32⟩
  | .local _ .vmem, ⟨5, _⟩ => ⟨S1x32, .f32⟩
  | .local _ .vmem, ⟨6, _⟩ => ⟨S96x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S4000x32, .f32⟩
  | .local _ .vmem, ⟨11, _⟩ => ⟨S4000x32, .f32⟩
  | .local _ .vmem, ⟨12, _⟩ => ⟨S4000x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x32, .f32⟩
  | .local _ .vmem, ⟨17, _⟩ => ⟨S4000x32, .f32⟩
  | .local _ .vmem, ⟨18, _⟩ => ⟨S4000x32, .f32⟩
  | .local _ .vmem, ⟨19, _⟩ => ⟨S4000x32, .f32⟩
  | .local _ .vmem, ⟨20, _⟩ => ⟨S32x32, .f32⟩
  | .local _ .vmem, ⟨21, _⟩ => ⟨S1x32, .f32⟩
  | .local _ .vmem, ⟨22, _⟩ => ⟨S32x2, .f32⟩
  | .local _ .vmem, ⟨23, _⟩ => ⟨S1x2, .f32⟩
  | .local _ .vmem, ⟨24, _⟩ => ⟨S4000x2, .f32⟩
  | .local _ .vmem, ⟨25, _⟩ => ⟨S4000x2, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_cst : Ref sig .tc := ⟨.hbm, 25, rfl⟩
abbrev main_call0_v0 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v22 : Ref sig .tc := ⟨.hbm, 65, rfl⟩
abbrev main_cst : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S32_S1x32 : S32.ShapeCasts S1x32
  shapeCasts_S2_S1x2 : S2.ShapeCasts S1x2
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S_S200000 : S_.BroadcastsInDim S200000 (![] : Fin 0 → Fin S200000.rank)
  bcast_S200000_S200000x1_0 : S200000.BroadcastsInDim S200000x1 (![0] : Fin 1 → Fin S200000x1.rank)
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S96x32_S96x32_0_0 : ∀ a, (![0, 0] : Fin 2 → Nat) a + S96x32.size a ≤ S96x32.size a
  h_S96x32 : 0 < S96x32.numel
  slices_S96x32_o0_0_S32x32 : S96x32.Slices ![0, 0] S32x32
  slices_S96x32_o32_0_S32x32 : S96x32.Slices ![32, 0] S32x32
  slices_S96x32_o64_0_S32x32 : S96x32.Slices ![64, 0] S32x32
  inb_S32x32_S32x32_0_0 : ∀ a, (![0, 0] : Fin 2 → Nat) a + S32x32.size a ≤ S32x32.size a
  h_S32x32 : 0 < S32x32.numel
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6400000x32_0 : S6400000.BroadcastsInDim S6400000x32 (![0] : Fin 1 → Fin S6400000x32.rank)
  bcast_S_S6400000x32 : S_.BroadcastsInDim S6400000x32 (![] : Fin 0 → Fin S6400000x32.rank)
  bcast_S_S200000x32 : S_.BroadcastsInDim S200000x32 (![] : Fin 0 → Fin S200000x32.rank)
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  dot_S128x8_S8x32_S128x32_1_0_0_1_n_n_wf : DotDims.WF S128x8 S8x32 S128x32 [1] [0] [0] [1] [] []
  gather_S128x32_S200000x1_S200000x32_1_0_n_n_0_1_132_wf : GatherDims.WF S128x32 S200000x1 S200000x32 [1] [0] [] [0] [] 1 ![1, 32]
  dot_S4000x16_S16x32_S4000x32_1_0_0_1_n_n_wf : DotDims.WF S4000x16 S16x32 S4000x32 [1] [0] [0] [1] [] []
  dot_S4000x32_S32x32_S4000x32_1_0_0_1_n_n_wf : DotDims.WF S4000x32 S32x32 S4000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S4000x32_S32x2_S4000x2_1_0_0_1_n_n_wf : DotDims.WF S4000x32 S32x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S200000x16.size a
  hwx0_0 : ∀ i : grid0.Coords, EltTy.bits .f32 = 32 ∨ (Rect.block (s := S200000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S200000x32.size a
  hwx0_1 : ∀ i : grid0.Coords, EltTy.bits .f32 = 32 ∨ (Rect.block (s := S200000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x32.size a ≤ S96x32.size a
  hwx0_4 : ∀ i : grid0.Coords, EltTy.bits .f32 = 32 ∨ (Rect.block (s := S96x32) S96x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x32.size a ≤ S200000x32.size a
  hwx0_8 : ∀ i : grid0.Coords, EltTy.bits .f32 = 32 ∨ (Rect.block (s := S200000x32) S4000x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x32.size a ≤ S200000x32.size a
  hwx0_9 : ∀ i : grid0.Coords, EltTy.bits .f32 = 32 ∨ (Rect.block (s := S200000x32) S4000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S200000x32.size a
  hwx1_0 : ∀ i : grid1.Coords, EltTy.bits .f32 = 32 ∨ (Rect.block (s := S200000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S200000x32.size a
  hwx1_1 : ∀ i : grid1.Coords, EltTy.bits .f32 = 32 ∨ (Rect.block (s := S200000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S200000x32.size a
  hwx1_2 : ∀ i : grid1.Coords, EltTy.bits .f32 = 32 ∨ (Rect.block (s := S200000x32) S4000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x2.size a ≤ S32x2.size a
  hwx1_5 : ∀ i : grid1.Coords, EltTy.bits .f32 = 32 ∨ (Rect.block (s := S32x2) S32x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x2.size a ≤ S200000x2.size a
  hwx1_7 : ∀ i : grid1.Coords, EltTy.bits .f32 = 32 ∨ (Rect.block (s := S200000x2) S4000x2.size (cc1_transform_7 i) (hinb1_7 i)).WholeWords (EltTy.packing .f32)

variable [Facts₀]

def dot_S128x8_S8x32_S128x32_1_0_0_1_n_n : DotDims S128x8 S8x32 S128x32 where
  lhsContracting := [1]
  rhsContracting := [0]
  lhsNonContracting := [0]
  rhsNonContracting := [1]
  lhsBatch := []
  rhsBatch := []
  wf := dot_S128x8_S8x32_S128x32_1_0_0_1_n_n_wf
def gather_S128x32_S200000x1_S200000x32_1_0_n_n_0_1_132 : GatherDims S128x32 S200000x1 S200000x32 where
  offsetDims := [1]
  collapsedSliceDims := [0]
  operandBatchingDims := []
  startIndicesBatchingDims := []
  startIndexMap := [0]
  indexVectorDim := 1
  sliceSizes := ![1, 32]
  wf := gather_S128x32_S200000x1_S200000x32_1_0_n_n_0_1_132_wf
def dot_S4000x16_S16x32_S4000x32_1_0_0_1_n_n : DotDims S4000x16 S16x32 S4000x32 where
  lhsContracting := [1]
  rhsContracting := [0]
  lhsNonContracting := [0]
  rhsNonContracting := [1]
  lhsBatch := []
  rhsBatch := []
  wf := dot_S4000x16_S16x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S4000x32_S32x2_S4000x2_1_0_0_1_n_n : DotDims S4000x32 S32x2 S4000x2 where
  lhsContracting := [1]
  rhsContracting := [0]
  lhsNonContracting := [0]
  rhsNonContracting := [1]
  lhsBatch := []
  rhsBatch := []
  wf := dot_S4000x32_S32x2_S4000x2_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S96x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17_0) S4000x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17_1) S4000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v17_0) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S4000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S32x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S4000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x16 : Shape := ⟨2, ![200000, 16]⟩
abbrev S128x8 : Shape := ⟨2, ![128, 8]⟩
abbrev S200000 : Shape := ⟨1, ![200000]⟩
abbrev S2x6400000 : Shape := ⟨2, ![2, 6400000]⟩
abbrev S16x32 : Shape := ⟨2, ![16, 32]⟩
abbrev S32 : Shape := ⟨1, ![32]⟩
abbrev S8x32 : Shape := ⟨2, ![8, 32]⟩
abbrev S96x32 : Shape := ⟨2, ![96, 32]⟩
abbrev S32x32 : Shape := ⟨2, ![32, 32]⟩
abbrev S32x2 : Shape := ⟨2, ![32, 2]⟩
abbrev S2 : Shape := ⟨1, ![2]⟩
abbrev S200000x32 : Shape := ⟨2, ![200000, 32]⟩
abbrev S1x32 : Shape := ⟨2, ![1, 32]⟩
abbrev S_ : Shape := ⟨0, ![]⟩
abbrev S128x32 : Shape := ⟨2, ![128, 32]⟩
abbrev S200000x1 : Shape := ⟨2, ![200000, 1]⟩
abbrev S200000x96 : Shape := ⟨2, ![200000, 96]⟩
abbrev S1x6400000 : Shape := ⟨2, ![1, 6400000]⟩
abbrev S6400000 : Shape := ⟨1, ![6400000]⟩
abbrev S6600000 : Shape := ⟨1, ![6600000]⟩
abbrev S6600000x1 : Shape := ⟨2, ![6600000, 1]⟩
abbrev S6600000x32 : Shape := ⟨2, ![6600000, 32]⟩
abbrev S200000x2 : Shape := ⟨2, ![200000, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S128x8, .f32⟩
  | .hbm, ⟨2, _⟩ => ⟨S200000, .i32⟩
  | .hbm, ⟨3, _⟩ => ⟨S2x6400000, .i32⟩
  | .hbm, ⟨4, _⟩ => ⟨S16x32, .f32⟩
  | .hbm, ⟨5, _⟩ => ⟨S32, .f32⟩
  | .hbm, ⟨6, _⟩ => ⟨S8x32, .f32⟩
  | .hbm, ⟨7, _⟩ => ⟨S32, .f32⟩
  | .hbm, ⟨8, _⟩ => ⟨S96x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32x2, .f32⟩
  | .hbm, ⟨15, _⟩ => ⟨S2, .f32⟩
  | .hbm, ⟨16, _⟩ => ⟨S200000x32, .f32⟩
  | .hbm, ⟨17, _⟩ => ⟨S1x32, .f32⟩
  | .hbm, ⟨18, _⟩ => ⟨S200000x32, .f32⟩
  | .hbm, ⟨19, _⟩ => ⟨S200000x32, .f32⟩
  | .hbm, ⟨20, _⟩ => ⟨S_, .f32⟩
  | .hbm, ⟨21, _⟩ => ⟨S200000x32, .f32⟩
  | .hbm, ⟨22, _⟩ => ⟨S200000x32, .f32⟩
  | .hbm, ⟨23, _⟩ => ⟨S128x32, .f32⟩
  | .hbm, ⟨24, _⟩ => ⟨S1x32, .f32⟩
  | .hbm, ⟨25, _⟩ => ⟨S128x32, .f32⟩
  | .hbm, ⟨26, _⟩ => ⟨S128x32, .f32⟩
  | .hbm, ⟨27, _⟩ => ⟨S_, .f32⟩
  | .hbm, ⟨28, _⟩ => ⟨S128x32, .f32⟩
  | .hbm, ⟨29, _⟩ => ⟨S128x32, .f32⟩
  | .hbm, ⟨30, _⟩ => ⟨S_, .i32⟩
  | .hbm, ⟨31, _⟩ => ⟨S200000, .i32⟩
  | .hbm, ⟨32, _⟩ => ⟨S200000, .i1⟩
  | .hbm, ⟨33, _⟩ => ⟨S_, .i32⟩
  | .hbm, ⟨34, _⟩ => ⟨S200000, .i32⟩
  | .hbm, ⟨35, _⟩ => ⟨S200000, .i32⟩
  | .hbm, ⟨36, _⟩ => ⟨S200000, .i32⟩
  | .hbm, ⟨37, _⟩ => ⟨S200000x1, .i32⟩
  | .hbm, ⟨38, _⟩ => ⟨S200000x32, .f32⟩
  | .hbm, ⟨39, _⟩ => ⟨S200000x32, .f32⟩
  | .hbm, ⟨40, _⟩ => ⟨S200000x96, .f32⟩
  | .hbm, ⟨41, _⟩ => ⟨S200000x32, .f32⟩
  | .hbm, ⟨42, _⟩ => ⟨S1x32, .f32⟩
  | .hbm, ⟨43, _⟩ => ⟨S200000x32, .f32⟩
  | .hbm, ⟨44, _⟩ => ⟨S200000x32, .f32⟩
  | .hbm, ⟨45, _⟩ => ⟨S_, .f32⟩
  | .hbm, ⟨46, _⟩ => ⟨S200000x32, .f32⟩
  | .hbm, ⟨47, _⟩ => ⟨S200000x32, .f32⟩
  | .hbm, ⟨48, _⟩ => ⟨S200000, .i32⟩
  | .hbm, ⟨49, _⟩ => ⟨S1x6400000, .i32⟩
  | .hbm, ⟨50, _⟩ => ⟨S6400000, .i32⟩
  | .hbm, ⟨51, _⟩ => ⟨S6600000, .i32⟩
  | .hbm, ⟨52, _⟩ => ⟨S1x6400000, .i32⟩
  | .hbm, ⟨53, _⟩ => ⟨S6400000, .i32⟩
  | .hbm, ⟨54, _⟩ => ⟨S6600000, .i32⟩
  | .hbm, ⟨55, _⟩ => ⟨S_, .i32⟩
  | .hbm, ⟨56, _⟩ => ⟨S6600000, .i32⟩
  | .hbm, ⟨57, _⟩ => ⟨S6600000, .i1⟩
  | .hbm, ⟨58, _⟩ => ⟨S_, .i32⟩
  | .hbm, ⟨59, _⟩ => ⟨S6600000, .i32⟩
  | .hbm, ⟨60, _⟩ => ⟨S6600000, .i32⟩
  | .hbm, ⟨61, _⟩ => ⟨S6600000, .i32⟩
  | .hbm, ⟨62, _⟩ => ⟨S6600000x1, .i32⟩
  | .hbm, ⟨63, _⟩ => ⟨S6600000x32, .f32⟩
  | .hbm, ⟨64, _⟩ => ⟨S6600000x32, .f32⟩
  | .hbm, ⟨65, _⟩ => ⟨S1x32, .f32⟩
  | .hbm, ⟨66, _⟩ => ⟨S6600000x32, .f32⟩
  | .hbm, ⟨67, _⟩ => ⟨S6600000x32, .f32⟩
  | .hbm, ⟨68, _⟩ => ⟨S_, .f32⟩
  | .hbm, ⟨69, _⟩ => ⟨S6600000x32, .f32⟩
  | .hbm, ⟨70, _⟩ => ⟨S6600000x32, .f32⟩
  | .hbm, ⟨71, _⟩ => ⟨S_, .f32⟩
  | .hbm, ⟨72, _⟩ => ⟨S200000x32, .f32⟩
  | .hbm, ⟨73, _⟩ => ⟨S6600000x1, .i32⟩
  | .hbm, ⟨74, _⟩ => ⟨S200000x32, .f32⟩
  | .hbm, ⟨75, _⟩ => ⟨S200000x32, .f32⟩
  | .hbm, ⟨76, _⟩ => ⟨S200000x32, .f32⟩
  | .hbm, ⟨77, _⟩ => ⟨S1x32, .f32⟩
  | .hbm, ⟨78, _⟩ => ⟨S200000x32, .f32⟩
  | .hbm, ⟨79, _⟩ => ⟨S200000x32, .f32⟩
  | .hbm, ⟨80, _⟩ => ⟨S_, .f32⟩
  | .hbm, ⟨81, _⟩ => ⟨S200000x32, .f32⟩
  | .hbm, ⟨82, _⟩ => ⟨S200000x32, .f32⟩
  | .hbm, ⟨83, _⟩ => ⟨S200000x2, .f32⟩
  | .hbm, ⟨84, _⟩ => ⟨S1x2, .f32⟩
  | .hbm, ⟨85, _⟩ => ⟨S200000x2, .f32⟩
  | .hbm, ⟨86, _⟩ => ⟨S200000x2, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call2_cst : Ref sig .tc := ⟨.hbm, 45, rfl⟩
abbrev main_call2_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_1 : Ref sig .tc := ⟨.hbm, 55, rfl⟩
abbrev main_v31 : Ref sig .tc := ⟨.hbm, 56, rfl⟩
abbrev main_v32 : Ref sig .tc := ⟨.hbm, 57, rfl⟩
abbrev main_c_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call3_cst : Ref sig .tc := ⟨.hbm, 68, rfl⟩
abbrev main_call3_v0 : Ref sig .tc := ⟨.hbm, 69, rfl⟩
abbrev main_v42 : Ref sig .tc := ⟨.hbm, 70, rfl⟩
abbrev main_cst : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call4_cst : Ref sig .tc := ⟨.hbm, 80, rfl⟩
abbrev main_call4_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x32_S200000x32_S200000x32_S200000x96_d1 : Shape.Concatenates [S200000x32, S200000x32, S200000x32] S200000x96 1
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S6600000_S6600000x1_0 : S6600000.BroadcastsInDim S6600000x1 (![0] : Fin 1 → Fin S6600000x1.rank)
  bcast_S1x32_S6600000x32_0_1 : S1x32.BroadcastsInDim S6600000x32 (![0, 1] : Fin 2 → Fin S6600000x32.rank)
  bcast_S_S6600000x32 : S_.BroadcastsInDim S6600000x32 (![] : Fin 0 → Fin S6600000x32.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S200000x16_S16x32_S200000x32_1_0_0_1_n_n_wf : DotDims.WF S200000x16 S16x32 S200000x32 [1] [0] [0] [1] [] []
  dot_S128x8_S8x32_S128x32_1_0_0_1_n_n_wf : DotDims.WF S128x8 S8x32 S128x32 [1] [0] [0] [1] [] []
  gather_S128x32_S200000x1_S200000x32_1_0_n_n_0_1_132_wf : GatherDims.WF S128x32 S200000x1 S200000x32 [1] [0] [] [0] [] 1 ![1, 32]
  dot_S200000x96_S96x32_S200000x32_1_0_0_1_n_n_wf : DotDims.WF S200000x96 S96x32 S200000x32 [1] [0] [0] [1] [] []
  gather_S200000x32_S6600000x1_S6600000x32_1_0_n_n_0_1_132_wf : GatherDims.WF S200000x32 S6600000x1 S6600000x32 [1] [0] [] [0] [] 1 ![1, 32]
  dot_S6600000x32_S32x32_S6600000x32_1_0_0_1_n_n_wf : DotDims.WF S6600000x32 S32x32 S6600000x32 [1] [0] [0] [1] [] []
  scatter_S200000x32_S6600000x1_S6600000x32_1_0_0_1_wf : ScatterDims.WF S200000x32 S6600000x1 S6600000x32 [1] [0] [0] 1
  dot_S200000x32_S32x32_S200000x32_1_0_0_1_n_n_wf : DotDims.WF S200000x32 S32x32 S200000x32 [1] [0] [0] [1] [] []
  dot_S200000x32_S32x2_S200000x2_1_0_0_1_n_n_wf : DotDims.WF S200000x32 S32x2 S200000x2 [1] [0] [0] [1] [] []

variable [Facts₀]

def dot_S200000x16_S16x32_S200000x32_1_0_0_1_n_n : DotDims S200000x16 S16x32 S200000x32 where
  lhsContracting := [1]
  rhsContracting := [0]
  lhsNonContracting := [0]
  rhsNonContracting := [1]
  lhsBatch := []
  rhsBatch := []
  wf := dot_S200000x16_S16x32_S200000x32_1_0_0_1_n_n_wf
def dot_S128x8_S8x32_S128x32_1_0_0_1_n_n : DotDims S128x8 S8x32 S128x32 where
  lhsContracting := [1]
  rhsContracting := [0]
  lhsNonContracting := [0]
  rhsNonContracting := [1]
  lhsBatch := []
  rhsBatch := []
  wf := dot_S128x8_S8x32_S128x32_1_0_0_1_n_n_wf
def gather_S128x32_S200000x1_S200000x32_1_0_n_n_0_1_132 : GatherDims S128x32 S200000x1 S200000x32 where
  offsetDims := [1]
  collapsedSliceDims := [0]
  operandBatchingDims := []
  startIndicesBatchingDims := []
  startIndexMap := [0]
  indexVectorDim := 1
  sliceSizes := ![1, 32]
  wf := gather_S128x32_S200000x1_S200000x32_1_0_n_n_0_1_132_wf
def dot_S200000x96_S96x32_S200000x32_1_0_0_1_n_n : DotDims S200000x96 S96x32 S200000x32 where
  lhsContracting := [1]
  rhsContracting := [0]
  lhsNonContracting := [0]
  rhsNonContracting := [1]
  lhsBatch := []
  rhsBatch := []
  wf := dot_S200000x96_S96x32_S200000x32_1_0_0_1_n_n_wf
def gather_S200000x32_S6600000x1_S6600000x32_1_0_n_n_0_1_132 : GatherDims S200000x32 S6600000x1 S6600000x32 where
  offsetDims := [1]
  collapsedSliceDims := [0]
  operandBatchingDims := []
  startIndicesBatchingDims := []
  startIndexMap := [0]
  indexVectorDim := 1
  sliceSizes := ![1, 32]
  wf := gather_S200000x32_S6600000x1_S6600000x32_1_0_n_n_0_1_132_wf
def dot_S6600000x32_S32x32_S6600000x32_1_0_0_1_n_n : DotDims S6600000x32 S32x32 S6600000x32 where
  lhsContracting := [1]
  rhsContracting := [0]
  lhsNonContracting := [0]
  rhsNonContracting := [1]
  lhsBatch := []
  rhsBatch := []
  wf := dot_S6600000x32_S32x32_S6600000x32_1_0_0_1_n_n_wf
def scatter_S200000x32_S6600000x1_S6600000x32_1_0_0_1 : ScatterDims S200000x32 S6600000x1 S6600000x32 where
  updateWindowDims := [1]
  insertedWindowDims := [0]
  scatterDimsToOperandDims := [0]
  indexVectorDim := 1
  wf := scatter_S200000x32_S6600000x1_S6600000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def dot_S200000x32_S32x2_S200000x2_1_0_0_1_n_n : DotDims S200000x32 S32x2 S200000x2 where
  lhsContracting := [1]
  rhsContracting := [0]
  lhsNonContracting := [0]
  rhsNonContracting := [1]
  lhsBatch := []
  rhsBatch := []
  wf := dot_S200000x32_S32x2_S200000x2_1_0_0_1_n_n_wf

class Facts : Prop extends Facts₀ where

variable [Facts]
-- ==== Proof.Spec.lean ====
/-
  The graph network both programs compute, written once over the extended reals.

  For node `n` of `200000` and graph `b` of `128`, with `relu x = max x 0`:

    local  n l = relu (∑ i < 16, xLocal n i · wLocal i l + bLocal l)
    graph  b l = relu (∑ i < 8,  xGlobal b i · wGlobal i l + bGlobal l)
    global n l = graph (graphOf n) l        where `graphOf n` is the node's graph, read off `batch`
    node   n k = relu (∑ l < 32, local n l · wMix l k + ∑ l < 32, global n l · wMix (32 + l) k
                       + ∑ l < 32, (local n l · global n l) · wMix (64 + l) k + bMix k)
    msg    n k = relu (∑ l < 32, node n l · wMsg l k + bMsg k)
    agg    n k = ∑ over the edges e whose target is n of msg (source e) k
    hid    n k = relu ((agg n k + msg n k) + (∑ l < 32, node n l · wSelf l k + bSelf k))
    out    n j = ∑ k < 32, hid n k · wOut k j + bOut j

  A node or graph number is read off a 32-bit word the way an array index is: a negative word counts from the
  end (the extent is added), and the result is clamped into the valid range.  An edge's target is compared as a
  signed integer, so a target outside `[0, 200000)` names no node.  The node's own message `msg n k` is the
  contribution of the self loop every node has.
-/
import Idealize.ShloMosaic.PureOps.Ideal
import Idealize.ShloMosaic.Lib.ValueIdx

noncomputable section

open scoped BigOperators

namespace Cert.Spec

open Idealize.ShloMosaic Idealize.ShloMosaic.ValueIdx

/-- An `r × c` array of extended reals. -/
abbrev Mat (r c : Nat) : Type := (⟨2, ![r, c]⟩ : Shape).Idx → EReal
/-- A length-`n` array of extended reals. -/
abbrev Vct (n : Nat) : Type := (⟨1, ![n]⟩ : Shape).Idx → EReal

/-- The sixteen argument arrays. -/
structure Inputs where
  xLocal : Mat 200000 16
  xGlobal : Mat 128 8
  batch : IVec ⟨1, ![200000]⟩ 32
  edges : IVec ⟨2, ![2, 6400000]⟩ 32
  wLocal : Mat 16 32
  bLocal : Vct 32
  wGlobal : Mat 8 32
  bGlobal : Vct 32
  wMix : Mat 96 32
  bMix : Vct 32
  wMsg : Mat 32 32
  bMsg : Vct 32
  wSelf : Mat 32 32
  bSelf : Vct 32
  wOut : Mat 32 2
  bOut : Vct 2

/-- An index word with a negative value counted from the end: `v + K` when `v < 0` (signed), else `v`. -/
def wrap (K v : BitVec 32) : BitVec 32 := Scalar.select (IntOp.cmpi .slt v 0#32) (IntOp.addi v K) v

/-- The row a word names in an array of `N` rows: its signed value clamped into `[0, N - 1]`. -/
def row (N : Nat) (hN : 0 < N) (v : BitVec 32) : Fin N := ⟨min v.toInt.toNat (N - 1), by omega⟩

variable (a : Inputs)

/-- The local encoder's activation. -/
def hLocal (n : Fin 200000) (l : Fin 32) : EReal :=
  max ((∑ i : Fin 16, a.xLocal (ix2 n i) * a.wLocal (ix2 i l)) + a.bLocal (ix1 l)) 0

/-- The graph-level encoder's activation, per graph. -/
def hGraph (b : Fin 128) (l : Fin 32) : EReal :=
  max ((∑ i : Fin 8, a.xGlobal (ix2 b i) * a.wGlobal (ix2 i l)) + a.bGlobal (ix1 l)) 0

/-- The graph a node belongs to. -/
def graphOf (n : Fin 200000) : Fin 128 := row 128 (by decide) (wrap 128#32 (a.batch (ix1 n)))

/-- The graph-level activation, per node. -/
def hGlobal (n : Fin 200000) (l : Fin 32) : EReal := hGraph a (graphOf a n) l

/-- The mixed node state: the three blocks of `wMix` against the local, the global and their product. -/
def node (n : Fin 200000) (k : Fin 32) : EReal :=
  max ((((∑ l : Fin 32, hLocal a n l * a.wMix (ix2 (⟨l.val, by omega⟩ : Fin 96) k))
        + (∑ l : Fin 32, hGlobal a n l * a.wMix (ix2 (⟨32 + l.val, by omega⟩ : Fin 96) k)))
        + (∑ l : Fin 32, (hLocal a n l * hGlobal a n l) * a.wMix (ix2 (⟨64 + l.val, by omega⟩ : Fin 96) k)))
      + a.bMix (ix1 k)) 0

/-- The message a node sends along each of its outgoing edges. -/
def msg (n : Fin 200000) (k : Fin 32) : EReal :=
  max ((∑ l : Fin 32, node a n l * a.wMsg (ix2 l k)) + a.bMsg (ix1 k)) 0

/-- The source node of an edge. -/
def source (e : Fin 6400000) : Fin 200000 :=
  row 200000 (by decide) (wrap 200000#32 (a.edges (ix2 (0 : Fin 2) e)))

/-- The messages arriving at a node over the listed edges. -/
def agg (n : Fin 200000) (k : Fin 32) : EReal :=
  ∑ e : Fin 6400000, if (a.edges (ix2 (1 : Fin 2) e)).toInt = (n.val : Int) then msg a (source a e) k else 0

/-- The updated node state: arriving messages, the node's own message, and the self term. -/
def hid (n : Fin 200000) (k : Fin 32) : EReal :=
  max ((agg a n k + msg a n k) + ((∑ l : Fin 32, node a n l * a.wSelf (ix2 l k)) + a.bSelf (ix1 k))) 0

/-- The output head. -/
def out (n : Fin 200000) (j : Fin 2) : EReal :=
  (∑ k : Fin 32, hid a n k * a.wOut (ix2 k j)) + a.bOut (ix1 j)

/-- The whole result array. -/
def result : Mat 200000 2 := fun i => out a (i 0) (i 1)

/-! ## The two dense stages as functions of the arrays they are handed

The encoder stage sees the local features, the per-node global activation and the weights (each bias as a
one-row matrix); the head stage sees the node states, the arriving messages, the nodes' own messages and the
weights.  `node`, `msg` and `out` above are these at the arrays the network builds. -/

/-- The local activation from the arrays of the encoder stage. -/
def localOf (xl : Mat 200000 16) (wl : Mat 16 32) (bl : Mat 1 32) (n : Fin 200000) (l : Fin 32) : EReal :=
  max ((∑ i : Fin 16, xl (ix2 n i) * wl (ix2 i l)) + bl (ix2 (0 : Fin 1) l)) 0

/-- The mixed node state from the arrays of the encoder stage. -/
def nodeOf (xl : Mat 200000 16) (hg : Mat 200000 32) (wl : Mat 16 32) (bl : Mat 1 32) (wm : Mat 96 32)
    (bm : Mat 1 32) (n : Fin 200000) (k : Fin 32) : EReal :=
  max ((((∑ l : Fin 32, localOf xl wl bl n l * wm (ix2 (⟨l.val, by omega⟩ : Fin 96) k))
        + (∑ l : Fin 32, hg (ix2 n l) * wm (ix2 (⟨32 + l.val, by omega⟩ : Fin 96) k)))
        + (∑ l : Fin 32, (localOf xl wl bl n l * hg (ix2 n l)) * wm (ix2 (⟨64 + l.val, by omega⟩ : Fin 96) k)))
      + bm (ix2 (0 : Fin 1) k)) 0

/-- The message from the arrays of the encoder stage. -/
def msgOf (xl : Mat 200000 16) (hg : Mat 200000 32) (wl : Mat 16 32) (bl : Mat 1 32) (wm : Mat 96 32)
    (bm : Mat 1 32) (wmsg : Mat 32 32) (bmsg : Mat 1 32) (n : Fin 200000) (k : Fin 32) : EReal :=
  max ((∑ l : Fin 32, nodeOf xl hg wl bl wm bm n l * wmsg (ix2 l k)) + bmsg (ix2 (0 : Fin 1) k)) 0

/-- The output from the arrays of the head stage. -/
def headOf (nd ag ms : Mat 200000 32) (ws : Mat 32 32) (bs : Mat 1 32) (wo : Mat 32 2) (bo : Mat 1 2)
    (n : Fin 200000) (j : Fin 2) : EReal :=
  (∑ k : Fin 32, max ((ag (ix2 n k) + ms (ix2 n k))
      + ((∑ l : Fin 32, nd (ix2 n l) * ws (ix2 l k)) + bs (ix2 (0 : Fin 1) k))) 0 * wo (ix2 k j))
    + bo (ix2 (0 : Fin 1) j)

end Cert.Spec

end
-- ==== Proof.SpecStages.lean ====
/-
  The two dense stages compute the network's quantities when the arrays they are handed are the network's:
  `nodeOf`, `msgOf` and `headOf` of arrays that agree, entry by entry, with the argument arrays, the per-node global
  activation, the node states, the arriving messages and the nodes' own messages are `node`, `msg` and `out`.
-/
import proofs.«402760_j11974368821437_2_alg».proof.Proof.Spec

noncomputable section

open scoped BigOperators

namespace Cert.Spec

open Idealize.ShloMosaic Idealize.ShloMosaic.ValueIdx

variable (a : Inputs)

/-- The encoder stage's node state is the network's. -/
theorem nodeOf_eq {xl : Mat 200000 16} {hg : Mat 200000 32} {wl : Mat 16 32} {bl : Mat 1 32} {wm : Mat 96 32}
    {bm : Mat 1 32} (hxl : xl = a.xLocal) (hhg : ∀ n l, hg (ix2 n l) = hGlobal a n l) (hwl : wl = a.wLocal)
    (hbl : ∀ l, bl (ix2 (0 : Fin 1) l) = a.bLocal (ix1 l)) (hwm : wm = a.wMix)
    (hbm : ∀ k, bm (ix2 (0 : Fin 1) k) = a.bMix (ix1 k)) (n : Fin 200000) (k : Fin 32) :
    nodeOf xl hg wl bl wm bm n k = node a n k := by
  subst hxl hwl hwm
  unfold nodeOf node localOf hLocal
  simp only [hhg, hbl, hbm]

/-- The encoder stage's message is the network's. -/
theorem msgOf_eq {xl : Mat 200000 16} {hg : Mat 200000 32} {wl : Mat 16 32} {bl : Mat 1 32} {wm : Mat 96 32}
    {bm : Mat 1 32} {wmsg : Mat 32 32} {bmsg : Mat 1 32}
    (hnode : ∀ n l, nodeOf xl hg wl bl wm bm n l = node a n l) (hwmsg : wmsg = a.wMsg)
    (hbmsg : ∀ k, bmsg (ix2 (0 : Fin 1) k) = a.bMsg (ix1 k)) (n : Fin 200000) (k : Fin 32) :
    msgOf xl hg wl bl wm bm wmsg bmsg n k = msg a n k := by
  subst hwmsg
  unfold msgOf msg
  simp only [hnode, hbmsg]

/-- The head stage's output is the network's. -/
theorem headOf_eq {nd ag ms : Mat 200000 32} {ws : Mat 32 32} {bs : Mat 1 32} {wo : Mat 32 2} {bo : Mat 1 2}
    (hnd : ∀ n l, nd (ix2 n l) = node a n l) (hag : ∀ n k, ag (ix2 n k) = agg a n k)
    (hms : ∀ n k, ms (ix2 n k) = msg a n k) (hws : ws = a.wSelf)
    (hbs : ∀ k, bs (ix2 (0 : Fin 1) k) = a.bSelf (ix1 k)) (hwo : wo = a.wOut)
    (hbo : ∀ j, bo (ix2 (0 : Fin 1) j) = a.bOut (ix1 j)) (n : Fin 200000) (j : Fin 2) :
    headOf nd ag ms ws bs wo bo n j = out a n j := by
  subst hws hwo
  unfold headOf out hid
  simp only [hnd, hag, hms, hbs, hbo]

end Cert.Spec

end
-- ==== Proof.KernelInputs.lean ====
/-
  The sixteen argument arrays of a core, as launched, in the network's vocabulary.
-/
import proofs.«402760_j11974368821437_2_alg».proof.KernelIdeal
import proofs.«402760_j11974368821437_2_alg».proof.Proof.Spec

noncomputable section

namespace Cert.KernelIdeal.KernelInputs

open Cert.KernelIdeal Idealize.ShloMosaic Idealize.ShloMosaic.TcCoe Idealize.SL.Sem

/-- The argument arrays of core `c` in the memory `m`. -/
def inputs (m : (ℓ : Loc nD τ sig) → Buf (Elt Ideal) ℓ) (c : Dev nD) : Cert.Spec.Inputs :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14),
   m ((c : Thread nD τ).loc main_arg15)⟩

end Cert.KernelIdeal.KernelInputs

end
-- ==== Proof.LibGatherRead.lean ====
/-
  Row, column, vector and batched gathers read at an index given by coordinates.

  A gather reads, for each result index, one operand entry: on every operand axis the position is the clamped start
  (the start-index word for that axis, read as a signed integer and clamped so that the slice fits; zero on an axis the
  start index map does not name) plus the result's coordinate on a batching axis plus the result's coordinate on an
  offset axis.  For the four arrangements below every slice has extent one on the indexed axis, so the clamp is into
  `[0, N - 1]`, and the other coordinates are copied from the result index.
-/
import Idealize.ShloMosaic.PureOps.ShapeOps
import Idealize.ShloMosaic.Lib.ValueIdx

noncomputable section

namespace Cert.LibGatherRead

open Idealize.ShloMosaic Idealize.ShloMosaic.ValueIdx

variable {α : Type}

/-! ## Rows of a table: `table[idx, :]` -/

/-- The dimension numbers of a gather of whole rows: operand `[N, C]`, start indices `[R, 1]`, result `[R, C]`; the
    result's axis 1 is the offset axis, the operand's axis 0 is collapsed and is the one the start index names, and a
    slice is one row `[1, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A ROW GATHER READ AT `(r, c)`: the operand at row `idx[r, 0]` (read signed, clamped into `[0, N − 1]`) and
    column `c`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    -- the indexed axis: the clamped start, nothing added
    show (rowsDims N C R wf).start (ix2 r c) idx 0 + (rowsDims N C R wf).batchCoord (ix2 r c) 0
        + (rowsDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r c) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: start zero, the result's column
    show (rowsDims N C R wf).start (ix2 r c) idx 1 + (rowsDims N C R wf).batchCoord (ix2 r c) 1
        + (rowsDims N C R wf).offCoord (ix2 r c) 1 = _
    rw [GatherDims.batchCoord_eq_zero _ _ _ List.not_mem_nil]
    unfold GatherDims.start
    rw [dif_neg (show (1 : Fin 2) ∉ (rowsDims N C R wf).startIndexMap from
      fun h => absurd (List.mem_singleton.mp h) (show ¬ ((1 : Fin 2) = 0) by decide))]
    simp only [Nat.add_zero, Nat.zero_add]
    rfl

/-! ## Columns of a table: `table[:, idx]` -/

/-- The dimension numbers of a gather of whole columns: operand `[R, N]`, start indices `[C, 1]`, result `[R, C]`;
    the result's axis 0 is the offset axis, the operand's axis 1 is collapsed and is the one the start index names, and
    a slice is one column `[R, 1]`. -/
abbrev colsDims (N C R : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- A COLUMN GATHER READ AT `(r, c)`: the operand at row `r` and column `idx[c, 0]` (read signed, clamped into
    `[0, N − 1]`). -/
theorem gather_cols_apply {N C R w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (c : Fin C) :
    Host.gather (colsDims N C R wf) x idx (ix2 r c)
      = x (ix2 r (⟨min (idx (ix2 c (0 : Fin 1))).toInt.toNat (N - 1), by omega⟩ : Fin N)) := by
  unfold Host.gather
  congr 1
  funext a
  refine Fin.ext ?_
  match a with
  | ⟨0, _⟩ =>
    -- the offset axis: start zero, the result's row
    show (colsDims N C R wf).start (ix2 r c) idx 0 + (colsDims N C R wf).batchCoord (ix2 r c) 0
        + (colsDims N C R wf).offCoord (ix2 r c) 0 = _
    rw [GatherDims.batchCoord_eq_zero _ _ _ List.not_mem_nil]
    unfold GatherDims.start
    rw [dif_neg (show (0 : Fin 2) ∉ (colsDims N C R wf).startIndexMap from
      fun h => absurd (List.mem_singleton.mp h) (show ¬ ((0 : Fin 2) = 1) by decide))]
    simp only [Nat.add_zero, Nat.zero_add]
    rfl
  | ⟨1, _⟩ =>
    -- the indexed axis: the clamped start, nothing added
    show (colsDims N C R wf).start (ix2 r c) idx 1 + (colsDims N C R wf).batchCoord (ix2 r c) 1
        + (colsDims N C R wf).offCoord (ix2 r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C R wf).startIndexMap from List.mem_singleton.mpr rfl)]
    have hsi : (colsDims N C R wf).siIdx (ix2 r c) ⟨List.idxOf (1 : Fin 2) (colsDims N C R wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

/-! ## Entries of a vector: `v[idx]` -/

/-- The dimension numbers of a gather of single entries of a vector: operand `[N]`, start indices `[R, 1]`, result
    `[R]`; no offset axis, the operand's only axis is collapsed and is the one the start index names, and a slice is one
    entry. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A VECTOR GATHER READ AT `r`: the operand at `idx[r, 0]` (read signed, clamped into `[0, N − 1]`). -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (vecDims N R wf).start (ix1 r) idx 0 + (vecDims N R wf).batchCoord (ix1 r) 0
        + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## One entry of each row, the row given by the batch: `take_along_axis(table, idx, axis = 1)` -/

/-- The dimension numbers of a batched gather of one entry per row: operand `[R, N]`, start indices `[R, 1, 1]`,
    result `[R, 1]`; no offset axis, axis 0 of the operand and of the start indices are the paired batching axes, the
    operand's axis 1 is collapsed and is the one the start index names, and a slice is one entry. -/
abbrev batchedDims (N R : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- A BATCHED GATHER READ AT `(r, u)`: the operand at row `r` and column `idx[r, 0, 0]` (read signed, clamped into
    `[0, N − 1]`). -/
theorem gather_batched_apply {N R w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1) :
    Host.gather (batchedDims N R wf) x idx (ix2 r u)
      = x (ix2 r (⟨min (idx (ix3 r (0 : Fin 1) (0 : Fin 1))).toInt.toNat (N - 1), by omega⟩ : Fin N)) := by
  obtain rfl : u = 0 := Subsingleton.elim _ _
  unfold Host.gather
  congr 1
  funext a
  refine Fin.ext ?_
  match a with
  | ⟨0, _⟩ =>
    -- the batching axis: start zero, the result's row, no offset
    show (batchedDims N R wf).start (ix2 r 0) idx 0 + (batchedDims N R wf).batchCoord (ix2 r 0) 0
        + (batchedDims N R wf).offCoord (ix2 r 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (batchedDims N R wf).operandBatchingDims from List.mem_singleton.mpr rfl)]
    rfl
  | ⟨1, _⟩ =>
    -- the indexed axis: the clamped start, nothing added
    show (batchedDims N R wf).start (ix2 r 0) idx 1 + (batchedDims N R wf).batchCoord (ix2 r 0) 1
        + (batchedDims N R wf).offCoord (ix2 r 0) 1 = _
    rw [GatherDims.batchCoord_eq_zero _ _ _ (fun h => absurd (List.mem_singleton.mp h)
        (show ¬ ((1 : Fin 2) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (batchedDims N R wf).startIndexMap from List.mem_singleton.mpr rfl)]
    have hsi : (batchedDims N R wf).siIdx (ix2 r 0) ⟨List.idxOf (1 : Fin 2) (batchedDims N R wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRead

end
-- ==== Proof.EncoderInputs.lean ====
/-
  What the encoder stage is handed: the arrays at its entry, after the host operations before it, as functions of
  the argument arrays.  The weights and the local features are the arguments themselves; each bias is the argument
  vector as a one-row matrix; the per-node global activation is the graph-level activation gathered at each node's
  graph.
-/
import proofs.«402760_j11974368821437_2_alg».proof.Proof.Gen.KernelIdeal.Frame
import proofs.«402760_j11974368821437_2_alg».proof.Proof.Spec
import proofs.«402760_j11974368821437_2_alg».proof.Proof.KernelInputs
import proofs.«402760_j11974368821437_2_alg».proof.Proof.LibGatherRead
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.EncoderInputs

open Cert.KernelIdeal Cert.KernelIdeal.Gen Cert.KernelIdeal.KernelInputs
open Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg)

/-! ## The arrays the host operations leave untouched -/

theorem xLocal_eq (c : Dev nD) : (V3 m ρ c main_arg0 : S200000x16.Idx → EReal) = (inputs m c).xLocal := by
  dsimp only [V3, W3, W2, W1]; after_results_simp; rfl
theorem wLocal_eq (c : Dev nD) : (V3 m ρ c main_arg4 : S16x32.Idx → EReal) = (inputs m c).wLocal := by
  dsimp only [V3, W3, W2, W1]; after_results_simp; rfl
theorem wMix_eq (c : Dev nD) : (V3 m ρ c main_arg8 : S96x32.Idx → EReal) = (inputs m c).wMix := by
  dsimp only [V3, W3, W2, W1]; after_results_simp; rfl
theorem wMsg_eq (c : Dev nD) : (V3 m ρ c main_arg10 : S32x32.Idx → EReal) = (inputs m c).wMsg := by
  dsimp only [V3, W3, W2, W1]; after_results_simp; rfl

/-! ## The biases as one-row matrices -/

/-- A length-32 vector reshaped to one row reads, at column `l`, the vector at `l`. -/
theorem row_of_vec (v : S32.Idx → EReal) (l : Fin 32) :
    shapeCast S1x32 v shapeCasts_S32_S1x32 (ix2 (0 : Fin 1) l) = v (ix1 l) :=
  shapeCast_apply v shapeCasts_S32_S1x32 (ix2 (0 : Fin 1) l) (ix1 l)
    (by rw [Shape.rowMajor_val_one, Shape.rowMajor_val_two]; show l.val = 0 * 32 + l.val; omega)

theorem bLocal_apply (c : Dev nD) (l : Fin 32) :
    (V3 m ρ c main_v0 : S1x32.Idx → EReal) (ix2 (0 : Fin 1) l) = (inputs m c).bLocal (ix1 l) := by
  have e : (V3 m ρ c main_v0 : S1x32.Idx → EReal)
      = shapeCast S1x32 (m ((c : Thread nD τ).loc main_arg5)) shapeCasts_S32_S1x32 := by
    dsimp only [V3, W3, W2, W1]; after_results_simp; rfl
  rw [e]; exact row_of_vec _ l
theorem bMix_apply (c : Dev nD) (l : Fin 32) :
    (V3 m ρ c main_v2 : S1x32.Idx → EReal) (ix2 (0 : Fin 1) l) = (inputs m c).bMix (ix1 l) := by
  have e : (V3 m ρ c main_v2 : S1x32.Idx → EReal)
      = shapeCast S1x32 (m ((c : Thread nD τ).loc main_arg9)) shapeCasts_S32_S1x32 := by
    dsimp only [V3, W3, W2, W1]; after_results_simp; rfl
  rw [e]; exact row_of_vec _ l
theorem bMsg_apply (c : Dev nD) (l : Fin 32) :
    (V3 m ρ c main_v3 : S1x32.Idx → EReal) (ix2 (0 : Fin 1) l) = (inputs m c).bMsg (ix1 l) := by
  have e : (V3 m ρ c main_v3 : S1x32.Idx → EReal)
      = shapeCast S1x32 (m ((c : Thread nD τ).loc main_arg11)) shapeCasts_S32_S1x32 := by
    dsimp only [V3, W3, W2, W1]; after_results_simp; rfl
  rw [e]; exact row_of_vec _ l

/-! ## The graph-level activation and its gather per node -/

theorem graphDot_lhs_0 (i : S128x32.Idx) (q : dot_S128x8_S8x32_S128x32_1_0_0_1_n_n.contr.Idx) : (dot_S128x8_S8x32_S128x32_1_0_0_1_n_n.lhsIdx i q 0).val = (i 0).val := by
  unfold DotDims.lhsIdx
  rw [dif_neg (show ¬(0 : Fin S128x8.rank) ∈ dot_S128x8_S8x32_S128x32_1_0_0_1_n_n.lhsBatch by decide), dif_pos (show (0 : Fin S128x8.rank) ∈ dot_S128x8_S8x32_S128x32_1_0_0_1_n_n.lhsNonContracting by decide)]
  rfl
theorem graphDot_lhs_1 (i : S128x32.Idx) (q : dot_S128x8_S8x32_S128x32_1_0_0_1_n_n.contr.Idx) : (dot_S128x8_S8x32_S128x32_1_0_0_1_n_n.lhsIdx i q 1).val = (q ⟨0, by decide⟩).val :=
  dot_S128x8_S8x32_S128x32_1_0_0_1_n_n.lhsIdx_val_of_single rfl i q
theorem graphDot_rhs_0 (i : S128x32.Idx) (q : dot_S128x8_S8x32_S128x32_1_0_0_1_n_n.contr.Idx) : (dot_S128x8_S8x32_S128x32_1_0_0_1_n_n.rhsIdx i q 0).val = (q ⟨0, by decide⟩).val :=
  dot_S128x8_S8x32_S128x32_1_0_0_1_n_n.rhsIdx_val_of_single rfl i q
theorem graphDot_rhs_1 (i : S128x32.Idx) (q : dot_S128x8_S8x32_S128x32_1_0_0_1_n_n.contr.Idx) : (dot_S128x8_S8x32_S128x32_1_0_0_1_n_n.rhsIdx i q 1).val = (i 1).val := by
  unfold DotDims.rhsIdx
  rw [dif_neg (show ¬(1 : Fin S8x32.rank) ∈ dot_S128x8_S8x32_S128x32_1_0_0_1_n_n.rhsBatch by decide), dif_pos (show (1 : Fin S8x32.rank) ∈ dot_S128x8_S8x32_S128x32_1_0_0_1_n_n.rhsNonContracting by decide)]
  rfl

/-- The graph features against the graph weights: entry `(b, l)` is the sum over the eight features. -/
theorem graphDot_apply (x : FVec Ideal S128x8 .f32) (w : FVec Ideal S8x32 .f32) (b : Fin 128) (l : Fin 32) :
    Host.dotGeneral (F := Ideal) dot_S128x8_S8x32_S128x32_1_0_0_1_n_n none x w (ix2 b l) = ∑ i : Fin 8, x (ix2 b i) * w (ix2 i l) := by
  simp only [Host.dotGeneral]
  rw [Ideal.dotGeneral_apply, ← Equiv.sum_comp (ValueIdx.contrEquiv1 dot_S128x8_S8x32_S128x32_1_0_0_1_n_n 8 rfl rfl).symm]
  refine Finset.sum_congr rfl fun k _ => ?_
  have hk := ValueIdx.contrEquiv1_symm_val dot_S128x8_S8x32_S128x32_1_0_0_1_n_n 8 rfl rfl k
  have el : dot_S128x8_S8x32_S128x32_1_0_0_1_n_n.lhsIdx (ix2 b l) ((ValueIdx.contrEquiv1 dot_S128x8_S8x32_S128x32_1_0_0_1_n_n 8 rfl rfl).symm k) = ix2 b k := funext fun a => Fin.ext (by
    match a with
    | ⟨0, _⟩ => exact graphDot_lhs_0 _ _
    | ⟨1, _⟩ => exact (graphDot_lhs_1 _ _).trans hk)
  have er : dot_S128x8_S8x32_S128x32_1_0_0_1_n_n.rhsIdx (ix2 b l) ((ValueIdx.contrEquiv1 dot_S128x8_S8x32_S128x32_1_0_0_1_n_n 8 rfl rfl).symm k) = ix2 k l := funext fun a => Fin.ext (by
    match a with
    | ⟨0, _⟩ => exact (graphDot_rhs_0 _ _).trans hk
    | ⟨1, _⟩ => exact graphDot_rhs_1 _ _)
  rw [el, er]

/-- A scalar zero laid over any shape reads zero. -/
theorem zeros_apply {t : Shape} (h : S_.BroadcastsInDim t ![]) (i : t.Idx) :
    broadcastInDim t ![] h (constant (F := Ideal) S_ .f32 0x00000000#32) i = 0 := by
  rw [broadcastInDim_apply _ h _ i ix0 (fun a => a.elim0), constant_apply]
  exact Ideal.ofBits_zero_f32

/-- The graph-level activation as the host computes it. -/
def graphAct (xg : FVec Ideal S128x8 .f32) (wg : FVec Ideal S8x32 .f32) (bg : FVec Ideal S32 .f32) : FVec Ideal S128x32 .f32 :=
  maximumf (addf (Host.dotGeneral (F := Ideal) dot_S128x8_S8x32_S128x32_1_0_0_1_n_n none xg wg)
      (broadcastInDim S128x32 ![0, 1] bcast_S1x32_S128x32_0_1 (shapeCast S1x32 bg shapeCasts_S32_S1x32)))
    (broadcastInDim S128x32 ![] bcast_S_S128x32 (constant (F := Ideal) S_ .f32 0x00000000#32))

/-- Each node's graph word, counted from the end when negative, as a column of start indices. -/
def graphIdx (batch : IVec S200000 32) : IVec S200000x1 32 :=
  broadcastInDim S200000x1 ![0] bcast_S200000_S200000x1_0
    (select (cmpi .slt batch (broadcastInDim S200000 ![] bcast_S_S200000 (constantI S_ 32 0#32)))
      (addi batch (broadcastInDim S200000 ![] bcast_S_S200000 (constantI S_ 32 128#32))) batch)

theorem graphAct_apply (c : Dev nD) (b : Fin 128) (l : Fin 32) :
    graphAct (m ((c : Thread nD τ).loc main_arg1)) (m ((c : Thread nD τ).loc main_arg6)) (m ((c : Thread nD τ).loc main_arg7)) (ix2 b l)
      = Cert.Spec.hGraph (inputs m c) b l := by
  unfold graphAct
  rw [maximumf_apply, addf_apply, graphDot_apply, zeros_apply]
  rw [broadcastInDim_apply _ bcast_S1x32_S128x32_0_1 _ (ix2 b l) (ix2 (0 : Fin 1) l) (fun a => match a with
    | ⟨0, _⟩ => by show 0 = if (1 : Nat) = 1 then 0 else b.val; rw [if_pos rfl]
    | ⟨1, _⟩ => by show l.val = if (32 : Nat) = 1 then 0 else l.val; rw [if_neg (by decide)])]
  rw [row_of_vec]
  rfl

theorem graphIdx_apply (batch : IVec S200000 32) (n : Fin 200000) :
    graphIdx batch (ix2 n (0 : Fin 1)) = Cert.Spec.wrap 128#32 (batch (ix1 n)) := by
  unfold graphIdx
  rw [broadcastInDim_apply _ bcast_S200000_S200000x1_0 _ (ix2 n (0 : Fin 1)) (ix1 n) (fun a => match a with
    | ⟨0, _⟩ => by show n.val = if (200000 : Nat) = 1 then 0 else n.val; rw [if_neg (by decide)])]
  rfl

/-- The per-node global activation handed to the encoder stage is the graph-level activation of the node's graph. -/
theorem hGlobal_apply (c : Dev nD) (n : Fin 200000) (l : Fin 32) :
    (V3 m ρ c main_v16 : S200000x32.Idx → EReal) (ix2 n l) = Cert.Spec.hGlobal (inputs m c) n l := by
  have e : (V3 m ρ c main_v16 : S200000x32.Idx → EReal)
      = Host.gather gather_S128x32_S200000x1_S200000x32_1_0_n_n_0_1_132
          (graphAct (m ((c : Thread nD τ).loc main_arg1)) (m ((c : Thread nD τ).loc main_arg6)) (m ((c : Thread nD τ).loc main_arg7)))
          (graphIdx (m ((c : Thread nD τ).loc main_arg2))) := by
    dsimp only [V3, W3, W2, W1]; after_results_simp; rfl
  rw [e]
  refine (Cert.LibGatherRead.gather_rows_apply (N := 128) (C := 32) (R := 200000) (by decide) gather_S128x32_S200000x1_S200000x32_1_0_n_n_0_1_132_wf
    (graphAct (m ((c : Thread nD τ).loc main_arg1)) (m ((c : Thread nD τ).loc main_arg6)) (m ((c : Thread nD τ).loc main_arg7)))
    (graphIdx (m ((c : Thread nD τ).loc main_arg2))) n l).trans ?_
  refine Eq.trans (congrArg (fun r : Fin 128 => graphAct (m ((c : Thread nD τ).loc main_arg1))
      (m ((c : Thread nD τ).loc main_arg6)) (m ((c : Thread nD τ).loc main_arg7)) (ix2 r l))
    (Fin.ext ?_ : _ = Cert.Spec.graphOf (inputs m c) n)) (graphAct_apply m c _ l)
  show min (graphIdx (m ((c : Thread nD τ).loc main_arg2)) (ix2 n (0 : Fin 1))).toInt.toNat (128 - 1)
    = min (Cert.Spec.wrap 128#32 ((inputs m c).batch (ix1 n))).toInt.toNat (128 - 1)
  rw [graphIdx_apply]; rfl

end Cert.KernelIdeal.EncoderInputs

end
-- ==== Proof.EdgeTake.lean ====
/-
  The take of the messages at the edges' sources.  A take reads, per edge, the row its source word names (a negative
  word counted from the end), and fills the row with a not-a-number where that is no row number.  Where every source
  word is a node number nothing is filled: the taken row is the source node's row.
-/
import proofs.«402760_j11974368821437_2_alg».proof.KernelIdeal
import proofs.«402760_j11974368821437_2_alg».proof.Proof.Gen.KernelIdeal
import proofs.«402760_j11974368821437_2_alg».proof.Proof.Spec
import proofs.«402760_j11974368821437_2_alg».proof.Proof.LibGatherRead
import Idealize.ShloMosaic.Lib.Pipeline.Value
import Idealize.ShloMosaic.Lib.ValueIdx
import Idealize.ShloMosaic.Lib.Affine
import Idealize.ShloMosaic.PureOps.Reduce
import Idealize.ShloMosaic.PureOps.Ideal.Laws

set_option maxRecDepth 16384

noncomputable section

open scoped BigOperators

namespace Cert.KernelIdeal.EdgeTake

open Cert.KernelIdeal Cert.KernelIdeal.Gen Idealize.ShloMosaic Idealize.ShloMosaic.ValueIdx

/-! ## The edge list's two rows -/

/-- Row 0 of the edge list: the source words. -/
def srcWords (x3 : IVec S2x6400000 32) : IVec S6400000 32 :=
  shapeCast S6400000 (extractStridedSlice S1x6400000 ![0, 0] x3 slices_S2x6400000_S1x6400000_0_0) shapeCasts_S1x6400000_S6400000
/-- Row 1 of the edge list: the target words. -/
def dstWords (x3 : IVec S2x6400000 32) : IVec S6400000 32 :=
  shapeCast S6400000 (extractStridedSlice S1x6400000 ![1, 0] x3 slices_S2x6400000_S1x6400000_1_0) shapeCasts_S1x6400000_S6400000

theorem srcWords_apply (x3 : IVec S2x6400000 32) (e : Fin 6400000) : srcWords x3 (ix1 e) = x3 (ix2 (0 : Fin 2) e) := by
  unfold srcWords
  rw [shapeCast_apply _ shapeCasts_S1x6400000_S6400000 (ix1 e) (ix2 (0 : Fin 1) e)
    (by rw [Shape.rowMajor_val_two, Shape.rowMajor_val_one]; show 0 * 6400000 + e.val = e.val; omega)]
  exact extractStridedSlice_apply _ x3 slices_S2x6400000_S1x6400000_0_0 (ix2 (0 : Fin 1) e) (ix2 (0 : Fin 2) e)
    (fun a => match a with
      | ⟨0, _⟩ => by show (0 : Nat) = 0 + 0; rfl
      | ⟨1, _⟩ => by show e.val = 0 + e.val; omega)
theorem dstWords_apply (x3 : IVec S2x6400000 32) (e : Fin 6400000) : dstWords x3 (ix1 e) = x3 (ix2 (1 : Fin 2) e) := by
  unfold dstWords
  rw [shapeCast_apply _ shapeCasts_S1x6400000_S6400000 (ix1 e) (ix2 (0 : Fin 1) e)
    (by rw [Shape.rowMajor_val_two, Shape.rowMajor_val_one]; show 0 * 6400000 + e.val = e.val; omega)]
  exact extractStridedSlice_apply _ x3 slices_S2x6400000_S1x6400000_1_0 (ix2 (0 : Fin 1) e) (ix2 (1 : Fin 2) e)
    (fun a => match a with
      | ⟨0, _⟩ => by show (1 : Nat) = 1 + 0; rfl
      | ⟨1, _⟩ => by show e.val = 0 + e.val; omega)

/-- A vector as a one-column matrix reads, at row `e`, the vector at `e`. -/
theorem col_of_vec {w : Nat} (v : IVec S6400000 w) (e : Fin 6400000) :
    broadcastInDim S6400000x1 ![0] bcast_S6400000_S6400000x1_0 v (ix2 e (0 : Fin 1)) = v (ix1 e) :=
  broadcastInDim_apply _ bcast_S6400000_S6400000x1_0 v (ix2 e (0 : Fin 1)) (ix1 e) (fun a => match a with
    | ⟨0, _⟩ => by show e.val = if (6400000 : Nat) = 1 then 0 else e.val; rw [if_neg (by decide)])

/-- A per-edge bit laid along the 32 columns reads, at `(e, k)`, the bit of edge `e`. -/
theorem cols_of_vec (v : IVec S6400000 1) (e : Fin 6400000) (k : Fin 32) :
    broadcastInDim S6400000x32 ![0] bcast_S6400000_S6400000x32_0 v (ix2 e k) = v (ix1 e) :=
  broadcastInDim_apply _ bcast_S6400000_S6400000x32_0 v (ix2 e k) (ix1 e) (fun a => match a with
    | ⟨0, _⟩ => by show e.val = if (6400000 : Nat) = 1 then 0 else e.val; rw [if_neg (by decide)])

/-! ## The take -/

/-- The source words, counted from the end when negative, as a column of start indices. -/
def takeIdx (x3 : IVec S2x6400000 32) : IVec S6400000x1 32 :=
  broadcastInDim S6400000x1 ![0] bcast_S6400000_S6400000x1_0
    (select (cmpi .slt (srcWords x3) (broadcastInDim S6400000 ![] bcast_S_S6400000 (constantI S_ 32 0#32)))
      (addi (srcWords x3) (broadcastInDim S6400000 ![] bcast_S_S6400000 (constantI S_ 32 200000#32))) (srcWords x3))

theorem takeIdx_apply (x3 : IVec S2x6400000 32) (e : Fin 6400000) :
    takeIdx x3 (ix2 e (0 : Fin 1)) = Cert.Spec.wrap 200000#32 (x3 (ix2 (0 : Fin 2) e)) := by
  unfold takeIdx
  rw [col_of_vec]
  show Scalar.select (IntOp.cmpi .slt (srcWords x3 (ix1 e)) 0#32) (IntOp.addi (srcWords x3 (ix1 e)) 200000#32)
    (srcWords x3 (ix1 e)) = _
  rw [srcWords_apply]; rfl

/-- Per edge: is the start index a row number, `0 ≤ · ≤ 199999`? -/
def takeMask (x3 : IVec S2x6400000 32) : IVec S6400000 1 :=
  Host.reduce IntOp.andi
    (andi (cmpi .sge (takeIdx x3) (broadcastInDim S6400000x1 ![] bcast_S_S6400000x1 (constantI S_ 32 0#32)))
      (cmpi .sle (takeIdx x3) (broadcastInDim S6400000x1 ![0, 1] bcast_S1x1_S6400000x1_0_1
        (broadcastInDim S1x1 ![1] bcast_S1_S1x1_1 (constantI S1 32 199999#32)))))
    (constantI S_ 1 1#1) reducesTo_S6400000x1_S6400000_d1 h_S_

/-- A word that is not negative is left as it is. -/
theorem wrap_of_nonneg (K v : BitVec 32) (hv : 0 ≤ v.toInt) : Cert.Spec.wrap K v = v := by
  unfold Cert.Spec.wrap
  have h : ¬ IntOp.cmpi .slt v 0#32 = 1#1 := fun h => by
    have := IntOp.cmpi_slt.mp h
    have h0 : (0#32 : BitVec 32).toInt = 0 := by decide
    omega
  rw [eq_zero_of_ne_one h, select_zero]

/-- A fold by `and` from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a]
    exact foldl_andi_one f hf l

variable {x3 : IVec S2x6400000 32}
  (hsrc : ∀ e : Fin 6400000, 0 ≤ (x3 (ix2 (0 : Fin 2) e)).toInt ∧ (x3 (ix2 (0 : Fin 2) e)).toInt < 200000)

include hsrc in
/-- Where every source word is a node number, every edge passes the take's range test. -/
theorem takeMask_one (j : S6400000.Idx) : takeMask x3 j = 1#1 := by
  unfold takeMask
  rw [Host.reduce_eq_foldl]
  refine foldl_andi_one _ (fun i => ?_) _
  obtain ⟨e, u, rfl⟩ : ∃ (e : Fin 6400000) (u : Fin 1), i = ix2 e u := ⟨i 0, i 1, eq_ix2 i⟩
  obtain rfl : u = 0 := Subsingleton.elim _ _
  show IntOp.andi (IntOp.cmpi .sge (takeIdx x3 (ix2 e (0 : Fin 1))) 0#32)
    (IntOp.cmpi .sle (takeIdx x3 (ix2 e (0 : Fin 1))) 199999#32) = 1#1
  rw [takeIdx_apply, wrap_of_nonneg _ _ (hsrc e).1]
  have h0 : (0#32 : BitVec 32).toInt = 0 := by decide
  have h1 : (199999#32 : BitVec 32).toInt = 199999 := by decide
  refine IntOp.andi_eq_one.mpr ⟨IntOp.cmpi_sge.mpr ?_, IntOp.cmpi_sle.mpr ?_⟩
  · rw [h0]; exact (hsrc e).1
  · rw [h1]; have := (hsrc e).2; omega

/-- The messages taken at the edges' sources, a not-a-number row where the range test fails. -/
def taken (M : FVec Ideal S200000x32 .f32) (x3 : IVec S2x6400000 32) : FVec Ideal S6400000x32 .f32 :=
  select (broadcastInDim S6400000x32 ![0] bcast_S6400000_S6400000x32_0 (takeMask x3))
    (Host.gather gather_S200000x32_S6400000x1_S6400000x32_1_0_n_n_0_1_132 M (takeIdx x3))
    (broadcastInDim S6400000x32 ![] bcast_S_S6400000x32 (constant (F := Ideal) S_ .f32 0x7FC00000#32))

include hsrc in
/-- Where every source word is a node number, the taken row of edge `e` is the source node's row. -/
theorem taken_apply (M : FVec Ideal S200000x32 .f32) (e : Fin 6400000) (k : Fin 32) :
    taken M x3 (ix2 e k)
      = M (ix2 (Cert.Spec.row 200000 (by decide) (Cert.Spec.wrap 200000#32 (x3 (ix2 (0 : Fin 2) e)))) k) := by
  unfold taken
  rw [select_apply]
  have hm : broadcastInDim S6400000x32 ![0] bcast_S6400000_S6400000x32_0 (takeMask x3) (ix2 e k) = 1#1 := by
    rw [cols_of_vec]
    exact takeMask_one hsrc _
  rw [hm, select_one]
  refine (Cert.LibGatherRead.gather_rows_apply (N := 200000) (C := 32) (R := 6400000) (by decide) gather_S200000x32_S6400000x1_S6400000x32_1_0_n_n_0_1_132_wf
    M (takeIdx x3) e k).trans ?_
  refine congrArg (fun r : Fin 200000 => M (ix2 r k)) (Fin.ext ?_)
  show min (takeIdx x3 (ix2 e (0 : Fin 1))).toInt.toNat (200000 - 1)
    = min (Cert.Spec.wrap 200000#32 (x3 (ix2 (0 : Fin 2) e))).toInt.toNat (200000 - 1)
  rw [takeIdx_apply]

end Cert.KernelIdeal.EdgeTake

end
-- ==== Proof.LibScatterAddRead.lean ====
/-
  Accumulating row and column scatters read at an index given by coordinates, over the extended reals.

  An accumulating scatter adds every update entry to the operand entry it lands on.  Where an update lands is its
  start (the scatter-index word for the scattered axis, read as a signed integer and NOT clamped; zero on the other
  axis) plus its window coordinate; an update whose landing position is outside the operand is dropped.  For a
  scatter of whole rows (or whole columns) the update `(r, c)` lands in row `idx[r, 0]` and column `c` (or in row
  `r` and column `idx[c, 0]`), so an operand entry receives the sum, over the scatter positions whose word names its
  row (its column), of the update entries in its column (its row).
-/
import Idealize.ShloMosaic.PureOps.Contract
import Idealize.ShloMosaic.PureOps.Ideal
import Idealize.ShloMosaic.Lib.ValueIdx

noncomputable section

open scoped BigOperators

namespace Cert.LibScatterAddRead

open Idealize.ShloMosaic Idealize.ShloMosaic.ValueIdx

/-- An operand axis is among the window axes' targets exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## Rows of a table: `table.at[idx, :].add(upd)` -/

/-- The dimension numbers of a scatter of whole rows: operand `[N, C]`, scatter indices `[R, 1]`, updates `[R, C]`;
    the updates' axis 1 is the window axis, the operand's axis 0 is inserted and is the one the scatter index names. -/
abbrev rowsDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N C R w : Nat} (wf : ScatterDims.WF ⟨2, ![N, C]⟩ ⟨2, ![R, 1]⟩ ⟨2, ![R, C]⟩ [1] [0] [0] 1)
  (idx : IVec ⟨2, ![R, 1]⟩ w)

/-- On the scattered axis an update's start is its scatter-index word, read signed. -/
theorem rows_start0 (r : Fin R) (c : Fin C) :
    (rowsDims N C R wf).start (ix2 r c) idx 0 = (idx (ix2 r (0 : Fin 1))).toInt := by
  unfold ScatterDims.start
  rw [dif_pos (show (0 : Fin 2) ∈ (rowsDims N C R wf).scatterDimsToOperandDims from List.mem_singleton.mpr rfl)]
  have hsi : (rowsDims N C R wf).siIdx (ix2 r c) ⟨List.idxOf (0 : Fin 2) (rowsDims N C R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- On the window axis the start is zero. -/
theorem rows_start1 (r : Fin R) (c : Fin C) : (rowsDims N C R wf).start (ix2 r c) idx 1 = 0 := by
  unfold ScatterDims.start
  rw [dif_neg (show (1 : Fin 2) ∉ (rowsDims N C R wf).scatterDimsToOperandDims from
    fun h => absurd (List.mem_singleton.mp h) (show ¬ ((1 : Fin 2) = 0) by decide))]

/-- The scattered axis is inserted: no window coordinate there. -/
theorem rows_window0 (r : Fin R) (c : Fin C) : (rowsDims N C R wf).window (ix2 r c) 0 = 0 := by
  unfold ScatterDims.window
  rw [dif_neg (show (0 : Fin 2) ∉ (rowsDims N C R wf).sKept from
    fun h => (mem_sKept _ _).mp h (List.mem_singleton.mpr rfl))]

/-- The window coordinate on the other axis is the update's column. -/
theorem rows_window1 (r : Fin R) (c : Fin C) : (rowsDims N C R wf).window (ix2 r c) 1 = c.val := by
  unfold ScatterDims.window
  rw [dif_pos (show (1 : Fin 2) ∈ (rowsDims N C R wf).sKept from
    (mem_sKept _ _).mpr fun h => absurd (List.mem_singleton.mp h) (show ¬ ((1 : Fin 2) = 0) by decide))]
  rfl

/-- Where the update `(r, c)` lands: at `(n, c')` exactly when its scatter-index word, read signed, is `n` and
    `c = c'`. -/
theorem rows_lands_iff (r : Fin R) (c : Fin C) (n : Fin N) (c' : Fin C) :
    (rowsDims N C R wf).resultIdx? (ix2 r c) idx = some (ix2 n c')
      ↔ (idx (ix2 r (0 : Fin 1))).toInt = (n.val : Int) ∧ c = c' := by
  unfold ScatterDims.resultIdx?
  constructor
  · intro h
    split at h
    · have hf := Option.some.inj h
      have h0 : ((rowsDims N C R wf).start (ix2 r c) idx 0 + ((rowsDims N C R wf).window (ix2 r c) 0 : Int)).toNat = n.val :=
        congrArg (fun f : (⟨2, ![N, C]⟩ : Shape).Idx => (f 0).val) hf
      have h1 : ((rowsDims N C R wf).start (ix2 r c) idx 1 + ((rowsDims N C R wf).window (ix2 r c) 1 : Int)).toNat = c'.val :=
        congrArg (fun f : (⟨2, ![N, C]⟩ : Shape).Idx => (f 1).val) hf
      rename_i hall
      have hb := (hall 0).1
      rw [rows_start0, rows_window0] at h0 hb
      rw [rows_start1, rows_window1] at h1
      refine ⟨by omega, Fin.ext (by omega)⟩
    · exact absurd h (by simp)
  · rintro ⟨hv, rfl⟩
    have hall : ∀ a : Fin 2, 0 ≤ (rowsDims N C R wf).start (ix2 r c) idx a + ((rowsDims N C R wf).window (ix2 r c) a : Int)
        ∧ (rowsDims N C R wf).start (ix2 r c) idx a + ((rowsDims N C R wf).window (ix2 r c) a : Int)
          < ((⟨2, ![N, C]⟩ : Shape).size a : Int) := by
      intro a
      match a with
      | ⟨0, _⟩ =>
        show 0 ≤ (rowsDims N C R wf).start (ix2 r c) idx 0 + ((rowsDims N C R wf).window (ix2 r c) 0 : Int)
          ∧ (rowsDims N C R wf).start (ix2 r c) idx 0 + ((rowsDims N C R wf).window (ix2 r c) 0 : Int) < (N : Int)
        rw [rows_start0, rows_window0, hv]
        have := n.isLt
        omega
      | ⟨1, _⟩ =>
        show 0 ≤ (rowsDims N C R wf).start (ix2 r c) idx 1 + ((rowsDims N C R wf).window (ix2 r c) 1 : Int)
          ∧ (rowsDims N C R wf).start (ix2 r c) idx 1 + ((rowsDims N C R wf).window (ix2 r c) 1 : Int) < (C : Int)
        rw [rows_start1, rows_window1]
        have := c.isLt
        omega
    rw [dif_pos hall]
    refine congrArg some (funext fun a => Fin.ext ?_)
    match a with
    | ⟨0, _⟩ =>
      show ((rowsDims N C R wf).start (ix2 r c) idx 0 + ((rowsDims N C R wf).window (ix2 r c) 0 : Int)).toNat = n.val
      rw [rows_start0, rows_window0, hv]
      omega
    | ⟨1, _⟩ =>
      show ((rowsDims N C R wf).start (ix2 r c) idx 1 + ((rowsDims N C R wf).window (ix2 r c) 1 : Int)).toNat = c.val
      rw [rows_start1, rows_window1]
      omega

/-- AN ACCUMULATING ROW SCATTER READ AT `(n, c)`: the operand entry plus the sum, over the scatter positions `r` whose
    word names row `n`, of the update entries `(r, c)`. -/
theorem scatterAdd_rows_apply (x : (⟨2, ![N, C]⟩ : Shape).Idx → EReal) (upd : (⟨2, ![R, C]⟩ : Shape).Idx → EReal)
    (n : Fin N) (c : Fin C) :
    Ideal.hostScatterAdd (rowsDims N C R wf) x idx upd (ix2 n c)
      = x (ix2 n c) + ∑ r : Fin R, if (idx (ix2 r (0 : Fin 1))).toInt = (n.val : Int) then upd (ix2 r c) else 0 := by
  unfold Ideal.hostScatterAdd
  refine congrArg (x (ix2 n c) + ·) ?_
  rw [Finset.sum_filter, sum_idx2]
  refine Finset.sum_congr rfl fun r _ => ?_
  by_cases hv : (idx (ix2 r (0 : Fin 1))).toInt = (n.val : Int)
  · rw [if_pos hv]
    rw [Finset.sum_eq_single c]
    · rw [if_pos ((rows_lands_iff wf idx r c n c).mpr ⟨hv, rfl⟩)]
    · intro c' _ hne
      rw [if_neg (fun h => hne ((rows_lands_iff wf idx r c' n c).mp h).2)]
    · intro h; exact absurd (Finset.mem_univ c) h
  · rw [if_neg hv]
    refine Finset.sum_eq_zero fun c' _ => ?_
    rw [if_neg (fun h => hv ((rows_lands_iff wf idx r c' n c).mp h).1)]

end Rows

/-! ## Columns of a table: `table.at[:, idx].add(upd)` -/

/-- The dimension numbers of a scatter of whole columns: operand `[R, N]`, scatter indices `[C, 1]`, updates
    `[R, C]`; the updates' axis 0 is the window axis, the operand's axis 1 is inserted and is the one the scatter index
    names. -/
abbrev colsDims (N C R : Nat)
    (wf : ScatterDims.WF ⟨2, ![R, N]⟩ ⟨2, ![C, 1]⟩ ⟨2, ![R, C]⟩ [0] [1] [1] 1) :
    ScatterDims ⟨2, ![R, N]⟩ ⟨2, ![C, 1]⟩ ⟨2, ![R, C]⟩ where
  updateWindowDims := [0]
  insertedWindowDims := [1]
  scatterDimsToOperandDims := [1]
  indexVectorDim := 1
  wf := wf

section Cols
variable {N C R w : Nat} (wf : ScatterDims.WF ⟨2, ![R, N]⟩ ⟨2, ![C, 1]⟩ ⟨2, ![R, C]⟩ [0] [1] [1] 1)
  (idx : IVec ⟨2, ![C, 1]⟩ w)

/-- On the window axis the start is zero. -/
theorem cols_start0 (r : Fin R) (c : Fin C) : (colsDims N C R wf).start (ix2 r c) idx 0 = 0 := by
  unfold ScatterDims.start
  rw [dif_neg (show (0 : Fin 2) ∉ (colsDims N C R wf).scatterDimsToOperandDims from
    fun h => absurd (List.mem_singleton.mp h) (show ¬ ((0 : Fin 2) = 1) by decide))]

/-- On the scattered axis an update's start is its scatter-index word, read signed. -/
theorem cols_start1 (r : Fin R) (c : Fin C) :
    (colsDims N C R wf).start (ix2 r c) idx 1 = (idx (ix2 c (0 : Fin 1))).toInt := by
  unfold ScatterDims.start
  rw [dif_pos (show (1 : Fin 2) ∈ (colsDims N C R wf).scatterDimsToOperandDims from List.mem_singleton.mpr rfl)]
  have hsi : (colsDims N C R wf).siIdx (ix2 r c) ⟨List.idxOf (1 : Fin 2) (colsDims N C R wf).scatterDimsToOperandDims,
      List.idxOf_lt_length_iff.2 (List.mem_singleton.mpr rfl)⟩ = ix2 c (0 : Fin 1) := by
    funext b; refine Fin.ext ?_
    match b with
    | ⟨0, _⟩ => rfl
    | ⟨1, _⟩ => rfl
  rw [hsi]

/-- The window coordinate on the window axis is the update's row. -/
theorem cols_window0 (r : Fin R) (c : Fin C) : (colsDims N C R wf).window (ix2 r c) 0 = r.val := by
  unfold ScatterDims.window
  rw [dif_pos (show (0 : Fin 2) ∈ (colsDims N C R wf).sKept from
    (mem_sKept _ _).mpr fun h => absurd (List.mem_singleton.mp h) (show ¬ ((0 : Fin 2) = 1) by decide))]
  rfl

/-- The scattered axis is inserted: no window coordinate there. -/
theorem cols_window1 (r : Fin R) (c : Fin C) : (colsDims N C R wf).window (ix2 r c) 1 = 0 := by
  unfold ScatterDims.window
  rw [dif_neg (show (1 : Fin 2) ∉ (colsDims N C R wf).sKept from
    fun h => (mem_sKept _ _).mp h (List.mem_singleton.mpr rfl))]

/-- Where the update `(r, c)` lands: at `(r', n)` exactly when `r = r'` and its scatter-index word, read signed, is
    `n`. -/
theorem cols_lands_iff (r : Fin R) (c : Fin C) (r' : Fin R) (n : Fin N) :
    (colsDims N C R wf).resultIdx? (ix2 r c) idx = some (ix2 r' n)
      ↔ r = r' ∧ (idx (ix2 c (0 : Fin 1))).toInt = (n.val : Int) := by
  unfold ScatterDims.resultIdx?
  constructor
  · intro h
    split at h
    · have hf := Option.some.inj h
      have h0 : ((colsDims N C R wf).start (ix2 r c) idx 0 + ((colsDims N C R wf).window (ix2 r c) 0 : Int)).toNat = r'.val :=
        congrArg (fun f : (⟨2, ![R, N]⟩ : Shape).Idx => (f 0).val) hf
      have h1 : ((colsDims N C R wf).start (ix2 r c) idx 1 + ((colsDims N C R wf).window (ix2 r c) 1 : Int)).toNat = n.val :=
        congrArg (fun f : (⟨2, ![R, N]⟩ : Shape).Idx => (f 1).val) hf
      rename_i hall
      have hb := (hall 1).1
      rw [cols_start0, cols_window0] at h0
      rw [cols_start1, cols_window1] at h1 hb
      refine ⟨Fin.ext (by omega), by omega⟩
    · exact absurd h (by simp)
  · rintro ⟨rfl, hv⟩
    have hall : ∀ a : Fin 2, 0 ≤ (colsDims N C R wf).start (ix2 r c) idx a + ((colsDims N C R wf).window (ix2 r c) a : Int)
        ∧ (colsDims N C R wf).start (ix2 r c) idx a + ((colsDims N C R wf).window (ix2 r c) a : Int)
          < ((⟨2, ![R, N]⟩ : Shape).size a : Int) := by
      intro a
      match a with
      | ⟨0, _⟩ =>
        show 0 ≤ (colsDims N C R wf).start (ix2 r c) idx 0 + ((colsDims N C R wf).window (ix2 r c) 0 : Int)
          ∧ (colsDims N C R wf).start (ix2 r c) idx 0 + ((colsDims N C R wf).window (ix2 r c) 0 : Int) < (R : Int)
        rw [cols_start0, cols_window0]
        have := r.isLt
        omega
      | ⟨1, _⟩ =>
        show 0 ≤ (colsDims N C R wf).start (ix2 r c) idx 1 + ((colsDims N C R wf).window (ix2 r c) 1 : Int)
          ∧ (colsDims N C R wf).start (ix2 r c) idx 1 + ((colsDims N C R wf).window (ix2 r c) 1 : Int) < (N : Int)
        rw [cols_start1, cols_window1, hv]
        have := n.isLt
        omega
    rw [dif_pos hall]
    refine congrArg some (funext fun a => Fin.ext ?_)
    match a with
    | ⟨0, _⟩ =>
      show ((colsDims N C R wf).start (ix2 r c) idx 0 + ((colsDims N C R wf).window (ix2 r c) 0 : Int)).toNat = r.val
      rw [cols_start0, cols_window0]
      omega
    | ⟨1, _⟩ =>
      show ((colsDims N C R wf).start (ix2 r c) idx 1 + ((colsDims N C R wf).window (ix2 r c) 1 : Int)).toNat = n.val
      rw [cols_start1, cols_window1, hv]
      omega

/-- AN ACCUMULATING COLUMN SCATTER READ AT `(r, n)`: the operand entry plus the sum, over the scatter positions `c`
    whose word names column `n`, of the update entries `(r, c)`. -/
theorem scatterAdd_cols_apply (x : (⟨2, ![R, N]⟩ : Shape).Idx → EReal) (upd : (⟨2, ![R, C]⟩ : Shape).Idx → EReal)
    (r : Fin R) (n : Fin N) :
    Ideal.hostScatterAdd (colsDims N C R wf) x idx upd (ix2 r n)
      = x (ix2 r n) + ∑ c : Fin C, if (idx (ix2 c (0 : Fin 1))).toInt = (n.val : Int) then upd (ix2 r c) else 0 := by
  unfold Ideal.hostScatterAdd
  refine congrArg (x (ix2 r n) + ·) ?_
  rw [Finset.sum_filter, sum_idx2, Finset.sum_eq_single r]
  · refine Finset.sum_congr rfl fun c _ => ?_
    by_cases hv : (idx (ix2 c (0 : Fin 1))).toInt = (n.val : Int)
    · rw [if_pos hv, if_pos ((cols_lands_iff wf idx r c r n).mpr ⟨rfl, hv⟩)]
    · rw [if_neg hv, if_neg (fun h => hv ((cols_lands_iff wf idx r c r n).mp h).2)]
  · intro r' _ hne
    refine Finset.sum_eq_zero fun c _ => ?_
    rw [if_neg (fun h => hne ((cols_lands_iff wf idx r' c r n).mp h).1)]
  · intro h; exact absurd (Finset.mem_univ r) h

end Cols

end Cert.LibScatterAddRead

end
-- ==== Proof.LibHostScatterAdd.lean ====
/-
  The host's accumulating row scatter over the extended reals, read at an index.

  `Host.scatterAdd` at the ideal instance is the exact sum: each operand entry plus the sum of the update entries that
  land on it.  For a scatter of whole rows (operand `[N, C]`, scatter indices `[R, 1]`, updates `[R, C]`) entry
  `(n, c)` receives the update entries `(r, c)` of the scatter positions `r` whose word, read signed, is `n`.  The
  lemma takes the dimension numbers as a variable together with the equation that says they are a row scatter's, so
  that a use at literal extents is a plain application: nothing about the sum is ever compared by unfolding it.
-/
import Idealize.ShloMosaic.PureOps.Contract
import Idealize.ShloMosaic.PureOps.Ideal
import Idealize.ShloMosaic.Lib.ValueIdx
import proofs.«402760_j11974368821437_2_alg».proof.Proof.LibScatterAddRead

noncomputable section

open scoped BigOperators

namespace Cert.LibHostScatterAdd

open Idealize.ShloMosaic Idealize.ShloMosaic.ValueIdx

/-- THE HOST'S ACCUMULATING ROW SCATTER READ AT `(n, c)`: the operand entry plus the sum, over the scatter positions
    whose word names row `n`, of the update entries in column `c`. -/
theorem hostScatterAdd_rows_apply {N C R w : Nat}
    (wf : ScatterDims.WF ⟨2, ![N, C]⟩ ⟨2, ![R, 1]⟩ ⟨2, ![R, C]⟩ [1] [0] [0] 1)
    (d : ScatterDims ⟨2, ![N, C]⟩ ⟨2, ![R, 1]⟩ ⟨2, ![R, C]⟩) (hd : d = Cert.LibScatterAddRead.rowsDims N C R wf)
    (x : FVec Ideal ⟨2, ![N, C]⟩ .f32) (idx : IVec ⟨2, ![R, 1]⟩ w) (upd : FVec Ideal ⟨2, ![R, C]⟩ .f32)
    (n : Fin N) (c : Fin C) :
    Host.scatterAdd (F := Ideal) d x idx upd (ix2 n c)
      = x (ix2 n c) + ∑ r : Fin R, if (idx (ix2 r (0 : Fin 1))).toInt = (n.val : Int) then upd (ix2 r c) else 0 := by
  subst hd
  unfold Host.scatterAdd
  rw [Ideal.hostScatterAdd_def]
  exact Cert.LibScatterAddRead.scatterAdd_rows_apply wf idx x upd n c

end Cert.LibHostScatterAdd

end
-- ==== Proof.EdgeScatter.lean ====
/-
  The scatter of the taken messages at the edges' targets: from zero, every taken row added to the row its target
  word names (a word that names no row adds nothing).  Where every source word is a node number, entry `(n, k)` is
  the sum over the edges into `n` of the source node's entry `k`.
-/
import proofs.«402760_j11974368821437_2_alg».proof.KernelIdeal
import proofs.«402760_j11974368821437_2_alg».proof.Proof.Gen.KernelIdeal
import proofs.«402760_j11974368821437_2_alg».proof.Proof.Spec
import proofs.«402760_j11974368821437_2_alg».proof.Proof.EdgeTake
import proofs.«402760_j11974368821437_2_alg».proof.Proof.LibScatterAddRead
import proofs.«402760_j11974368821437_2_alg».proof.Proof.LibHostScatterAdd
import Idealize.ShloMosaic.PureOps.Contract
import Idealize.ShloMosaic.Lib.Pipeline.Value
import Idealize.ShloMosaic.Lib.ValueIdx
import Idealize.ShloMosaic.Lib.Affine
import Idealize.ShloMosaic.PureOps.Reduce
import Idealize.ShloMosaic.PureOps.Ideal.Laws

set_option maxRecDepth 16384

noncomputable section

open scoped BigOperators

namespace Cert.KernelIdeal.EdgeScatter

open Cert.KernelIdeal Cert.KernelIdeal.Gen Idealize.ShloMosaic Idealize.ShloMosaic.ValueIdx
open Cert.KernelIdeal.EdgeTake

/-- A scalar zero laid over any shape reads zero. -/
theorem zeros_apply {t : Shape} (h : S_.BroadcastsInDim t ![]) (i : t.Idx) :
    broadcastInDim t ![] h (constant (F := Ideal) S_ .f32 0x00000000#32) i = 0 := by
  rw [broadcastInDim_apply _ h _ i ix0 (fun a => a.elim0), constant_apply]
  exact Ideal.ofBits_zero_f32

/-- The program's scatter adds whole rows: its dimension numbers are those of a row scatter. -/
theorem scatterDims_eq : scatter_S200000x32_S6400000x1_S6400000x32_1_0_0_1
    = Cert.LibScatterAddRead.rowsDims 200000 32 6400000 scatter_S200000x32_S6400000x1_S6400000x32_1_0_0_1_wf := rfl

variable {x3 : IVec S2x6400000 32}
  (hsrc : ∀ e : Fin 6400000, 0 ≤ (x3 (ix2 (0 : Fin 2) e)).toInt ∧ (x3 (ix2 (0 : Fin 2) e)).toInt < 200000)

include hsrc in
/-- Where every source word is a node number: entry `(n, k)` of the scatter of the taken rows, from zero, is the sum,
    over the edges whose target word is `n`, of the source node's entry `k`. -/
theorem scattered_apply (M : FVec Ideal S200000x32 .f32) (n : Fin 200000) (k : Fin 32) :
    Host.scatterAdd (F := Ideal) scatter_S200000x32_S6400000x1_S6400000x32_1_0_0_1
        (broadcastInDim S200000x32 ![] bcast_S_S200000x32 (constant (F := Ideal) S_ .f32 0x00000000#32))
        (broadcastInDim S6400000x1 ![0] bcast_S6400000_S6400000x1_0 (dstWords x3))
        (taken M x3) (ix2 n k)
      = ∑ e : Fin 6400000, if (x3 (ix2 (1 : Fin 2) e)).toInt = (n.val : Int)
          then M (ix2 (Cert.Spec.row 200000 (by decide) (Cert.Spec.wrap 200000#32 (x3 (ix2 (0 : Fin 2) e)))) k) else 0 := by
  have h := Cert.LibHostScatterAdd.hostScatterAdd_rows_apply (N := 200000) (C := 32) (R := 6400000) scatter_S200000x32_S6400000x1_S6400000x32_1_0_0_1_wf scatter_S200000x32_S6400000x1_S6400000x32_1_0_0_1 scatterDims_eq
    (broadcastInDim S200000x32 ![] bcast_S_S200000x32 (constant (F := Ideal) S_ .f32 0x00000000#32))
    (broadcastInDim S6400000x1 ![0] bcast_S6400000_S6400000x1_0 (dstWords x3))
    (taken M x3) n k
  refine h.trans ?_
  rw [zeros_apply, zero_add]
  refine Finset.sum_congr rfl fun e _ => ?_
  rw [col_of_vec, dstWords_apply, taken_apply hsrc]

end Cert.KernelIdeal.EdgeScatter

end
-- ==== Proof.TakeCall.lean ====
/-
  The take between the two stages, op by op.  The take is a function of its own: its operations (index words
  counted from the end, the range test, the gather, the not-a-number fill, the select) are read here in three
  pieces — everything up to the range test's two compares, the reduction that joins them per edge, and the gather,
  fill and select — each from an arbitrary valuation at its entry, and then put together.
-/
import proofs.«402760_j11974368821437_2_alg».proof.Proof.Gen.KernelIdeal.Launch
import Idealize.ShloMosaic.PureOps.Ideal
import Idealize.ShloMosaic.Lib.StableHlo.Run
import Idealize.ShloMosaic.Lib.Pipeline.Frame

set_option maxRecDepth 16384

noncomputable section

namespace Cert.KernelIdeal.TakeCall

open Cert.KernelIdeal Cert.KernelIdeal.Gen Idealize.ShloMosaic Idealize.ShloMosaic.TcCoe
open Idealize.ShloMosaic.StableHlo Idealize.SL.Sem

-- a reduce or a gather over millions of entries is compared argument by argument, never by unfolding it
attribute [local irreducible] Host.reduce Host.gather

/-- The take's operations up to the two compares of the range test and their conjunction. -/
abbrev callHead : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S6400000, .i32⟩) (broadcastInDim S6400000 ![] bcast_S_S6400000),
    StableHlo.TRef.binary (.of main_v19 : StableHlo.TRef sig ⟨S6400000, .i32⟩) (.of main_call1_v0 : StableHlo.TRef sig ⟨S6400000, .i32⟩) (.of main_call1_v1 : StableHlo.TRef sig ⟨S6400000, .i1⟩) (cmpi .slt),
    StableHlo.TRef.nullary (.of main_call1_c_0 : StableHlo.TRef sig ⟨S_, .i32⟩) (constantI S_ 32 200000#32),
    StableHlo.TRef.unary (.of main_call1_c_0 : StableHlo.TRef sig ⟨S_, .i32⟩) (.of main_call1_v2 : StableHlo.TRef sig ⟨S6400000, .i32⟩) (broadcastInDim S6400000 ![] bcast_S_S6400000),
    StableHlo.TRef.binary (.of main_v19 : StableHlo.TRef sig ⟨S6400000, .i32⟩) (.of main_call1_v2 : StableHlo.TRef sig ⟨S6400000, .i32⟩) (.of main_call1_v3 : StableHlo.TRef sig ⟨S6400000, .i32⟩) addi,
    StableHlo.TRef.ternary (.of main_call1_v1 : StableHlo.TRef sig ⟨S6400000, .i1⟩) (.of main_call1_v3 : StableHlo.TRef sig ⟨S6400000, .i32⟩) (.of main_v19 : StableHlo.TRef sig ⟨S6400000, .i32⟩) (.of main_call1_v4 : StableHlo.TRef sig ⟨S6400000, .i32⟩) select,
    StableHlo.TRef.unary main_call1_call0.v0 (.of main_call1_v5 : StableHlo.TRef sig ⟨S6400000x1, .i32⟩) (broadcastInDim S6400000x1 ![0] bcast_S6400000_S6400000x1_0),
    StableHlo.TRef.nullary (.of main_call1_c_1 : StableHlo.TRef sig ⟨S1, .i32⟩) (constantI S1 32 199999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S6400000x1, .i32⟩) (broadcastInDim S6400000x1 ![] bcast_S_S6400000x1),
    StableHlo.TRef.binary (.of main_call1_v5 : StableHlo.TRef sig ⟨S6400000x1, .i32⟩) (.of main_call1_v6 : StableHlo.TRef sig ⟨S6400000x1, .i32⟩) (.of main_call1_v7 : StableHlo.TRef sig ⟨S6400000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S6400000x1, .i32⟩) (broadcastInDim S6400000x1 ![0, 1] bcast_S1x1_S6400000x1_0_1),
    StableHlo.TRef.binary (.of main_call1_v5 : StableHlo.TRef sig ⟨S6400000x1, .i32⟩) (.of main_call1_v9 : StableHlo.TRef sig ⟨S6400000x1, .i32⟩) (.of main_call1_v10 : StableHlo.TRef sig ⟨S6400000x1, .i1⟩) (cmpi .sle),
    StableHlo.TRef.binary (.of main_call1_v7 : StableHlo.TRef sig ⟨S6400000x1, .i1⟩) (.of main_call1_v10 : StableHlo.TRef sig ⟨S6400000x1, .i1⟩) (.of main_call1_v11 : StableHlo.TRef sig ⟨S6400000x1, .i1⟩) andi,
    StableHlo.TRef.nullary (.of main_call1_c_3 : StableHlo.TRef sig ⟨S_, .i1⟩) (constantI S_ 1 1#1) ]
/-- The per-edge reduction of the range test. -/
abbrev callReduce : List (HloOp τ sig (Elt Ideal)) :=
  [ StableHlo.TRef.binary (.of main_call1_v11 : StableHlo.TRef sig ⟨S6400000x1, .i1⟩) (.of main_call1_c_3 : StableHlo.TRef sig ⟨S_, .i1⟩) (.of main_call1_v12 : StableHlo.TRef sig ⟨S6400000, .i1⟩) (fun x v => Host.reduce IntOp.andi x v reducesTo_S6400000x1_S6400000_d1 h_S_) ]
/-- The gather, the not-a-number fill and the select. -/
abbrev callTail : List (HloOp τ sig (Elt Ideal)) :=
  [ StableHlo.TRef.binary (.of main_v17_1 : StableHlo.TRef sig ⟨S200000x32, .f32⟩) (.of main_call1_v5 : StableHlo.TRef sig ⟨S6400000x1, .i32⟩) (.of main_call1_v13 : StableHlo.TRef sig ⟨S6400000x32, .f32⟩) (fun x i => Host.gather gather_S200000x32_S6400000x1_S6400000x32_1_0_n_n_0_1_132 x i),
    StableHlo.TRef.unary (.of main_call1_v12 : StableHlo.TRef sig ⟨S6400000, .i1⟩) (.of main_call1_v14 : StableHlo.TRef sig ⟨S6400000x32, .i1⟩) (broadcastInDim S6400000x32 ![0] bcast_S6400000_S6400000x32_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S6400000x32, .f32⟩) (broadcastInDim S6400000x32 ![] bcast_S_S6400000x32),
    StableHlo.TRef.ternary (.of main_call1_v14 : StableHlo.TRef sig ⟨S6400000x32, .i1⟩) (.of main_call1_v13 : StableHlo.TRef sig ⟨S6400000x32, .f32⟩) (.of main_call1_v15 : StableHlo.TRef sig ⟨S6400000x32, .f32⟩) (.of main_v22 : StableHlo.TRef sig ⟨S6400000x32, .f32⟩) select ]

/-- The take's operations are these three pieces in order. -/
theorem call_split : (hostOps1_1 : List (HloOp τ sig (Elt Ideal))) = callHead ++ (callReduce ++ callTail) := rfl

variable (U : Valuation τ sig (Elt Ideal))

/-! ## Up to the range test -/

set_option maxHeartbeats 2000000 in
theorem head_idx : (StableHlo.after callHead U (Proc.devRef .tc main_call1_v5) : IVec S6400000x1 32) = (broadcastInDim S6400000x1 ![0] bcast_S6400000_S6400000x1_0 (select (cmpi .slt (U (Proc.devRef .tc main_v19) : IVec S6400000 32) (broadcastInDim S6400000 ![] bcast_S_S6400000 (constantI S_ 32 0#32))) (addi (U (Proc.devRef .tc main_v19) : IVec S6400000 32) (broadcastInDim S6400000 ![] bcast_S_S6400000 (constantI S_ 32 200000#32))) (U (Proc.devRef .tc main_v19) : IVec S6400000 32))) := by
  after_results_simp; rfl
set_option maxHeartbeats 2000000 in
theorem head_inRange : (StableHlo.after callHead U (Proc.devRef .tc main_call1_v11) : IVec S6400000x1 1) = (andi (cmpi .sge (broadcastInDim S6400000x1 ![0] bcast_S6400000_S6400000x1_0 (select (cmpi .slt (U (Proc.devRef .tc main_v19) : IVec S6400000 32) (broadcastInDim S6400000 ![] bcast_S_S6400000 (constantI S_ 32 0#32))) (addi (U (Proc.devRef .tc main_v19) : IVec S6400000 32) (broadcastInDim S6400000 ![] bcast_S_S6400000 (constantI S_ 32 200000#32))) (U (Proc.devRef .tc main_v19) : IVec S6400000 32))) (broadcastInDim S6400000x1 ![] bcast_S_S6400000x1 (constantI S_ 32 0#32))) (cmpi .sle (broadcastInDim S6400000x1 ![0] bcast_S6400000_S6400000x1_0 (select (cmpi .slt (U (Proc.devRef .tc main_v19) : IVec S6400000 32) (broadcastInDim S6400000 ![] bcast_S_S6400000 (constantI S_ 32 0#32))) (addi (U (Proc.devRef .tc main_v19) : IVec S6400000 32) (broadcastInDim S6400000 ![] bcast_S_S6400000 (constantI S_ 32 200000#32))) (U (Proc.devRef .tc main_v19) : IVec S6400000 32))) (broadcastInDim S6400000x1 ![0, 1] bcast_S1x1_S6400000x1_0_1 (broadcastInDim S1x1 ![1] bcast_S1_S1x1_1 (constantI S1 32 199999#32))))) := by
  after_results_simp; rfl
theorem head_one : (StableHlo.after callHead U (Proc.devRef .tc main_call1_c_3) : IVec S_ 1) = constantI S_ 1 1#1 := by
  after_results_simp; rfl
theorem head_keeps_msgs : StableHlo.after callHead U (Proc.devRef .tc main_v17_1) = U (Proc.devRef .tc main_v17_1) := by
  after_results_simp <;> rfl

/-! ## The reduction -/

theorem reduce_mask : (StableHlo.after callReduce U (Proc.devRef .tc main_call1_v12) : IVec S6400000 1)
    = Host.reduce IntOp.andi (U (Proc.devRef .tc main_call1_v11) : IVec S6400000x1 1) (U (Proc.devRef .tc main_call1_c_3) : IVec S_ 1)
        reducesTo_S6400000x1_S6400000_d1 h_S_ := by
  after_results_simp; rfl
theorem reduce_keeps_idx : StableHlo.after callReduce U (Proc.devRef .tc main_call1_v5) = U (Proc.devRef .tc main_call1_v5) := by
  after_results_simp <;> rfl
theorem reduce_keeps_msgs : StableHlo.after callReduce U (Proc.devRef .tc main_v17_1) = U (Proc.devRef .tc main_v17_1) := by
  after_results_simp <;> rfl

/-! ## The gather, the fill and the select -/

theorem tail_taken : (StableHlo.after callTail U (Proc.devRef .tc main_v22) : S6400000x32.Idx → EReal)
    = select (broadcastInDim S6400000x32 ![0] bcast_S6400000_S6400000x32_0 (U (Proc.devRef .tc main_call1_v12) : IVec S6400000 1))
        (Host.gather gather_S200000x32_S6400000x1_S6400000x32_1_0_n_n_0_1_132 (U (Proc.devRef .tc main_v17_1) : FVec Ideal S200000x32 .f32) (U (Proc.devRef .tc main_call1_v5) : IVec S6400000x1 32))
        (broadcastInDim S6400000x32 ![] bcast_S_S6400000x32 (constant (F := Ideal) S_ .f32 0x7FC00000#32)) := by
  after_results_simp; rfl

/-! ## The whole take -/

/-- The take from the source words and the message array as it finds them. -/
theorem call_take : (StableHlo.after hostOps1_1 U (Proc.devRef .tc main_v22) : S6400000x32.Idx → EReal)
    = (select (broadcastInDim S6400000x32 ![0] bcast_S6400000_S6400000x32_0 (Host.reduce IntOp.andi (andi (cmpi .sge (broadcastInDim S6400000x1 ![0] bcast_S6400000_S6400000x1_0 (select (cmpi .slt (U (Proc.devRef .tc main_v19) : IVec S6400000 32) (broadcastInDim S6400000 ![] bcast_S_S6400000 (constantI S_ 32 0#32))) (addi (U (Proc.devRef .tc main_v19) : IVec S6400000 32) (broadcastInDim S6400000 ![] bcast_S_S6400000 (constantI S_ 32 200000#32))) (U (Proc.devRef .tc main_v19) : IVec S6400000 32))) (broadcastInDim S6400000x1 ![] bcast_S_S6400000x1 (constantI S_ 32 0#32))) (cmpi .sle (broadcastInDim S6400000x1 ![0] bcast_S6400000_S6400000x1_0 (select (cmpi .slt (U (Proc.devRef .tc main_v19) : IVec S6400000 32) (broadcastInDim S6400000 ![] bcast_S_S6400000 (constantI S_ 32 0#32))) (addi (U (Proc.devRef .tc main_v19) : IVec S6400000 32) (broadcastInDim S6400000 ![] bcast_S_S6400000 (constantI S_ 32 200000#32))) (U (Proc.devRef .tc main_v19) : IVec S6400000 32))) (broadcastInDim S6400000x1 ![0, 1] bcast_S1x1_S6400000x1_0_1 (broadcastInDim S1x1 ![1] bcast_S1_S1x1_1 (constantI S1 32 199999#32))))) (constantI S_ 1 1#1) reducesTo_S6400000x1_S6400000_d1 h_S_)) (Host.gather gather_S200000x32_S6400000x1_S6400000x32_1_0_n_n_0_1_132 (U (Proc.devRef .tc main_v17_1) : FVec Ideal S200000x32 .f32) (broadcastInDim S6400000x1 ![0] bcast_S6400000_S6400000x1_0 (select (cmpi .slt (U (Proc.devRef .tc main_v19) : IVec S6400000 32) (broadcastInDim S6400000 ![] bcast_S_S6400000 (constantI S_ 32 0#32))) (addi (U (Proc.devRef .tc main_v19) : IVec S6400000 32) (broadcastInDim S6400000 ![] bcast_S_S6400000 (constantI S_ 32 200000#32))) (U (Proc.devRef .tc main_v19) : IVec S6400000 32)))) (broadcastInDim S6400000x32 ![] bcast_S_S6400000x32 (constant (F := Ideal) S_ .f32 0x7FC00000#32))) := by
  rw [call_split, StableHlo.after_append, StableHlo.after_append, tail_taken, reduce_mask, reduce_keeps_idx,
    reduce_keeps_msgs, head_inRange, head_one, head_idx, head_keeps_msgs]

/-- The take leaves the target words alone. -/
theorem call_keeps_dst : StableHlo.after hostOps1_1 U (Proc.devRef .tc main_v21) = U (Proc.devRef .tc main_v21) := by
  after_results_simp <;> rfl

end Cert.KernelIdeal.TakeCall

end
-- ==== Proof.HeadInputs.lean ====
/-
  What the head stage is handed: the encoder stage's two arrays unchanged, the weights, each bias as a one-row
  matrix, and the arriving messages — the messages taken at each edge's source and added up at each edge's target.
  A take fills a row whose source word is no node number with a not-a-number row; where every source word is a node
  number no row is filled, and the arriving messages are the plain sum over the edges into the node.
-/
import proofs.«402760_j11974368821437_2_alg».proof.Proof.Gen.KernelIdeal.Frame
import proofs.«402760_j11974368821437_2_alg».proof.Proof.Spec
import proofs.«402760_j11974368821437_2_alg».proof.Proof.KernelInputs
import proofs.«402760_j11974368821437_2_alg».proof.Proof.EncoderInputs
import proofs.«402760_j11974368821437_2_alg».proof.Proof.EdgeScatter
import proofs.«402760_j11974368821437_2_alg».proof.Proof.TakeCall
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HeadInputs

open Cert.KernelIdeal Cert.KernelIdeal.Gen Cert.KernelIdeal.KernelInputs
open Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg)

open Cert.KernelIdeal.EncoderInputs (row_of_vec)
open Cert.KernelIdeal.EdgeTake (srcWords dstWords taken)
open Cert.KernelIdeal.EdgeScatter (scattered_apply)
open Cert.KernelIdeal.TakeCall (call_take call_keeps_dst)

/-! ## The encoder stage's arrays, and the arguments, reach the head stage unchanged -/

theorem node_eq (c : Dev nD) :
    (V7 m ρ c main_v17_0 : S200000x32.Idx → EReal) = (dat0 (F := Ideal) (V3 m ρ) c).arrAt 8 cfg0.N := by
  dsimp only [V7, W7, W6, W5]; after_results_simp; exact W4_arr m ρ c 8
theorem msg_eq (c : Dev nD) :
    (V7 m ρ c main_v17_1 : S200000x32.Idx → EReal) = (dat0 (F := Ideal) (V3 m ρ) c).arrAt 9 cfg0.N := by
  dsimp only [V7, W7, W6, W5]; after_results_simp; exact W4_arr m ρ c 9
theorem wSelf_eq (c : Dev nD) : (V7 m ρ c main_arg12 : S32x32.Idx → EReal) = (inputs m c).wSelf := by
  dsimp only [V7, W7, W6, W5]; after_results_simp
  rw [W4_of_ne m ρ c main_arg12 (by decide)]
  dsimp only [W3, W2, W1]; after_results_simp; rfl
theorem wOut_eq (c : Dev nD) : (V7 m ρ c main_arg14 : S32x2.Idx → EReal) = (inputs m c).wOut := by
  dsimp only [V7, W7, W6, W5]; after_results_simp
  rw [W4_of_ne m ρ c main_arg14 (by decide)]
  dsimp only [W3, W2, W1]; after_results_simp; rfl
theorem edges_eq (c : Dev nD) : (W4 m ρ c (Proc.devRef .tc main_arg3) : IVec S2x6400000 32) = (inputs m c).edges := by
  rw [W4_of_ne m ρ c main_arg3 (by decide)]
  dsimp only [W3, W2, W1]; after_results_simp; rfl

theorem bSelf_apply (c : Dev nD) (k : Fin 32) :
    (V7 m ρ c main_v4 : S1x32.Idx → EReal) (ix2 (0 : Fin 1) k) = (inputs m c).bSelf (ix1 k) := by
  have e : (V7 m ρ c main_v4 : S1x32.Idx → EReal)
      = shapeCast S1x32 (m ((c : Thread nD τ).loc main_arg13)) shapeCasts_S32_S1x32 := by
    dsimp only [V7, W7, W6, W5]; after_results_simp
    rw [W4_of_ne m ρ c main_v4 (by decide)]
    dsimp only [W3, W2, W1]; after_results_simp; rfl
  rw [e]; exact row_of_vec _ k
theorem bOut_apply (c : Dev nD) (j : Fin 2) :
    (V7 m ρ c main_v5 : S1x2.Idx → EReal) (ix2 (0 : Fin 1) j) = (inputs m c).bOut (ix1 j) := by
  have e : (V7 m ρ c main_v5 : S1x2.Idx → EReal)
      = shapeCast S1x2 (m ((c : Thread nD τ).loc main_arg15)) shapeCasts_S2_S1x2 := by
    dsimp only [V7, W7, W6, W5]; after_results_simp
    rw [W4_of_ne m ρ c main_v5 (by decide)]
    dsimp only [W3, W2, W1]; after_results_simp; rfl
  rw [e]
  exact shapeCast_apply _ shapeCasts_S2_S1x2 (ix2 (0 : Fin 1) j) (ix1 j)
    (by rw [Shape.rowMajor_val_one, Shape.rowMajor_val_two]; show j.val = 0 * 2 + j.val; omega)

/-! ## The three host stretches between the stages, each over an arbitrary valuation at its entry -/

-- a reduce, a gather or a scatter over millions of entries is compared argument by argument, never by unfolding it
attribute [local irreducible] Host.reduce Host.gather Host.scatterAdd

/-- The slices and reshapes: the source words and the target words of the edge list. -/
theorem slices_src (U : Valuation τ sig (Elt Ideal)) :
    (StableHlo.after hostOps1 U (Proc.devRef .tc main_v19) : IVec S6400000 32)
      = srcWords (U (Proc.devRef .tc main_arg3)) := by
  after_results_simp; rfl
theorem slices_dst (U : Valuation τ sig (Elt Ideal)) :
    (StableHlo.after hostOps1 U (Proc.devRef .tc main_v21) : IVec S6400000 32)
      = dstWords (U (Proc.devRef .tc main_arg3)) := by
  after_results_simp; rfl
theorem slices_keep_msgs (U : Valuation τ sig (Elt Ideal)) :
    StableHlo.after hostOps1 U (Proc.devRef .tc main_v17_1) = U (Proc.devRef .tc main_v17_1) := by
  after_results_simp <;> rfl

/-- The scatter of whatever rows it finds at whatever target words it finds, from zero. -/
theorem scatter_stage (U : Valuation τ sig (Elt Ideal)) :
    (StableHlo.after hostOps1_2 U (Proc.devRef .tc main_v25) : S200000x32.Idx → EReal)
      = Host.scatterAdd (F := Ideal) scatter_S200000x32_S6400000x1_S6400000x32_1_0_0_1
          (broadcastInDim S200000x32 ![] bcast_S_S200000x32 (constant (F := Ideal) S_ .f32 0x00000000#32))
          (broadcastInDim S6400000x1 ![0] bcast_S6400000_S6400000x1_0 (U (Proc.devRef .tc main_v21) : IVec S6400000 32))
          (U (Proc.devRef .tc main_v22) : FVec Ideal S6400000x32 .f32) := by
  after_results_simp <;> rfl

/-- The arriving-messages array at the head stage's entry: the scatter, from zero, at the target words, of the rows
    taken at the source words from the message array the encoder stage left. -/
theorem arriving_eq (c : Dev nD) :
    (V7 m ρ c main_v25 : S200000x32.Idx → EReal)
      = Host.scatterAdd (F := Ideal) scatter_S200000x32_S6400000x1_S6400000x32_1_0_0_1
          (broadcastInDim S200000x32 ![] bcast_S_S200000x32 (constant (F := Ideal) S_ .f32 0x00000000#32))
          (broadcastInDim S6400000x1 ![0] bcast_S6400000_S6400000x1_0 (dstWords (W4 m ρ c (Proc.devRef .tc main_arg3))))
          (taken (W4 m ρ c (Proc.devRef .tc main_v17_1)) (W4 m ρ c (Proc.devRef .tc main_arg3))) := by
  show (StableHlo.after hostOps1_2 (StableHlo.after hostOps1_1 (StableHlo.after hostOps1 (W4 m ρ c)))
    (Proc.devRef .tc main_v25) : S200000x32.Idx → EReal) = _
  rw [scatter_stage, call_take, call_keeps_dst, slices_src, slices_dst, slices_keep_msgs]
  rfl

/-- The arriving messages handed to the head stage, where every source word of the edge list is a node number and
    the message array left by the encoder stage holds the network's messages: the network's arriving messages. -/
theorem agg_apply (c : Dev nD)
    (hs : ∀ e : Fin 6400000, 0 ≤ ((inputs m c).edges (ix2 (0 : Fin 2) e)).toInt
      ∧ ((inputs m c).edges (ix2 (0 : Fin 2) e)).toInt < 200000)
    (hM : ∀ (n : Fin 200000) (k : Fin 32),
      (W4 m ρ c (Proc.devRef .tc main_v17_1) : S200000x32.Idx → EReal) (ix2 n k) = Cert.Spec.msg (inputs m c) n k)
    (n : Fin 200000) (k : Fin 32) :
    (V7 m ρ c main_v25 : S200000x32.Idx → EReal) (ix2 n k) = Cert.Spec.agg (inputs m c) n k := by
  rw [arriving_eq, edges_eq]
  refine (scattered_apply hs _ n k).trans ?_
  unfold Cert.Spec.agg
  refine Finset.sum_congr rfl fun e _ => ?_
  rw [hM]
  rfl

end Cert.KernelIdeal.HeadInputs

end
-- ==== Proof.EncoderArrays.lean ====
/-
  The encoder stage's two output arrays after its run over all row blocks, as functions of the arrays it is handed.

  The stage runs over fifty row blocks of 4000 rows.  At each point it reads its block of the features and of the
  graph-level activation and the whole weights and one-row biases, and writes its block of the node state and of the
  message.  Each written entry depends on one row of the two row-blocked inputs only, so it is a formula of that row
  (`nodeRow`, `msgRow`); the specification's `nodeOf` / `msgOf` are the same formulas at the row of the whole arrays,
  and the fifty blocks tile the 200000 rows.
-/
import proofs.«402760_j11974368821437_2_alg».proof.Proof.Gen.KernelIdeal.Frame
import proofs.«402760_j11974368821437_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Encoder

open Cert.KernelIdeal Cert.KernelIdeal.Gen Idealize.ShloMosaic Idealize.ShloMosaic.TcCoe Idealize.ShloMosaic.ValueIdx
open Idealize.SL.Sem

/-! ## The stage's two matrix products read at an entry -/

theorem lhs_featProduct_0 (i : S4000x32.Idx) (q : dot_S4000x16_S16x32_S4000x32_1_0_0_1_n_n.contr.Idx) :
    (dot_S4000x16_S16x32_S4000x32_1_0_0_1_n_n.lhsIdx i q 0).val = (i 0).val := by
  unfold DotDims.lhsIdx
  rw [dif_neg (show ¬(0 : Fin S4000x16.rank) ∈ dot_S4000x16_S16x32_S4000x32_1_0_0_1_n_n.lhsBatch by decide), dif_pos (show (0 : Fin S4000x16.rank) ∈ dot_S4000x16_S16x32_S4000x32_1_0_0_1_n_n.lhsNonContracting by decide)]
  rfl
theorem lhs_featProduct_1 (i : S4000x32.Idx) (q : dot_S4000x16_S16x32_S4000x32_1_0_0_1_n_n.contr.Idx) :
    (dot_S4000x16_S16x32_S4000x32_1_0_0_1_n_n.lhsIdx i q 1).val = (q ⟨0, by decide⟩).val :=
  dot_S4000x16_S16x32_S4000x32_1_0_0_1_n_n.lhsIdx_val_of_single rfl i q
theorem rhs_featProduct_0 (i : S4000x32.Idx) (q : dot_S4000x16_S16x32_S4000x32_1_0_0_1_n_n.contr.Idx) :
    (dot_S4000x16_S16x32_S4000x32_1_0_0_1_n_n.rhsIdx i q 0).val = (q ⟨0, by decide⟩).val :=
  dot_S4000x16_S16x32_S4000x32_1_0_0_1_n_n.rhsIdx_val_of_single rfl i q
theorem rhs_featProduct_1 (i : S4000x32.Idx) (q : dot_S4000x16_S16x32_S4000x32_1_0_0_1_n_n.contr.Idx) :
    (dot_S4000x16_S16x32_S4000x32_1_0_0_1_n_n.rhsIdx i q 1).val = (i 1).val := by
  unfold DotDims.rhsIdx
  rw [dif_neg (show ¬(1 : Fin S16x32.rank) ∈ dot_S4000x16_S16x32_S4000x32_1_0_0_1_n_n.rhsBatch by decide), dif_pos (show (1 : Fin S16x32.rank) ∈ dot_S4000x16_S16x32_S4000x32_1_0_0_1_n_n.rhsNonContracting by decide)]
  rfl

/-- The product into a zero accumulator, at row `p` and column `q`: the sum over the 16 contracted entries. -/
theorem featProduct_apply (l : FVec Ideal S4000x16 .bf16) (r : FVec Ideal S16x32 .bf16) (p : Fin 4000) (q : Fin 32) :
    matmul dot_S4000x16_S16x32_S4000x32_1_0_0_1_n_n none l r (constant (F := Ideal) S4000x32 .f32 0x00000000#32) (ix2 p q)
      = ∑ k : Fin 16, l (ix2 p k) * r (ix2 k q) := by
  simp only [matmul]
  rw [Ideal.matmul_constant_zero_apply, ← Equiv.sum_comp (contrEquiv1 dot_S4000x16_S16x32_S4000x32_1_0_0_1_n_n 16 rfl rfl).symm]
  refine Finset.sum_congr rfl fun k _ => ?_
  have hk := contrEquiv1_symm_val dot_S4000x16_S16x32_S4000x32_1_0_0_1_n_n 16 rfl rfl k
  have el : dot_S4000x16_S16x32_S4000x32_1_0_0_1_n_n.lhsIdx (ix2 p q) ((contrEquiv1 dot_S4000x16_S16x32_S4000x32_1_0_0_1_n_n 16 rfl rfl).symm k) = ix2 p k := funext fun a => Fin.ext (by
    match a with
    | ⟨0, _⟩ => exact lhs_featProduct_0 _ _
    | ⟨1, _⟩ => exact (lhs_featProduct_1 _ _).trans hk)
  have er : dot_S4000x16_S16x32_S4000x32_1_0_0_1_n_n.rhsIdx (ix2 p q) ((contrEquiv1 dot_S4000x16_S16x32_S4000x32_1_0_0_1_n_n 16 rfl rfl).symm k) = ix2 k q := funext fun a => Fin.ext (by
    match a with
    | ⟨0, _⟩ => exact (rhs_featProduct_0 _ _).trans hk
    | ⟨1, _⟩ => exact rhs_featProduct_1 _ _)
  rw [el, er]

theorem lhs_hiddenProduct_0 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem lhs_hiddenProduct_1 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
theorem rhs_hiddenProduct_0 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
theorem rhs_hiddenProduct_1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- The product into a zero accumulator, at row `p` and column `q`: the sum over the 32 contracted entries. -/
theorem hiddenProduct_apply (l : FVec Ideal S4000x32 .bf16) (r : FVec Ideal S32x32 .bf16) (p : Fin 4000) (q : Fin 32) :
    matmul dot_S4000x32_S32x32_S4000x32_1_0_0_1_n_n none l r (constant (F := Ideal) S4000x32 .f32 0x00000000#32) (ix2 p q)
      = ∑ k : Fin 32, l (ix2 p k) * r (ix2 k q) := by
  simp only [matmul]
  rw [Ideal.matmul_constant_zero_apply, ← Equiv.sum_comp (contrEquiv1 dot_S4000x32_S32x32_S4000x32_1_0_0_1_n_n 32 rfl rfl).symm]
  refine Finset.sum_congr rfl fun k _ => ?_
  have hk := contrEquiv1_symm_val dot_S4000x32_S32x32_S4000x32_1_0_0_1_n_n 32 rfl rfl k
  have el : dot_S4000x32_S32x32_S4000x32_1_0_0_1_n_n.lhsIdx (ix2 p q) ((contrEquiv1 dot_S4000x32_S32x32_S4000x32_1_0_0_1_n_n 32 rfl rfl).symm k) = ix2 p k := funext fun a => Fin.ext (by
    match a with
    | ⟨0, _⟩ => exact lhs_hiddenProduct_0 _ _
    | ⟨1, _⟩ => exact (lhs_hiddenProduct_1 _ _).trans hk)
  have er : dot_S4000x32_S32x32_S4000x32_1_0_0_1_n_n.rhsIdx (ix2 p q) ((contrEquiv1 dot_S4000x32_S32x32_S4000x32_1_0_0_1_n_n 32 rfl rfl).symm k) = ix2 k q := funext fun a => Fin.ext (by
    match a with
    | ⟨0, _⟩ => exact (rhs_hiddenProduct_0 _ _).trans hk
    | ⟨1, _⟩ => exact rhs_hiddenProduct_1 _ _)
  rw [el, er]

/-! ## One row of the stage, over the row's own entries -/

/-- The local activation of a row with features `x`. -/
def localRow (x : Fin 16 → EReal) (wl : Fin 16 → Fin 32 → EReal) (bl : Fin 32 → EReal) (l : Fin 32) : EReal :=
  max ((∑ i : Fin 16, x i * wl i l) + bl l) 0

/-- The mixed node state of a row with features `x` and graph-level activation `g`. -/
def nodeRow (x : Fin 16 → EReal) (g : Fin 32 → EReal) (wl : Fin 16 → Fin 32 → EReal) (bl : Fin 32 → EReal)
    (wm : Fin 96 → Fin 32 → EReal) (bm : Fin 32 → EReal) (k : Fin 32) : EReal :=
  max ((((∑ l : Fin 32, localRow x wl bl l * wm (⟨l.val, by omega⟩ : Fin 96) k)
        + (∑ l : Fin 32, g l * wm (⟨32 + l.val, by omega⟩ : Fin 96) k))
        + (∑ l : Fin 32, (localRow x wl bl l * g l) * wm (⟨64 + l.val, by omega⟩ : Fin 96) k))
      + bm k) 0

/-- The message of that row. -/
def msgRow (x : Fin 16 → EReal) (g : Fin 32 → EReal) (wl : Fin 16 → Fin 32 → EReal) (bl : Fin 32 → EReal)
    (wm : Fin 96 → Fin 32 → EReal) (bm : Fin 32 → EReal) (wmsg : Fin 32 → Fin 32 → EReal) (bmsg : Fin 32 → EReal)
    (k : Fin 32) : EReal :=
  max ((∑ l : Fin 32, nodeRow x g wl bl wm bm l * wmsg l k) + bmsg k) 0

/-- The specification's node state is the row formula at the row's entries. -/
theorem nodeOf_eq_row (xl : Cert.Spec.Mat 200000 16) (hg : Cert.Spec.Mat 200000 32) (wl : Cert.Spec.Mat 16 32)
    (bl : Cert.Spec.Mat 1 32) (wm : Cert.Spec.Mat 96 32) (bm : Cert.Spec.Mat 1 32) (n : Fin 200000) (k : Fin 32) :
    Cert.Spec.nodeOf xl hg wl bl wm bm n k
      = nodeRow (fun i => xl (ix2 n i)) (fun l => hg (ix2 n l)) (fun i l => wl (ix2 i l)) (fun l => bl (ix2 (0 : Fin 1) l))
          (fun r k => wm (ix2 r k)) (fun k => bm (ix2 (0 : Fin 1) k)) k := rfl

/-- The specification's message is the row formula at the row's entries. -/
theorem msgOf_eq_row (xl : Cert.Spec.Mat 200000 16) (hg : Cert.Spec.Mat 200000 32) (wl : Cert.Spec.Mat 16 32)
    (bl : Cert.Spec.Mat 1 32) (wm : Cert.Spec.Mat 96 32) (bm : Cert.Spec.Mat 1 32) (wmsg : Cert.Spec.Mat 32 32)
    (bmsg : Cert.Spec.Mat 1 32) (n : Fin 200000) (k : Fin 32) :
    Cert.Spec.msgOf xl hg wl bl wm bm wmsg bmsg n k
      = msgRow (fun i => xl (ix2 n i)) (fun l => hg (ix2 n l)) (fun i l => wl (ix2 i l)) (fun l => bl (ix2 (0 : Fin 1) l))
          (fun r k => wm (ix2 r k)) (fun k => bm (ix2 (0 : Fin 1) k)) (fun l k => wmsg (ix2 l k))
          (fun k => bmsg (ix2 (0 : Fin 1) k)) k := rfl

/-- The row formulas depend on their arguments entry by entry. -/
theorem nodeRow_congr {x x' : Fin 16 → EReal} {g g' : Fin 32 → EReal} {wl wl' : Fin 16 → Fin 32 → EReal}
    {bl bl' : Fin 32 → EReal} {wm wm' : Fin 96 → Fin 32 → EReal} {bm bm' : Fin 32 → EReal}
    (hx : ∀ i, x i = x' i) (hg : ∀ l, g l = g' l) (hwl : ∀ i l, wl i l = wl' i l) (hbl : ∀ l, bl l = bl' l)
    (hwm : ∀ r k, wm r k = wm' r k) (hbm : ∀ k, bm k = bm' k) (k : Fin 32) :
    nodeRow x g wl bl wm bm k = nodeRow x' g' wl' bl' wm' bm' k := by
  obtain rfl : x = x' := funext hx
  obtain rfl : g = g' := funext hg
  obtain rfl : wl = wl' := funext fun i => funext (hwl i)
  obtain rfl : bl = bl' := funext hbl
  obtain rfl : wm = wm' := funext fun r => funext (hwm r)
  obtain rfl : bm = bm' := funext hbm
  rfl

theorem msgRow_congr {x x' : Fin 16 → EReal} {g g' : Fin 32 → EReal} {wl wl' : Fin 16 → Fin 32 → EReal}
    {bl bl' : Fin 32 → EReal} {wm wm' : Fin 96 → Fin 32 → EReal} {bm bm' : Fin 32 → EReal}
    {wmsg wmsg' : Fin 32 → Fin 32 → EReal} {bmsg bmsg' : Fin 32 → EReal}
    (hx : ∀ i, x i = x' i) (hg : ∀ l, g l = g' l) (hwl : ∀ i l, wl i l = wl' i l) (hbl : ∀ l, bl l = bl' l)
    (hwm : ∀ r k, wm r k = wm' r k) (hbm : ∀ k, bm k = bm' k) (hwmsg : ∀ l k, wmsg l k = wmsg' l k)
    (hbmsg : ∀ k, bmsg k = bmsg' k) (k : Fin 32) :
    msgRow x g wl bl wm bm wmsg bmsg k = msgRow x' g' wl' bl' wm' bm' wmsg' bmsg' k := by
  obtain rfl : x = x' := funext hx
  obtain rfl : g = g' := funext hg
  obtain rfl : wl = wl' := funext fun i => funext (hwl i)
  obtain rfl : bl = bl' := funext hbl
  obtain rfl : wm = wm' := funext fun r => funext (hwm r)
  obtain rfl : bm = bm' := funext hbm
  obtain rfl : wmsg = wmsg' := funext fun l => funext (hwmsg l)
  obtain rfl : bmsg = bmsg' := funext hbmsg
  rfl

/-! ## The body's arithmetic at an entry of the block -/

/-- The three row blocks of the mixing weight. -/
theorem mixRows0_apply (X : FVec Ideal S96x32 .bf16) (h : S96x32.Slices ![0, 0] S32x32) (l k : Fin 32) :
    extractStridedSlice S32x32 ![0, 0] X h (ix2 l k) = X (ix2 (⟨l.val, by omega⟩ : Fin 96) k) :=
  slice2_axis0_apply 0 X h l k _ (Nat.zero_add _).symm
theorem mixRows32_apply (X : FVec Ideal S96x32 .bf16) (h : S96x32.Slices ![32, 0] S32x32) (l k : Fin 32) :
    extractStridedSlice S32x32 ![32, 0] X h (ix2 l k) = X (ix2 (⟨32 + l.val, by omega⟩ : Fin 96) k) :=
  slice2_axis0_apply 32 X h l k _ rfl
theorem mixRows64_apply (X : FVec Ideal S96x32 .bf16) (h : S96x32.Slices ![64, 0] S32x32) (l k : Fin 32) :
    extractStridedSlice S32x32 ![64, 0] X h (ix2 l k) = X (ix2 (⟨64 + l.val, by omega⟩ : Fin 96) k) :=
  slice2_axis0_apply 64 X h l k _ rfl

/-- A one-row bias spread over the block's rows. -/
theorem biasRow_apply (v : FVec Ideal S1x32 .f32) (h : S1x32.Broadcasts S4000x32) (p : Fin 4000) (q : Fin 32) :
    broadcastTo S4000x32 v h (ix2 p q) = v (ix2 (0 : Fin 1) q) :=
  broadcastTo_1b_ab_apply v h p q

/-- The zero word is the extended real zero. -/
theorem zeroWord : (Scalar.ofBits (F := Ideal) .f32 0x00000000#32 : EReal) = 0 := Ideal.ofBits_zero_f32

/-- The node-state payload at row `p`, column `q` of the block. -/
theorem nodePayload_apply (x0 : Vec Ideal S4000x16 .f32) (x2 : Vec Ideal S16x32 .f32) (x3 : Vec Ideal S1x32 .f32)
    (x1 : Vec Ideal S4000x32 .f32) (x4 : Vec Ideal S96x32 .f32) (x5 : Vec Ideal S1x32 .f32) (p : Fin 4000) (q : Fin 32) :
    k0_pay2 (F := Ideal) x0 x2 x3 x1 x4 x5 (ix2 p q)
      = nodeRow (fun i => x0 (ix2 p i)) (fun l => x1 (ix2 p l)) (fun i l => x2 (ix2 i l)) (fun l => x3 (ix2 (0 : Fin 1) l))
          (fun r k => x4 (ix2 r k)) (fun k => x5 (ix2 (0 : Fin 1) k)) q := by
  unfold k0_pay2 nodeRow localRow
  simp only [maximumf_apply, addf_apply, mulf_apply, broadcast_apply, truncf_apply, hiddenProduct_apply, featProduct_apply,
    mixRows0_apply, mixRows32_apply, mixRows64_apply, biasRow_apply, shapeCast_self, zeroWord]

/-- The message payload at row `p`, column `q` of the block, from the node-state block and the weights. -/
theorem msgPayload_apply (nd : FVec Ideal S4000x32 .f32) (w : Vec Ideal S32x32 .f32) (b : Vec Ideal S1x32 .f32) (p : Fin 4000) (q : Fin 32) :
    k0_pay1 (F := Ideal) nd (k0_pay3 (F := Ideal) w) b (ix2 p q)
      = max ((∑ l : Fin 32, nd (ix2 p l) * w (ix2 l q)) + b (ix2 (0 : Fin 1) q)) 0 := by
  unfold k0_pay1 k0_pay3
  simp only [maximumf_apply, addf_apply, broadcast_apply, truncf_apply, hiddenProduct_apply, biasRow_apply, shapeCast_self, zeroWord]

/-- The message payload over the node-state payload, at row `p`, column `q` of the block. -/
theorem msgPayload_row (x0 : Vec Ideal S4000x16 .f32) (x2 : Vec Ideal S16x32 .f32) (x3 : Vec Ideal S1x32 .f32)
    (x1 : Vec Ideal S4000x32 .f32) (x4 : Vec Ideal S96x32 .f32) (x5 : Vec Ideal S1x32 .f32) (x6 : Vec Ideal S32x32 .f32)
    (x7 : Vec Ideal S1x32 .f32) (p : Fin 4000) (q : Fin 32) :
    k0_pay1 (F := Ideal) (k0_pay2 (F := Ideal) x0 x2 x3 x1 x4 x5) (k0_pay3 (F := Ideal) x6) x7 (ix2 p q)
      = msgRow (fun i => x0 (ix2 p i)) (fun l => x1 (ix2 p l)) (fun i l => x2 (ix2 i l)) (fun l => x3 (ix2 (0 : Fin 1) l))
          (fun r k => x4 (ix2 r k)) (fun k => x5 (ix2 (0 : Fin 1) k)) (fun l k => x6 (ix2 l k))
          (fun k => x7 (ix2 (0 : Fin 1) k)) q := by
  rw [msgPayload_apply]
  unfold msgRow
  simp only [nodePayload_apply]

/-! ## The windows' blocks: where each sits in its array -/

theorem zeroOffsets : (![0, 0] : Fin 2 → Nat) = fun _ => 0 := funext fun a => by fin_cases a <;> rfl

/-- The block index of every window at every point of the grid, decided: the row-blocked windows are at block `t`
    of the rows, the weights and biases at block `0`. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

/-- The feature block at point `t` is rows `4000 t … 4000 t + 3999` of the feature array. -/
theorem featBlock_apply (c : Dev nD) (t : Fin cfg0.N) (p : Fin 4000) (i : Fin 16) (n : Fin 200000)
    (hn : n.val = t.val * 4000 + p.val) :
    (iblk0 V c 0 t : Vec Ideal S4000x16 .f32) (ix2 p i) = (V c main_arg0 : S200000x16.Idx → EReal) (ix2 n i) := by
  have e := blockIndex t
  unfold iblk0
  rw [View.read_apply]
  show V c main_arg0 _ = V c main_arg0 _
  congr 1
  funext a
  apply Fin.ext
  match a with
  | ⟨0, _⟩ => show win0_0.index t 0 * 4000 + 1 * p.val = n.val; omega
  | ⟨1, _⟩ => show win0_0.index t 1 * 16 + 1 * i.val = i.val; omega

/-- The graph-level activation's block at point `t` is the same rows of its array. -/
theorem graphBlock_apply (c : Dev nD) (t : Fin cfg0.N) (p : Fin 4000) (i : Fin 32) (n : Fin 200000)
    (hn : n.val = t.val * 4000 + p.val) :
    (iblk0 V c 1 t : Vec Ideal S4000x32 .f32) (ix2 p i) = (V c main_v16 : S200000x32.Idx → EReal) (ix2 n i) := by
  have e := blockIndex t
  unfold iblk0
  rw [View.read_apply]
  show V c main_v16 _ = V c main_v16 _
  congr 1
  funext a
  apply Fin.ext
  match a with
  | ⟨0, _⟩ => show win0_1.index t 0 * 4000 + 1 * p.val = n.val; omega
  | ⟨1, _⟩ => show win0_1.index t 1 * 32 + 1 * i.val = i.val; omega

/-- The local encoder's weight is read whole at every point. -/
theorem featWeight_apply (c : Dev nD) (t : Fin cfg0.N) (i : Fin 16) (l : Fin 32) :
    (iblk0 V c 2 t : Vec Ideal S16x32 .f32) (ix2 i l) = (V c main_arg4 : S16x32.Idx → EReal) (ix2 i l) := by
  have e := blockIndex t
  unfold iblk0
  rw [View.read_apply]
  show V c main_arg4 _ = V c main_arg4 _
  congr 1
  funext a
  apply Fin.ext
  match a with
  | ⟨0, _⟩ => show win0_2.index t 0 * 16 + 1 * i.val = i.val; omega
  | ⟨1, _⟩ => show win0_2.index t 1 * 32 + 1 * l.val = l.val; omega

/-- The local encoder's bias row is read whole at every point. -/
theorem featBias_apply (c : Dev nD) (t : Fin cfg0.N) (i : Fin 1) (l : Fin 32) :
    (iblk0 V c 3 t : Vec Ideal S1x32 .f32) (ix2 i l) = (V c main_v0 : S1x32.Idx → EReal) (ix2 i l) := by
  have e := blockIndex t
  unfold iblk0
  rw [View.read_apply]
  show V c main_v0 _ = V c main_v0 _
  congr 1
  funext a
  apply Fin.ext
  match a with
  | ⟨0, _⟩ => show win0_3.index t 0 * 1 + 1 * i.val = i.val; omega
  | ⟨1, _⟩ => show win0_3.index t 1 * 32 + 1 * l.val = l.val; omega

/-- The mixing weight is read whole at every point. -/
theorem mixWeight_apply (c : Dev nD) (t : Fin cfg0.N) (i : Fin 96) (l : Fin 32) :
    (iblk0 V c 4 t : Vec Ideal S96x32 .f32) (ix2 i l) = (V c main_arg8 : S96x32.Idx → EReal) (ix2 i l) := by
  have e := blockIndex t
  unfold iblk0
  rw [View.read_apply]
  show V c main_arg8 _ = V c main_arg8 _
  congr 1
  funext a
  apply Fin.ext
  match a with
  | ⟨0, _⟩ => show win0_4.index t 0 * 96 + 1 * i.val = i.val; omega
  | ⟨1, _⟩ => show win0_4.index t 1 * 32 + 1 * l.val = l.val; omega

/-- The mixing bias row is read whole at every point. -/
theorem mixBias_apply (c : Dev nD) (t : Fin cfg0.N) (i : Fin 1) (l : Fin 32) :
    (iblk0 V c 5 t : Vec Ideal S1x32 .f32) (ix2 i l) = (V c main_v2 : S1x32.Idx → EReal) (ix2 i l) := by
  have e := blockIndex t
  unfold iblk0
  rw [View.read_apply]
  show V c main_v2 _ = V c main_v2 _
  congr 1
  funext a
  apply Fin.ext
  match a with
  | ⟨0, _⟩ => show win0_5.index t 0 * 1 + 1 * i.val = i.val; omega
  | ⟨1, _⟩ => show win0_5.index t 1 * 32 + 1 * l.val = l.val; omega

/-- The message weight is read whole at every point. -/
theorem msgWeight_apply (c : Dev nD) (t : Fin cfg0.N) (i : Fin 32) (l : Fin 32) :
    (iblk0 V c 6 t : Vec Ideal S32x32 .f32) (ix2 i l) = (V c main_arg10 : S32x32.Idx → EReal) (ix2 i l) := by
  have e := blockIndex t
  unfold iblk0
  rw [View.read_apply]
  show V c main_arg10 _ = V c main_arg10 _
  congr 1
  funext a
  apply Fin.ext
  match a with
  | ⟨0, _⟩ => show win0_6.index t 0 * 32 + 1 * i.val = i.val; omega
  | ⟨1, _⟩ => show win0_6.index t 1 * 32 + 1 * l.val = l.val; omega

/-- The message bias row is read whole at every point. -/
theorem msgBias_apply (c : Dev nD) (t : Fin cfg0.N) (i : Fin 1) (l : Fin 32) :
    (iblk0 V c 7 t : Vec Ideal S1x32 .f32) (ix2 i l) = (V c main_v3 : S1x32.Idx → EReal) (ix2 i l) := by
  have e := blockIndex t
  unfold iblk0
  rw [View.read_apply]
  show V c main_v3 _ = V c main_v3 _
  congr 1
  funext a
  apply Fin.ext
  match a with
  | ⟨0, _⟩ => show win0_7.index t 0 * 1 + 1 * i.val = i.val; omega
  | ⟨1, _⟩ => show win0_7.index t 1 * 32 + 1 * l.val = l.val; omega

/-! ## The node-state array -/

/-- The node-state array the stage is to leave: row `n` is the mixed node state of row `n` of the inputs. -/
abbrev nodeArr (c : Dev nD) : S200000x32.Idx → EReal :=
  fun i => Cert.Spec.nodeOf (V c main_arg0) (V c main_v16) (V c main_arg4) (V c main_v0) (V c main_arg8) (V c main_v2) (i 0) (i 1)

/-- Entry `(p, q)` of the node block at point `t` is entry `(4000 t + p, q)` of the array. -/
theorem nodeBlock_emb (t : Fin cfg0.N) (p : Fin 4000) (q : Fin 32) (n : Fin 200000) (hn : n.val = t.val * 4000 + p.val) :
    ((cfg0.win 8).blk t).view.emb (ix2 p q) = (ix2 n q : S200000x32.Idx) := by
  have e := blockIndex t
  funext a
  apply Fin.ext
  match a with
  | ⟨0, _⟩ => show win0_8.index t 0 * 4000 + 1 * p.val = n.val; omega
  | ⟨1, _⟩ => show win0_8.index t 1 * 32 + 1 * q.val = q.val; omega

/-- What point `t` writes back to the node-state array is its block of that array. -/
theorem nodeFlushed_eq (c : Dev nD) (t : Fin cfg0.N) :
    (dat0 (F := Ideal) V c).flushed 8 t = ((cfg0.win 8).blk t).view.read (Elt Ideal) (nodeArr V c) := by
  show (cfg0.win 8).cut (grid0.coords t) ((dat0 (F := Ideal) V c).after 8 t) = _
  rw [after0_8]
  unfold out0_8
  rw [View.canon_unit_zero zeroOffsets]
  simp only [View.ld_unit_zero (S := S4000x16) zeroOffsets, View.ld_unit_zero (S := S4000x32) zeroOffsets,
    View.ld_unit_zero (S := S16x32) zeroOffsets, View.ld_unit_zero (S := S1x32) zeroOffsets,
    View.ld_unit_zero (S := S96x32) zeroOffsets, View.ld_unit_zero (S := S32x32) zeroOffsets]
  refine funext fun (j : S4000x32.Idx) => ?_
  obtain ⟨p, q, rfl⟩ : ∃ (p : Fin 4000) (q : Fin 32), j = ix2 p q := ⟨j 0, j 1, eq_ix2 j⟩
  have hN : cfg0.N = 50 := N_0
  have ht := t.isLt
  have hp := p.isLt
  have hn : t.val * 4000 + p.val < 200000 := by omega
  have hx : (win0_8.xinj (grid0.coords t) (ix2 p q) : S4000x32.Idx) = ix2 p q := funext fun a => by
    match a with
    | ⟨0, _⟩ => rfl
    | ⟨1, _⟩ => rfl
  refine (congrArg (k0_pay2 (F := Ideal) (iblk0 V c 0 t) (iblk0 V c 2 t) (iblk0 V c 3 t) (iblk0 V c 1 t) (iblk0 V c 4 t) (iblk0 V c 5 t)) hx).trans ?_
  refine (nodePayload_apply _ _ _ _ _ _ p q).trans ?_
  show _ = nodeArr V c (((cfg0.win 8).blk t).view.emb (ix2 p q))
  rw [nodeBlock_emb t p q ⟨_, hn⟩ rfl]
  show _ = Cert.Spec.nodeOf (V c main_arg0) (V c main_v16) (V c main_arg4) (V c main_v0) (V c main_arg8) (V c main_v2) ⟨_, hn⟩ q
  rw [nodeOf_eq_row]
  exact nodeRow_congr (fun i => featBlock_apply V c t p i _ rfl) (fun l => graphBlock_apply V c t p l _ rfl)
    (fun i l => featWeight_apply V c t i l) (fun l => featBias_apply V c t 0 l) (fun r k => mixWeight_apply V c t r k)
    (fun k => mixBias_apply V c t 0 k) q

/-- An entry of the array is in point `t`'s node block iff each coordinate is in the block's range. -/
theorem mem_nodeBlock (t : Fin cfg0.N) (i : S200000x32.Idx) :
    i ∈ ((cfg0.win 8).blk t).view.set ↔ ∀ a : Fin 2, win0_8.index t a * S4000x32.size a ≤ (i a).val ∧ (i a).val < win0_8.index t a * S4000x32.size a + S4000x32.size a := by
  show i ∈ ((View.whole main_v17_0).slice (win0_8.rect t)).set ↔ _
  rw [View.set_slice_whole, Rect.mem_set_unit]
  exact Iff.rfl

/-- The fifty row blocks tile the array: row `r` is in the block of point `r / 4000`. -/
theorem nodeBlocks_cover (i : S200000x32.Idx) :
    ∃ t : Fin cfg0.N, (cfg0.win 8).flush t = true ∧ i ∈ ((cfg0.win 8).blk t).view.set := by
  have hi0 : (i 0).val < 200000 := (i 0).isLt
  have hi1 : (i 1).val < 32 := (i 1).isLt
  have hN : cfg0.N = 50 := N_0
  have hlt : (i 0).val / 4000 < cfg0.N := by omega
  obtain ⟨t, ht⟩ : ∃ t : Fin cfg0.N, t.val = (i 0).val / 4000 := ⟨⟨_, hlt⟩, rfl⟩
  have e := blockIndex t
  refine ⟨t, flush0_8 t, ?_⟩
  rw [mem_nodeBlock]
  intro a
  match a with
  | ⟨0, _⟩ =>
    show win0_8.index t 0 * 4000 ≤ (i 0).val ∧ (i 0).val < win0_8.index t 0 * 4000 + 4000
    omega
  | ⟨1, _⟩ =>
    show win0_8.index t 1 * 32 ≤ (i 1).val ∧ (i 1).val < win0_8.index t 1 * 32 + 32
    omega

/-! ## The message array -/

/-- The message array the stage is to leave: row `n` is the message of row `n` of the inputs. -/
abbrev msgArr (c : Dev nD) : S200000x32.Idx → EReal :=
  fun i => Cert.Spec.msgOf (V c main_arg0) (V c main_v16) (V c main_arg4) (V c main_v0) (V c main_arg8) (V c main_v2) (V c main_arg10) (V c main_v3) (i 0) (i 1)

/-- Entry `(p, q)` of the msg block at point `t` is entry `(4000 t + p, q)` of the array. -/
theorem msgBlock_emb (t : Fin cfg0.N) (p : Fin 4000) (q : Fin 32) (n : Fin 200000) (hn : n.val = t.val * 4000 + p.val) :
    ((cfg0.win 9).blk t).view.emb (ix2 p q) = (ix2 n q : S200000x32.Idx) := by
  have e := blockIndex t
  funext a
  apply Fin.ext
  match a with
  | ⟨0, _⟩ => show win0_9.index t 0 * 4000 + 1 * p.val = n.val; omega
  | ⟨1, _⟩ => show win0_9.index t 1 * 32 + 1 * q.val = q.val; omega

/-- What point `t` writes back to the message array is its block of that array. -/
theorem msgFlushed_eq (c : Dev nD) (t : Fin cfg0.N) :
    (dat0 (F := Ideal) V c).flushed 9 t = ((cfg0.win 9).blk t).view.read (Elt Ideal) (msgArr V c) := by
  show (cfg0.win 9).cut (grid0.coords t) ((dat0 (F := Ideal) V c).after 9 t) = _
  rw [after0_9]
  unfold out0_9
  rw [View.canon_unit_zero zeroOffsets]
  simp only [View.ld_unit_zero (S := S4000x16) zeroOffsets, View.ld_unit_zero (S := S4000x32) zeroOffsets,
    View.ld_unit_zero (S := S16x32) zeroOffsets, View.ld_unit_zero (S := S1x32) zeroOffsets,
    View.ld_unit_zero (S := S96x32) zeroOffsets, View.ld_unit_zero (S := S32x32) zeroOffsets]
  refine funext fun (j : S4000x32.Idx) => ?_
  obtain ⟨p, q, rfl⟩ : ∃ (p : Fin 4000) (q : Fin 32), j = ix2 p q := ⟨j 0, j 1, eq_ix2 j⟩
  have hN : cfg0.N = 50 := N_0
  have ht := t.isLt
  have hp := p.isLt
  have hn : t.val * 4000 + p.val < 200000 := by omega
  have hx : (win0_9.xinj (grid0.coords t) (ix2 p q) : S4000x32.Idx) = ix2 p q := funext fun a => by
    match a with
    | ⟨0, _⟩ => rfl
    | ⟨1, _⟩ => rfl
  refine (congrArg (k0_pay1 (F := Ideal) (k0_pay2 (F := Ideal) (iblk0 V c 0 t) (iblk0 V c 2 t) (iblk0 V c 3 t) (iblk0 V c 1 t) (iblk0 V c 4 t) (iblk0 V c 5 t)) (k0_pay3 (F := Ideal) (iblk0 V c 6 t)) (iblk0 V c 7 t)) hx).trans ?_
  refine (msgPayload_row _ _ _ _ _ _ _ _ p q).trans ?_
  show _ = msgArr V c (((cfg0.win 9).blk t).view.emb (ix2 p q))
  rw [msgBlock_emb t p q ⟨_, hn⟩ rfl]
  show _ = Cert.Spec.msgOf (V c main_arg0) (V c main_v16) (V c main_arg4) (V c main_v0) (V c main_arg8) (V c main_v2) (V c main_arg10) (V c main_v3) ⟨_, hn⟩ q
  rw [msgOf_eq_row]
  exact msgRow_congr (fun i => featBlock_apply V c t p i _ rfl) (fun l => graphBlock_apply V c t p l _ rfl)
    (fun i l => featWeight_apply V c t i l) (fun l => featBias_apply V c t 0 l) (fun r k => mixWeight_apply V c t r k)
    (fun k => mixBias_apply V c t 0 k)
    (fun l k => msgWeight_apply V c t l k) (fun k => msgBias_apply V c t 0 k) q

/-- An entry of the array is in point `t`'s msg block iff each coordinate is in the block's range. -/
theorem mem_msgBlock (t : Fin cfg0.N) (i : S200000x32.Idx) :
    i ∈ ((cfg0.win 9).blk t).view.set ↔ ∀ a : Fin 2, win0_9.index t a * S4000x32.size a ≤ (i a).val ∧ (i a).val < win0_9.index t a * S4000x32.size a + S4000x32.size a := by
  show i ∈ ((View.whole main_v17_1).slice (win0_9.rect t)).set ↔ _
  rw [View.set_slice_whole, Rect.mem_set_unit]
  exact Iff.rfl

/-- The fifty row blocks tile the array: row `r` is in the block of point `r / 4000`. -/
theorem msgBlocks_cover (i : S200000x32.Idx) :
    ∃ t : Fin cfg0.N, (cfg0.win 9).flush t = true ∧ i ∈ ((cfg0.win 9).blk t).view.set := by
  have hi0 : (i 0).val < 200000 := (i 0).isLt
  have hi1 : (i 1).val < 32 := (i 1).isLt
  have hN : cfg0.N = 50 := N_0
  have hlt : (i 0).val / 4000 < cfg0.N := by omega
  obtain ⟨t, ht⟩ : ∃ t : Fin cfg0.N, t.val = (i 0).val / 4000 := ⟨⟨_, hlt⟩, rfl⟩
  have e := blockIndex t
  refine ⟨t, flush0_9 t, ?_⟩
  rw [mem_msgBlock]
  intro a
  match a with
  | ⟨0, _⟩ =>
    show win0_9.index t 0 * 4000 ≤ (i 0).val ∧ (i 0).val < win0_9.index t 0 * 4000 + 4000
    omega
  | ⟨1, _⟩ =>
    show win0_9.index t 1 * 32 ≤ (i 1).val ∧ (i 1).val < win0_9.index t 1 * 32 + 32
    omega

/-! ## The two arrays after the run -/

/-- The node-state array: row `n` is `Spec.nodeOf` of row `n` of the inputs. -/
theorem node_arr (c : Dev nD) :
    (dat0 (F := Ideal) V c).arrAt 8 cfg0.N
      = fun i => Cert.Spec.nodeOf (V c main_arg0) (V c main_v16) (V c main_arg4) (V c main_v0) (V c main_arg8) (V c main_v2) (i 0) (i 1) :=
  (dat0 (F := Ideal) V c).arrAt_eq_of_cover 8 (nodeArr V c) (fun t _ => nodeFlushed_eq V c t) nodeBlocks_cover

/-- The message array: row `n` is `Spec.msgOf` of row `n` of the inputs. -/
theorem msg_arr (c : Dev nD) :
    (dat0 (F := Ideal) V c).arrAt 9 cfg0.N
      = fun i => Cert.Spec.msgOf (V c main_arg0) (V c main_v16) (V c main_arg4) (V c main_v0) (V c main_arg8) (V c main_v2) (V c main_arg10) (V c main_v3) (i 0) (i 1) :=
  (dat0 (F := Ideal) V c).arrAt_eq_of_cover 9 (msgArr V c) (fun t _ => msgFlushed_eq V c t) msgBlocks_cover

end Cert.KernelIdeal.Encoder

end
-- ==== Proof.HeadArray.lean ====
/-
  The head stage's output array after its run over all row blocks, as a function of the arrays it is handed.

  One point of the grid handles 4000 consecutive rows.  Its body takes the rows' node states, arriving messages
  and own messages, and the weights, and stores for row `p` of the block and output column `j`

    ∑ k < 32, relu ((agg p k + msg p k) + (∑ l < 32, node p l · wSelf l k + bSelf k)) · wOut k j + bOut j

  (each block product is a sum over its contraction index; the one-row biases are spread over the rows).
  Point `t`'s block is rows `4000 t … 4000 t + 3999` of every row-blocked array, and the fifty blocks tile the
  200000 rows, so the array ends holding `Spec.headOf` of the whole arrays, row by row.
-/
import proofs.«402760_j11974368821437_2_alg».proof.Proof.Gen.KernelIdeal.Frame
import proofs.«402760_j11974368821437_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Head

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## The two block products at an index -/

private theorem lhs_state_0 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
private theorem lhs_state_1 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
private theorem rhs_state_0 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
private theorem rhs_state_1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- The product of a block of node states with the self weights, at row `p` and column `k`. -/
private theorem state_matmul_apply (x : FVec Ideal S4000x32 .bf16) (w : FVec Ideal S32x32 .bf16) (p : Fin 4000) (k : Fin 32) :
    matmul dot_S4000x32_S32x32_S4000x32_1_0_0_1_n_n none x w (constant S4000x32 .f32 0x00000000#32) (ix2 p k)
      = ∑ l : Fin 32, x (ix2 p l) * w (ix2 l k) := by
  simp only [matmul]
  rw [Ideal.matmul_constant_zero_apply, ← Equiv.sum_comp (ValueIdx.contrEquiv1 dot_S4000x32_S32x32_S4000x32_1_0_0_1_n_n 32 rfl rfl).symm]
  refine Finset.sum_congr rfl fun l _ => ?_
  have hl := ValueIdx.contrEquiv1_symm_val dot_S4000x32_S32x32_S4000x32_1_0_0_1_n_n 32 rfl rfl l
  have el : dot_S4000x32_S32x32_S4000x32_1_0_0_1_n_n.lhsIdx (ix2 p k) ((ValueIdx.contrEquiv1 dot_S4000x32_S32x32_S4000x32_1_0_0_1_n_n 32 rfl rfl).symm l) = ix2 p l := funext fun a => Fin.ext (by
    match a with
    | ⟨0, _⟩ => exact lhs_state_0 _ _
    | ⟨1, _⟩ => exact (lhs_state_1 _ _).trans hl)
  have er : dot_S4000x32_S32x32_S4000x32_1_0_0_1_n_n.rhsIdx (ix2 p k) ((ValueIdx.contrEquiv1 dot_S4000x32_S32x32_S4000x32_1_0_0_1_n_n 32 rfl rfl).symm l) = ix2 l k := funext fun a => Fin.ext (by
    match a with
    | ⟨0, _⟩ => exact (rhs_state_0 _ _).trans hl
    | ⟨1, _⟩ => exact rhs_state_1 _ _)
  rw [el, er]

private theorem lhs_out_0 (i : S4000x2.Idx) (q : dot_S4000x32_S32x2_S4000x2_1_0_0_1_n_n.contr.Idx) :
    (dot_S4000x32_S32x2_S4000x2_1_0_0_1_n_n.lhsIdx i q 0).val = (i 0).val := by
  unfold DotDims.lhsIdx
  rw [dif_neg (show ¬(0 : Fin S4000x32.rank) ∈ dot_S4000x32_S32x2_S4000x2_1_0_0_1_n_n.lhsBatch by decide), dif_pos (show (0 : Fin S4000x32.rank) ∈ dot_S4000x32_S32x2_S4000x2_1_0_0_1_n_n.lhsNonContracting by decide)]
  rfl
private theorem lhs_out_1 (i : S4000x2.Idx) (q : dot_S4000x32_S32x2_S4000x2_1_0_0_1_n_n.contr.Idx) :
    (dot_S4000x32_S32x2_S4000x2_1_0_0_1_n_n.lhsIdx i q 1).val = (q ⟨0, by decide⟩).val :=
  dot_S4000x32_S32x2_S4000x2_1_0_0_1_n_n.lhsIdx_val_of_single rfl i q
private theorem rhs_out_0 (i : S4000x2.Idx) (q : dot_S4000x32_S32x2_S4000x2_1_0_0_1_n_n.contr.Idx) :
    (dot_S4000x32_S32x2_S4000x2_1_0_0_1_n_n.rhsIdx i q 0).val = (q ⟨0, by decide⟩).val :=
  dot_S4000x32_S32x2_S4000x2_1_0_0_1_n_n.rhsIdx_val_of_single rfl i q
private theorem rhs_out_1 (i : S4000x2.Idx) (q : dot_S4000x32_S32x2_S4000x2_1_0_0_1_n_n.contr.Idx) :
    (dot_S4000x32_S32x2_S4000x2_1_0_0_1_n_n.rhsIdx i q 1).val = (i 1).val := by
  unfold DotDims.rhsIdx
  rw [dif_neg (show ¬(1 : Fin S32x2.rank) ∈ dot_S4000x32_S32x2_S4000x2_1_0_0_1_n_n.rhsBatch by decide), dif_pos (show (1 : Fin S32x2.rank) ∈ dot_S4000x32_S32x2_S4000x2_1_0_0_1_n_n.rhsNonContracting by decide)]
  rfl

/-- The product of a block of hidden states with the output weights, at row `p` and column `j`. -/
private theorem out_matmul_apply (x : FVec Ideal S4000x32 .bf16) (w : FVec Ideal S32x2 .bf16) (p : Fin 4000) (j : Fin 2) :
    matmul dot_S4000x32_S32x2_S4000x2_1_0_0_1_n_n none x w (constant S4000x2 .f32 0x00000000#32) (ix2 p j)
      = ∑ k : Fin 32, x (ix2 p k) * w (ix2 k j) := by
  simp only [matmul]
  rw [Ideal.matmul_constant_zero_apply, ← Equiv.sum_comp (ValueIdx.contrEquiv1 dot_S4000x32_S32x2_S4000x2_1_0_0_1_n_n 32 rfl rfl).symm]
  refine Finset.sum_congr rfl fun k _ => ?_
  have hk := ValueIdx.contrEquiv1_symm_val dot_S4000x32_S32x2_S4000x2_1_0_0_1_n_n 32 rfl rfl k
  have el : dot_S4000x32_S32x2_S4000x2_1_0_0_1_n_n.lhsIdx (ix2 p j) ((ValueIdx.contrEquiv1 dot_S4000x32_S32x2_S4000x2_1_0_0_1_n_n 32 rfl rfl).symm k) = ix2 p k := funext fun a => Fin.ext (by
    match a with
    | ⟨0, _⟩ => exact lhs_out_0 _ _
    | ⟨1, _⟩ => exact (lhs_out_1 _ _).trans hk)
  have er : dot_S4000x32_S32x2_S4000x2_1_0_0_1_n_n.rhsIdx (ix2 p j) ((ValueIdx.contrEquiv1 dot_S4000x32_S32x2_S4000x2_1_0_0_1_n_n 32 rfl rfl).symm k) = ix2 k j := funext fun a => Fin.ext (by
    match a with
    | ⟨0, _⟩ => exact (rhs_out_0 _ _).trans hk
    | ⟨1, _⟩ => exact rhs_out_1 _ _)
  rw [el, er]

/-! ## The one-row biases spread over the block's rows -/

private theorem bias32_apply (b : Vec Ideal S1x32 .f32) (p : Fin 4000) (k : Fin 32) :
    broadcastTo S4000x32 b broadcasts_S1x32_S4000x32 (ix2 p k) = b (ix2 (0 : Fin 1) k) :=
  broadcastTo_apply b broadcasts_S1x32_S4000x32 (ix2 p k) (ix2 (0 : Fin 1) k) fun a => by
    match a with
    | ⟨0, _⟩ => rfl
    | ⟨1, _⟩ => rfl

private theorem bias2_apply (b : Vec Ideal S1x2 .f32) (p : Fin 4000) (j : Fin 2) :
    broadcastTo S4000x2 b broadcasts_S1x2_S4000x2 (ix2 p j) = b (ix2 (0 : Fin 1) j) :=
  broadcastTo_apply b broadcasts_S1x2_S4000x2 (ix2 p j) (ix2 (0 : Fin 1) j) fun a => by
    match a with
    | ⟨0, _⟩ => rfl
    | ⟨1, _⟩ => rfl

/-! ## The body's arithmetic at an index -/

private theorem pay_apply (x0 x1 x2 : Vec Ideal S4000x32 .f32) (x3 : Vec Ideal S32x32 .f32) (x4 : Vec Ideal S1x32 .f32)
    (x5 : Vec Ideal S32x2 .f32) (x6 : Vec Ideal S1x2 .f32) (p : Fin 4000) (j : Fin 2) :
    k1_pay1 (F := Ideal) x0 x1 x2 x3 x4 x5 x6 (ix2 p j)
      = (∑ k : Fin 32, max ((x1 (ix2 p k) + x2 (ix2 p k))
            + ((∑ l : Fin 32, x0 (ix2 p l) * x3 (ix2 l k)) + x4 (ix2 (0 : Fin 1) k))) 0 * x5 (ix2 k j))
          + x6 (ix2 (0 : Fin 1) j) := by
  unfold k1_pay1
  simp only [shapeCast_self]
  rw [addf_apply, out_matmul_apply, bias2_apply]
  refine congrArg (· + x6 (ix2 (0 : Fin 1) j)) (Finset.sum_congr rfl fun k _ => ?_)
  rw [truncf_apply, truncf_apply, maximumf_apply, broadcast_apply, addf_apply, addf_apply, addf_apply,
    state_matmul_apply, bias32_apply]
  simp only [truncf_apply, Ideal.ofBits_def, Ideal.ofBits_zero_f32]

/-- The same at any index of the block. -/
private theorem pay_at (x0 x1 x2 : Vec Ideal S4000x32 .f32) (x3 : Vec Ideal S32x32 .f32) (x4 : Vec Ideal S1x32 .f32)
    (x5 : Vec Ideal S32x2 .f32) (x6 : Vec Ideal S1x2 .f32) (y : S4000x2.Idx) :
    k1_pay1 (F := Ideal) x0 x1 x2 x3 x4 x5 x6 y
      = (∑ k : Fin 32, max ((x1 (ix2 (y 0) k) + x2 (ix2 (y 0) k))
            + ((∑ l : Fin 32, x0 (ix2 (y 0) l) * x3 (ix2 l k)) + x4 (ix2 (0 : Fin 1) k))) 0 * x5 (ix2 k (y 1)))
          + x6 (ix2 (0 : Fin 1) (y 1)) :=
  (congrArg (k1_pay1 (F := Ideal) x0 x1 x2 x3 x4 x5 x6) (eq_ix2 y)).trans (pay_apply x0 x1 x2 x3 x4 x5 x6 (y 0) (y 1))

/-- When the blocks handed to the body are row `n` onward of the whole arrays (and the weights whole), the body's
    result at block index `y` is `Spec.headOf` of the whole arrays at row `n` and column `j`. -/
private theorem head_block (nd ag ms : Cert.Spec.Mat 200000 32) (ws : Cert.Spec.Mat 32 32) (bs : Cert.Spec.Mat 1 32)
    (wo : Cert.Spec.Mat 32 2) (bo : Cert.Spec.Mat 1 2)
    (x0 x1 x2 : Vec Ideal S4000x32 .f32) (x3 : Vec Ideal S32x32 .f32) (x4 : Vec Ideal S1x32 .f32)
    (x5 : Vec Ideal S32x2 .f32) (x6 : Vec Ideal S1x2 .f32) (y : S4000x2.Idx) (n : Fin 200000) (j : Fin 2)
    (h0 : ∀ l : Fin 32, x0 (ix2 (y 0) l) = nd (ix2 n l))
    (h1 : ∀ k : Fin 32, x1 (ix2 (y 0) k) = ag (ix2 n k))
    (h2 : ∀ k : Fin 32, x2 (ix2 (y 0) k) = ms (ix2 n k))
    (h3 : ∀ l k : Fin 32, x3 (ix2 l k) = ws (ix2 l k))
    (h4 : ∀ k : Fin 32, x4 (ix2 (0 : Fin 1) k) = bs (ix2 (0 : Fin 1) k))
    (h5 : ∀ k : Fin 32, x5 (ix2 k (y 1)) = wo (ix2 k j))
    (h6 : x6 (ix2 (0 : Fin 1) (y 1)) = bo (ix2 (0 : Fin 1) j)) :
    k1_pay1 (F := Ideal) x0 x1 x2 x3 x4 x5 x6 y = Cert.Spec.headOf nd ag ms ws bs wo bo n j := by
  rw [pay_at]
  unfold Cert.Spec.headOf
  simp only [h0, h1, h2, h3, h4, h5, h6]

/-! ## The blocks of a point -/

private theorem hz : (![0, 0] : Fin 2 → Nat) = fun _ => 0 := funext fun a => by fin_cases a <;> rfl

/-- The printed index maps, decided over the grid: the three row-blocked inputs and the output sit at block row `t`,
    the weights and biases at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of point `t`'s block of node states is row `4000 t + p` of the array. -/
private theorem blk_node (c : Dev nD) (t : Fin cfg1.N) (p : Fin 4000) (l : Fin 32) (n : Fin 200000)
    (hn : n.val = t.val * 4000 + p.val) :
    (iblk1 (F := Ideal) V c 0 t : Vec Ideal S4000x32 .f32) (ix2 p l) = (V c main_v17_0 : Cert.Spec.Mat 200000 32) (ix2 n l) := by
  obtain ⟨e0, e1, -⟩ := idx_facts t
  unfold iblk1
  rw [View.read_apply]
  show V c main_v17_0 _ = V c main_v17_0 _
  congr 1
  funext a
  apply Fin.ext
  match a with
  | ⟨0, _⟩ => show win1_0.index t (0 : Fin 2) * 4000 + 1 * p.val = n.val; omega
  | ⟨1, _⟩ => show win1_0.index t (1 : Fin 2) * 32 + 1 * l.val = l.val; omega

/-- Row `p` of point `t`'s block of arriving messages is row `4000 t + p` of the array. -/
private theorem blk_agg (c : Dev nD) (t : Fin cfg1.N) (p : Fin 4000) (k : Fin 32) (n : Fin 200000)
    (hn : n.val = t.val * 4000 + p.val) :
    (iblk1 (F := Ideal) V c 1 t : Vec Ideal S4000x32 .f32) (ix2 p k) = (V c main_v25 : Cert.Spec.Mat 200000 32) (ix2 n k) := by
  obtain ⟨-, -, e0, e1, -⟩ := idx_facts t
  unfold iblk1
  rw [View.read_apply]
  show V c main_v25 _ = V c main_v25 _
  congr 1
  funext a
  apply Fin.ext
  match a with
  | ⟨0, _⟩ => show win1_1.index t (0 : Fin 2) * 4000 + 1 * p.val = n.val; omega
  | ⟨1, _⟩ => show win1_1.index t (1 : Fin 2) * 32 + 1 * k.val = k.val; omega

/-- Row `p` of point `t`'s block of own messages is row `4000 t + p` of the array. -/
private theorem blk_msg (c : Dev nD) (t : Fin cfg1.N) (p : Fin 4000) (k : Fin 32) (n : Fin 200000)
    (hn : n.val = t.val * 4000 + p.val) :
    (iblk1 (F := Ideal) V c 2 t : Vec Ideal S4000x32 .f32) (ix2 p k) = (V c main_v17_1 : Cert.Spec.Mat 200000 32) (ix2 n k) := by
  obtain ⟨-, -, -, -, e0, e1, -⟩ := idx_facts t
  unfold iblk1
  rw [View.read_apply]
  show V c main_v17_1 _ = V c main_v17_1 _
  congr 1
  funext a
  apply Fin.ext
  match a with
  | ⟨0, _⟩ => show win1_2.index t (0 : Fin 2) * 4000 + 1 * p.val = n.val; omega
  | ⟨1, _⟩ => show win1_2.index t (1 : Fin 2) * 32 + 1 * k.val = k.val; omega

/-- The self weights are handed whole at every point. -/
private theorem blk_wself (c : Dev nD) (t : Fin cfg1.N) (l k : Fin 32) :
    (iblk1 (F := Ideal) V c 3 t : Vec Ideal S32x32 .f32) (ix2 l k) = (V c main_arg12 : Cert.Spec.Mat 32 32) (ix2 l k) := by
  obtain ⟨-, -, -, -, -, -, e0, e1, -⟩ := idx_facts t
  unfold iblk1
  rw [View.read_apply]
  show V c main_arg12 _ = V c main_arg12 _
  congr 1
  funext a
  apply Fin.ext
  match a with
  | ⟨0, _⟩ => show win1_3.index t (0 : Fin 2) * 32 + 1 * l.val = l.val; omega
  | ⟨1, _⟩ => show win1_3.index t (1 : Fin 2) * 32 + 1 * k.val = k.val; omega

/-- The self bias row is handed whole at every point. -/
private theorem blk_bself (c : Dev nD) (t : Fin cfg1.N) (k : Fin 32) :
    (iblk1 (F := Ideal) V c 4 t : Vec Ideal S1x32 .f32) (ix2 (0 : Fin 1) k) = (V c main_v4 : Cert.Spec.Mat 1 32) (ix2 (0 : Fin 1) k) := by
  obtain ⟨-, -, -, -, -, -, -, -, e0, e1, -⟩ := idx_facts t
  unfold iblk1
  rw [View.read_apply]
  show V c main_v4 _ = V c main_v4 _
  congr 1
  funext a
  apply Fin.ext
  match a with
  | ⟨0, _⟩ => show win1_4.index t (0 : Fin 2) * 1 + 1 * 0 = 0; omega
  | ⟨1, _⟩ => show win1_4.index t (1 : Fin 2) * 32 + 1 * k.val = k.val; omega

/-- The output weights are handed whole at every point. -/
private theorem blk_wout (c : Dev nD) (t : Fin cfg1.N) (k : Fin 32) (j : Fin 2) :
    (iblk1 (F := Ideal) V c 5 t : Vec Ideal S32x2 .f32) (ix2 k j) = (V c main_arg14 : Cert.Spec.Mat 32 2) (ix2 k j) := by
  obtain ⟨-, -, -, -, -, -, -, -, -, -, e0, e1, -⟩ := idx_facts t
  unfold iblk1
  rw [View.read_apply]
  show V c main_arg14 _ = V c main_arg14 _
  congr 1
  funext a
  apply Fin.ext
  match a with
  | ⟨0, _⟩ => show win1_5.index t (0 : Fin 2) * 32 + 1 * k.val = k.val; omega
  | ⟨1, _⟩ => show win1_5.index t (1 : Fin 2) * 2 + 1 * j.val = j.val; omega

/-- The output bias row is handed whole at every point. -/
private theorem blk_bout (c : Dev nD) (t : Fin cfg1.N) (j : Fin 2) :
    (iblk1 (F := Ideal) V c 6 t : Vec Ideal S1x2 .f32) (ix2 (0 : Fin 1) j) = (V c main_v5 : Cert.Spec.Mat 1 2) (ix2 (0 : Fin 1) j) := by
  obtain ⟨-, -, -, -, -, -, -, -, -, -, -, -, e0, e1, -⟩ := idx_facts t
  unfold iblk1
  rw [View.read_apply]
  show V c main_v5 _ = V c main_v5 _
  congr 1
  funext a
  apply Fin.ext
  match a with
  | ⟨0, _⟩ => show win1_6.index t (0 : Fin 2) * 1 + 1 * 0 = 0; omega
  | ⟨1, _⟩ => show win1_6.index t (1 : Fin 2) * 2 + 1 * j.val = j.val; omega

/-! ## What a point writes back, the cover, the array -/

/-- The array the head stage computes, from the arrays as the region finds them. -/
private abbrev headArr (c : Dev nD) : Cert.Spec.Mat 200000 2 := fun i =>
  Cert.Spec.headOf (V c main_v17_0) (V c main_v25) (V c main_v17_1) (V c main_arg12) (V c main_v4) (V c main_arg14) (V c main_v5) (i 0) (i 1)

/-- What point `t` writes back is block `t` of `headArr`. -/
private theorem flushed_eq (c : Dev nD) (t : Fin cfg1.N) :
    (dat1 (F := Ideal) V c).flushed 7 t = ((cfg1.win 7).blk t).view.read (Elt Ideal) (headArr V c) := by
  show (cfg1.win 7).cut (grid1.coords t) ((dat1 (F := Ideal) V c).after 7 t) = _
  rw [after1_7]
  unfold out1_7
  rw [View.canon_unit_zero hz]
  simp only [View.ld_unit_zero (S := S4000x32) hz, View.ld_unit_zero (S := S32x32) hz, View.ld_unit_zero (S := S1x32) hz,
    View.ld_unit_zero (S := S32x2) hz, View.ld_unit_zero (S := S1x2) hz]
  obtain ⟨-, -, -, -, -, -, -, -, -, -, -, -, -, -, e0, e1⟩ := idx_facts t
  funext y
  have hn : (((cfg1.win 7).blk t).view.emb y 0).val = t.val * 4000 + (y 0).val := by
    show win1_7.index t (0 : Fin 2) * 4000 + 1 * (y 0).val = _
    omega
  have hj : (((cfg1.win 7).blk t).view.emb y 1).val = (y 1).val := by
    show win1_7.index t (1 : Fin 2) * 2 + 1 * (y 1).val = _
    omega
  exact head_block (V c main_v17_0) (V c main_v25) (V c main_v17_1) (V c main_arg12) (V c main_v4) (V c main_arg14) (V c main_v5)
    _ _ _ _ _ _ _ y _ _
    (fun l => blk_node V c t (y 0) l _ hn) (fun k => blk_agg V c t (y 0) k _ hn) (fun k => blk_msg V c t (y 0) k _ hn)
    (fun l k => blk_wself V c t l k) (fun k => blk_bself V c t k)
    (fun k => (blk_wout V c t k (y 1)).trans (congrArg (fun j => (V c main_arg14 : Cert.Spec.Mat 32 2) (ix2 k j)) (Fin.ext hj.symm)))
    ((blk_bout V c t (y 1)).trans (congrArg (fun j => (V c main_v5 : Cert.Spec.Mat 1 2) (ix2 (0 : Fin 1) j)) (Fin.ext hj.symm)))

/-- An index of the array is in point `t`'s block iff each coordinate is in the block's range on its axis. -/
private theorem mem_blk (t : Fin cfg1.N) (i : S200000x2.Idx) :
    i ∈ ((cfg1.win 7).blk t).view.set ↔ ∀ a : Fin 2, win1_7.index t a * S4000x2.size a ≤ (i a).val ∧ (i a).val < win1_7.index t a * S4000x2.size a + S4000x2.size a := by
  show i ∈ ((View.whole main_v26).slice (win1_7.rect t)).set ↔ _
  rw [View.set_slice_whole, Rect.mem_set_unit]
  exact Iff.rfl

/-- Every row is in the block of the point numbered by its quotient by 4000. -/
private theorem cover (i : S200000x2.Idx) :
    ∃ t : Fin cfg1.N, (cfg1.win 7).flush t = true ∧ i ∈ ((cfg1.win 7).blk t).view.set := by
  have hi0 : (i 0).val < 200000 := (i 0).isLt
  have hi1 : (i 1).val < 2 := (i 1).isLt
  have hN : cfg1.N = 50 := N_1
  obtain ⟨t, ht⟩ : ∃ t : Fin cfg1.N, t.val = (i 0).val / 4000 := ⟨⟨(i 0).val / 4000, by omega⟩, rfl⟩
  obtain ⟨-, -, -, -, -, -, -, -, -, -, -, -, -, -, e0, e1⟩ := idx_facts t
  refine ⟨t, flush1_7 t, ?_⟩
  rw [mem_blk]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 2 ≤ (i 1).val ∧ (i 1).val < win1_7.index t (1 : Fin 2) * 2 + 2
    omega

/-- The output array: row `n` is `Spec.headOf` of row `n` of the inputs. -/
theorem out_arr (c : Dev nD) :
    (dat1 (F := Ideal) V c).arrAt 7 cfg1.N
      = fun i => Cert.Spec.headOf (V c main_v17_0) (V c main_v25) (V c main_v17_1) (V c main_arg12) (V c main_v4) (V c main_arg14) (V c main_v5) (i 0) (i 1) := by
  exact (dat1 (F := Ideal) V c).arrAt_eq_of_cover 7 (headArr V c) (fun t _ => flushed_eq V c t) cover

end Cert.KernelIdeal.Head

end
-- ==== Proof.KernelValue.lean ====
/-
  The kernel program's result: the head stage's array over the encoder stage's arrays and the arriving messages,
  which — each read through the host operations back to the argument arrays — is the network of `Spec`.
-/
import proofs.«402760_j11974368821437_2_alg».proof.Proof.Gen.KernelIdeal.Frame
import proofs.«402760_j11974368821437_2_alg».proof.Proof.Spec
import proofs.«402760_j11974368821437_2_alg».proof.Proof.SpecStages
import proofs.«402760_j11974368821437_2_alg».proof.Proof.KernelInputs
import proofs.«402760_j11974368821437_2_alg».proof.Proof.EncoderInputs
import proofs.«402760_j11974368821437_2_alg».proof.Proof.HeadInputs
import proofs.«402760_j11974368821437_2_alg».proof.Proof.EncoderArrays
import proofs.«402760_j11974368821437_2_alg».proof.Proof.HeadArray

set_option maxRecDepth 16384

noncomputable section

open scoped BigOperators

namespace Cert.KernelIdeal.KernelValue

open Cert.KernelIdeal Cert.KernelIdeal.Gen Cert.KernelIdeal.KernelInputs
open Idealize.ShloMosaic Idealize.ShloMosaic.TcCoe Idealize.ShloMosaic.ValueIdx Idealize.SL.Sem

variable (m : (ℓ : Loc nD τ sig) → Buf (Elt Ideal) ℓ) (ρ : Dev nD → PrngReg)

/-- The encoder stage's node state over the arrays it is handed is the network's node state. -/
theorem nodeOf_eq (c : Dev nD) (n : Fin 200000) (k : Fin 32) :
    Cert.Spec.nodeOf (V3 m ρ c main_arg0) (V3 m ρ c main_v16) (V3 m ρ c main_arg4) (V3 m ρ c main_v0)
      (V3 m ρ c main_arg8) (V3 m ρ c main_v2) n k = Cert.Spec.node (inputs m c) n k :=
  Cert.Spec.nodeOf_eq (inputs m c) (EncoderInputs.xLocal_eq m ρ c) (EncoderInputs.hGlobal_apply m ρ c)
    (EncoderInputs.wLocal_eq m ρ c) (EncoderInputs.bLocal_apply m ρ c) (EncoderInputs.wMix_eq m ρ c)
    (EncoderInputs.bMix_apply m ρ c) n k

/-- The node-state array after the encoder stage. -/
theorem node_apply (c : Dev nD) (n : Fin 200000) (k : Fin 32) :
    (dat0 (F := Ideal) (V3 m ρ) c).arrAt 8 cfg0.N (ix2 n k) = Cert.Spec.node (inputs m c) n k := by
  rw [Encoder.node_arr (V3 m ρ) c]
  exact nodeOf_eq m ρ c n k

/-- The message array after the encoder stage. -/
theorem msg_apply (c : Dev nD) (n : Fin 200000) (k : Fin 32) :
    (dat0 (F := Ideal) (V3 m ρ) c).arrAt 9 cfg0.N (ix2 n k) = Cert.Spec.msg (inputs m c) n k := by
  rw [Encoder.msg_arr (V3 m ρ) c]
  exact Cert.Spec.msgOf_eq (inputs m c) (nodeOf_eq m ρ c) (EncoderInputs.wMsg_eq m ρ c)
    (EncoderInputs.bMsg_apply m ρ c) n k

/-- THE RESULT: where every source word of the edge list is a node number, the result buffer ends at the network's
    output. -/
theorem result_eq (c : Dev nD)
    (hs : ∀ e : Fin 6400000, 0 ≤ ((inputs m c).edges (ix2 (0 : Fin 2) e)).toInt
      ∧ ((inputs m c).edges (ix2 (0 : Fin 2) e)).toInt < 200000) :
    W8 m ρ c (Proc.devRef .tc main_v26) = Cert.Spec.result (inputs m c) := by
  refine (W8_arr m ρ c 7).trans ?_
  rw [Head.out_arr (V7 m ρ) c]
  funext i
  obtain ⟨n, j, rfl⟩ : ∃ (n : Fin 200000) (j : Fin 2), i = ix2 n j := ⟨i 0, i 1, eq_ix2 i⟩
  exact Cert.Spec.headOf_eq (inputs m c)
    (fun n l => (congrFun (HeadInputs.node_eq m ρ c) (ix2 n l)).trans (node_apply m ρ c n l))
    (HeadInputs.agg_apply m ρ c hs
      (fun n k => (congrFun (W4_arr m ρ c 9) (ix2 n k)).trans (msg_apply m ρ c n k)))
    (fun n k => (congrFun (HeadInputs.msg_eq m ρ c) (ix2 n k)).trans (msg_apply m ρ c n k))
    (HeadInputs.wSelf_eq m ρ c) (HeadInputs.bSelf_apply m ρ c) (HeadInputs.wOut_eq m ρ c)
    (HeadInputs.bOut_apply m ρ c) n j

end Cert.KernelIdeal.KernelValue

end
-- ==== Proof.RefValue.lean ====
/-
  The reference program's result is the network of `Spec`: read stage by stage at an index.

  The reference differs from `Spec` in three arrangements only.  It contracts the joined array
  `[local | global | local · global]` (96 columns) against the mixing weights in one sum, where `Spec` has three
  sums over the three blocks of 32 rows.  It appends one self loop per node to the edge list (6600000 update rows:
  the 6400000 edges, then node `m` to node `m` for every `m`) and accumulates every row's message at its target,
  where `Spec` adds the node's own message to the sum over the edges.  And it associates the last additions
  differently.  Addition on the extended reals is commutative and associative, which is all these need.
-/
import proofs.«402760_j11974368821437_2_alg».proof.Proof.Gen.ReferenceIdeal.Read
import proofs.«402760_j11974368821437_2_alg».proof.Proof.Spec
import proofs.«402760_j11974368821437_2_alg».proof.Proof.LibGatherRead
import proofs.«402760_j11974368821437_2_alg».proof.Proof.LibScatterAddRead
import Mathlib.Algebra.BigOperators.Fin

noncomputable section

open scoped BigOperators

namespace Cert.RefValue

open Cert.ReferenceIdeal Cert.ReferenceIdeal.Read Idealize.ShloMosaic Idealize.ShloMosaic.ValueIdx

/-- Two rank-2 indices with the same coordinates are equal. -/
local macro "idx2_rfl" : tactic => `(tactic| (funext d; match d with | ⟨0, _⟩ => rfl | ⟨1, _⟩ => rfl))
/-- Two rank-1 indices with the same coordinate are equal. -/
local macro "idx1_rfl" : tactic => `(tactic| (funext d; match d with | ⟨0, _⟩ => rfl))

/-! ## Splitting a sum over a range into consecutive blocks -/

/-- A sum over 96 positions is the sum over its three blocks of 32. -/
private theorem sum_cols {M : Type*} [AddCommMonoid M] (f : Fin 96 → M) :
    ∑ c : Fin 96, f c = ((∑ l : Fin 32, f ⟨l.val, by omega⟩) + ∑ l : Fin 32, f ⟨32 + l.val, by omega⟩)
      + ∑ l : Fin 32, f ⟨64 + l.val, by omega⟩ := by
  have h1 := Fin.sum_univ_add (a := 64) (b := 32) f
  have h2 := Fin.sum_univ_add (a := 32) (b := 32) (fun i : Fin (32 + 32) => f (Fin.castAdd 32 i))
  exact h1.trans (congrArg (fun s => s + ∑ i : Fin 32, f (Fin.natAdd 64 i)) h2)

/-- A sum over the 6600000 update rows is the sum over the 6400000 edge rows plus the sum over the 200000 loop rows. -/
private theorem sum_rows {M : Type*} [AddCommMonoid M] (g : Fin 6600000 → M) :
    ∑ r : Fin 6600000, g r
      = (∑ e : Fin 6400000, g ⟨e.val, by omega⟩) + ∑ m : Fin 200000, g ⟨6400000 + m.val, by omega⟩ :=
  Fin.sum_univ_add (a := 6400000) (b := 200000) g

/-! ## A loop row's word -/

/-- The word of a node number below 200000 reads back, signed, as the number. -/
private theorem loop_toInt (m : Fin 200000) : (BitVec.ofNat 32 m.val).toInt = (m.val : Int) := by
  have hm := m.isLt
  have hn : (BitVec.ofNat 32 m.val).toNat = m.val := by
    rw [BitVec.toNat_ofNat]; omega
  rw [BitVec.toInt_eq_toNat_of_lt (by rw [hn]; omega), hn]

/-- Such a word is not negative, so wrapping leaves it, and it names the node itself. -/
private theorem loop_row (m : Fin 200000) :
    Cert.Spec.row 200000 (by decide) (Cert.Spec.wrap 200000#32 (BitVec.ofNat 32 m.val)) = m := by
  have hi := loop_toInt m
  have hm := m.isLt
  have hs : (BitVec.ofNat 32 m.val).slt 0#32 = false := by
    rw [BitVec.slt_eq_decide, hi, BitVec.toInt_zero]
    exact decide_eq_false (by omega)
  have hw : Cert.Spec.wrap 200000#32 (BitVec.ofNat 32 m.val) = BitVec.ofNat 32 m.val := by
    show Scalar.select (BitVec.ofBool ((BitVec.ofNat 32 m.val).slt 0#32)) _ _ = _
    rw [hs]
    rfl
  rw [hw]
  refine Fin.ext ?_
  show min (BitVec.ofNat 32 m.val).toInt.toNat (200000 - 1) = m.val
  rw [hi]
  omega

/-- The clamped row of a word, written out, is `Spec.row` of an equal word. -/
private theorem row_congr {N : Nat} (hN : 0 < N) {v w : BitVec 32} (h : v = w)
    (pf : min v.toInt.toNat (N - 1) < N) :
    (⟨min v.toInt.toNat (N - 1), pf⟩ : Fin N) = Cert.Spec.row N hN w := by
  subst h
  rfl

variable (a : Cert.Spec.Inputs)

/-! ## The two encoders -/

/-- The local encoder's stage. -/
theorem v4_eq (n : Fin 200000) (l : Fin 32) :
    val_main_v4 (F := Ideal) a.xLocal a.wLocal a.bLocal (ix2 n l) = Cert.Spec.hLocal a n l := by
  have e1 : ∀ i : Fin 16, lidx_main_v0 (ix2 n l) i = ix2 n i := fun i => by idx2_rfl
  have e2 : ∀ i : Fin 16, ridx_main_v0 (ix2 n l) i = ix2 i l := fun i => by idx2_rfl
  have e3 : idx_main_v1 (idx_main_v2 (ix2 n l)) = ix1 l := by idx1_rfl
  rw [val_main_v4_apply, val_main_v3_apply, val_main_v0_apply, val_main_v2_apply, val_main_v1_apply,
    val_main_call0_v0_apply, val_main_call0_cst_apply]
  simp only [e1, e2, e3, Ideal.maximumf_def, Ideal.addf_def, Ideal.ofBits_def, Ideal.ofBits_zero_f32]
  rfl

/-- The graph-level encoder's stage, per graph. -/
theorem v9_eq (b : Fin 128) (l : Fin 32) :
    val_main_v9 (F := Ideal) a.xGlobal a.wGlobal a.bGlobal (ix2 b l) = Cert.Spec.hGraph a b l := by
  have e1 : ∀ i : Fin 8, lidx_main_v5 (ix2 b l) i = ix2 b i := fun i => by idx2_rfl
  have e2 : ∀ i : Fin 8, ridx_main_v5 (ix2 b l) i = ix2 i l := fun i => by idx2_rfl
  have e3 : idx_main_v6 (idx_main_v7 (ix2 b l)) = ix1 l := by idx1_rfl
  rw [val_main_v9_apply, val_main_v8_apply, val_main_v5_apply, val_main_v7_apply, val_main_v6_apply,
    val_main_call1_v0_apply, val_main_call1_cst_apply]
  simp only [e1, e2, e3, Ideal.maximumf_def, Ideal.addf_def, Ideal.ofBits_def, Ideal.ofBits_zero_f32]
  rfl

/-- A node's graph word, wrapped. -/
theorem v15_eq (n : Fin 200000) :
    val_main_v15 (F := Ideal) a.batch (ix2 n (0 : Fin 1)) = Cert.Spec.wrap 128#32 (a.batch (ix1 n)) := by
  have e : idx_main_v15 (ix2 n (0 : Fin 1)) = ix1 n := by idx1_rfl
  rw [val_main_v15_apply, e, val_main_v14_apply, val_main_v11_apply, val_main_v13_apply, val_main_v10_apply,
    val_main_v12_apply, val_main_c_apply, val_main_c_0_apply]
  rfl

/-- The graph-level activation gathered per node. -/
theorem v16_eq (n : Fin 200000) (l : Fin 32) :
    val_main_v16 (F := Ideal) a.xGlobal a.batch a.wGlobal a.bGlobal (ix2 n l) = Cert.Spec.hGlobal a n l := by
  unfold val_main_v16
  refine (Cert.LibGatherRead.gather_rows_apply (N := 128) (C := 32) (R := 200000) (by decide)
    Gen.gather_S128x32_S200000x1_S200000x32_1_0_n_n_0_1_132_wf _ _ n l).trans ?_
  rw [row_congr (by decide) (v15_eq a n), v9_eq]
  rfl

/-! ## The mixed node state -/

/-- The joined array's first block is the local activation. -/
theorem v18_at0 (n : Fin 200000) (l : Fin 32) :
    val_main_v18 (F := Ideal) a.xLocal a.xGlobal a.batch a.wLocal a.bLocal a.wGlobal a.bGlobal (ix2 n (⟨l.val, by omega⟩ : Fin 96))
      = val_main_v4 (F := Ideal) a.xLocal a.wLocal a.bLocal (ix2 n l) := by
  unfold val_main_v18
  refine concatenate_apply_piece _ _ _ _ 0 ?_ S200000x32
    (val_main_v4 (F := Ideal) a.xLocal a.wLocal a.bLocal) ?_ ?_ 0 ?_ (ix2 n l) ?_ ?_
  · exact (by decide : (0 : Nat) < 3)
  · rfl
  · rfl
  · rfl
  · intro b hb
    match b with
    | ⟨0, _⟩ => rfl
    | ⟨1, _⟩ => exact absurd rfl hb
  · show 0 + l.val = l.val
    omega

/-- Its second block is the per-node global activation. -/
theorem v18_at1 (n : Fin 200000) (l : Fin 32) :
    val_main_v18 (F := Ideal) a.xLocal a.xGlobal a.batch a.wLocal a.bLocal a.wGlobal a.bGlobal (ix2 n (⟨32 + l.val, by omega⟩ : Fin 96))
      = val_main_v16 (F := Ideal) a.xGlobal a.batch a.wGlobal a.bGlobal (ix2 n l) := by
  unfold val_main_v18
  refine concatenate_apply_piece _ _ _ _ 1 ?_ S200000x32
    (val_main_v16 (F := Ideal) a.xGlobal a.batch a.wGlobal a.bGlobal) ?_ ?_ 32 ?_ (ix2 n l) ?_ ?_
  · exact (by decide : (1 : Nat) < 3)
  · rfl
  · rfl
  · rfl
  · intro b hb
    match b with
    | ⟨0, _⟩ => rfl
    | ⟨1, _⟩ => exact absurd rfl hb
  · show 32 + l.val = 32 + l.val
    rfl

/-- Its third block is their product. -/
theorem v18_at2 (n : Fin 200000) (l : Fin 32) :
    val_main_v18 (F := Ideal) a.xLocal a.xGlobal a.batch a.wLocal a.bLocal a.wGlobal a.bGlobal (ix2 n (⟨64 + l.val, by omega⟩ : Fin 96))
      = val_main_v17 (F := Ideal) a.xLocal a.xGlobal a.batch a.wLocal a.bLocal a.wGlobal a.bGlobal (ix2 n l) := by
  unfold val_main_v18
  refine concatenate_apply_piece _ _ _ _ 2 ?_ S200000x32
    (val_main_v17 (F := Ideal) a.xLocal a.xGlobal a.batch a.wLocal a.bLocal a.wGlobal a.bGlobal) ?_ ?_ 64 ?_ (ix2 n l) ?_ ?_
  · exact (by decide : (2 : Nat) < 3)
  · rfl
  · rfl
  · rfl
  · intro b hb
    match b with
    | ⟨0, _⟩ => rfl
    | ⟨1, _⟩ => exact absurd rfl hb
  · show 64 + l.val = 64 + l.val
    rfl

/-- The mixed node state: the one contraction over 96 columns is the three block sums. -/
theorem v23_eq (n : Fin 200000) (k : Fin 32) :
    val_main_v23 (F := Ideal) a.xLocal a.xGlobal a.batch a.wLocal a.bLocal a.wGlobal a.bGlobal a.wMix a.bMix (ix2 n k) = Cert.Spec.node a n k := by
  have e1 : ∀ c : Fin 96, lidx_main_v19 (ix2 n k) c = ix2 n c := fun c => by idx2_rfl
  have e2 : ∀ c : Fin 96, ridx_main_v19 (ix2 n k) c = ix2 c k := fun c => by idx2_rfl
  have e3 : idx_main_v20 (idx_main_v21 (ix2 n k)) = ix1 k := by idx1_rfl
  rw [val_main_v23_apply, val_main_v22_apply, val_main_v19_apply, val_main_v21_apply, val_main_v20_apply,
    val_main_call2_v0_apply, val_main_call2_cst_apply]
  simp only [e1, e2, e3, Ideal.maximumf_def, Ideal.addf_def, Ideal.ofBits_def, Ideal.ofBits_zero_f32]
  rw [sum_cols]
  simp only [v18_at0, v18_at1, v18_at2, val_main_v17_apply, Ideal.mulf_def, v4_eq, v16_eq]
  rfl

/-! ## The messages, one per update row -/

/-- An update row's source word, wrapped. -/
theorem v36_eq (u : Fin 6600000) :
    val_main_v36 (F := Ideal) a.edges (ix2 u (0 : Fin 1))
      = Cert.Spec.wrap 200000#32 (val_main_v27 (F := Ideal) a.edges (ix1 u)) := by
  have e : idx_main_v36 (ix2 u (0 : Fin 1)) = ix1 u := by idx1_rfl
  rw [val_main_v36_apply, e, val_main_v35_apply, val_main_v32_apply, val_main_v34_apply, val_main_v31_apply,
    val_main_v33_apply, val_main_c_1_apply, val_main_c_2_apply]
  rfl

/-- The node state gathered at an update row's source. -/
theorem v37_eq (u : Fin 6600000) (l : Fin 32) :
    val_main_v37 (F := Ideal) a.xLocal a.xGlobal a.batch a.edges a.wLocal a.bLocal a.wGlobal a.bGlobal a.wMix a.bMix (ix2 u l)
      = Cert.Spec.node a (Cert.Spec.row 200000 (by decide)
          (Cert.Spec.wrap 200000#32 (val_main_v27 (F := Ideal) a.edges (ix1 u)))) l := by
  unfold val_main_v37
  refine (Cert.LibGatherRead.gather_rows_apply (N := 200000) (C := 32) (R := 6600000) (by decide)
    Gen.gather_S200000x32_S6600000x1_S6600000x32_1_0_n_n_0_1_132_wf _ _ u l).trans ?_
  rw [row_congr (by decide) (v36_eq a u), v23_eq]

/-- An update row's message is the message of its source node. -/
theorem v42_eq (u : Fin 6600000) (k : Fin 32) :
    val_main_v42 (F := Ideal) a.xLocal a.xGlobal a.batch a.edges a.wLocal a.bLocal a.wGlobal a.bGlobal a.wMix a.bMix a.wMsg a.bMsg (ix2 u k)
      = Cert.Spec.msg a (Cert.Spec.row 200000 (by decide)
          (Cert.Spec.wrap 200000#32 (val_main_v27 (F := Ideal) a.edges (ix1 u)))) k := by
  have e1 : ∀ l : Fin 32, lidx_main_v38 (ix2 u k) l = ix2 u l := fun l => by idx2_rfl
  have e2 : ∀ l : Fin 32, ridx_main_v38 (ix2 u k) l = ix2 l k := fun l => by idx2_rfl
  have e3 : idx_main_v39 (idx_main_v40 (ix2 u k)) = ix1 k := by idx1_rfl
  rw [val_main_v42_apply, val_main_v41_apply, val_main_v38_apply, val_main_v40_apply, val_main_v39_apply,
    val_main_call3_v0_apply, val_main_call3_cst_apply]
  simp only [e1, e2, e3, v37_eq, Ideal.maximumf_def, Ideal.addf_def, Ideal.ofBits_def, Ideal.ofBits_zero_f32]
  rfl

/-! ## The source and target words of an update row -/

/-- An edge row's source word is the edge list's. -/
theorem v27_edge (e : Fin 6400000) :
    val_main_v27 (F := Ideal) a.edges (ix1 (⟨e.val, by omega⟩ : Fin 6600000)) = a.edges (ix2 (0 : Fin 2) e) := by
  unfold val_main_v27
  refine (concatenate_pair_apply_left _ _ _ _ _ ?_ (ix1 e) ?_).trans ?_
  · rfl
  · intro b
    match b with
    | ⟨0, _⟩ => rfl
  · rw [val_main_v26_apply, val_main_v25_apply]
    refine congrArg a.edges ?_
    funext d
    match d with
    | ⟨0, _⟩ => rfl
    | ⟨1, _⟩ => exact Fin.ext (Nat.mod_eq_of_lt e.isLt)

/-- A loop row's source word is its node's number. -/
theorem v27_loop (m : Fin 200000) :
    val_main_v27 (F := Ideal) a.edges (ix1 (⟨6400000 + m.val, by omega⟩ : Fin 6600000)) = BitVec.ofNat 32 m.val := by
  unfold val_main_v27
  refine (concatenate_pair_apply_right _ _ _ _ _ ?_ ?_ (ix1 m) ?_ ?_).trans ?_
  · rfl
  · rfl
  · intro b hb
    match b with
    | ⟨0, _⟩ => exact absurd rfl hb
  · show m.val + 6400000 = 6400000 + m.val
    omega
  · rfl

/-- An edge row's target word is the edge list's. -/
theorem v30_edge (e : Fin 6400000) :
    val_main_v30 (F := Ideal) a.edges (ix1 (⟨e.val, by omega⟩ : Fin 6600000)) = a.edges (ix2 (1 : Fin 2) e) := by
  unfold val_main_v30
  refine (concatenate_pair_apply_left _ _ _ _ _ ?_ (ix1 e) ?_).trans ?_
  · rfl
  · intro b
    match b with
    | ⟨0, _⟩ => rfl
  · rw [val_main_v29_apply, val_main_v28_apply]
    refine congrArg a.edges ?_
    funext d
    match d with
    | ⟨0, _⟩ => rfl
    | ⟨1, _⟩ => exact Fin.ext (Nat.mod_eq_of_lt e.isLt)

/-- A loop row's target word is its node's number. -/
theorem v30_loop (m : Fin 200000) :
    val_main_v30 (F := Ideal) a.edges (ix1 (⟨6400000 + m.val, by omega⟩ : Fin 6600000)) = BitVec.ofNat 32 m.val := by
  unfold val_main_v30
  refine (concatenate_pair_apply_right _ _ _ _ _ ?_ ?_ (ix1 m) ?_ ?_).trans ?_
  · rfl
  · rfl
  · intro b hb
    match b with
    | ⟨0, _⟩ => exact absurd rfl hb
  · show m.val + 6400000 = 6400000 + m.val
    omega
  · rfl

/-! ## The accumulation -/

/-- The loop rows contribute the node's own message. -/
private theorem loops_sum (n : Fin 200000) (k : Fin 32) :
    (∑ m : Fin 200000, if (BitVec.ofNat 32 m.val).toInt = (n.val : Int)
        then Cert.Spec.msg a (Cert.Spec.row 200000 (by decide)
          (Cert.Spec.wrap 200000#32 (BitVec.ofNat 32 m.val))) k else 0)
      = Cert.Spec.msg a n k := by
  have hterm : ∀ m : Fin 200000,
      (if (BitVec.ofNat 32 m.val).toInt = (n.val : Int)
        then Cert.Spec.msg a (Cert.Spec.row 200000 (by decide)
          (Cert.Spec.wrap 200000#32 (BitVec.ofNat 32 m.val))) k else 0)
        = if m = n then Cert.Spec.msg a m k else 0 := fun m => by
    rw [loop_row m, loop_toInt m]
    refine if_congr ?_ rfl rfl
    constructor
    · intro h
      exact Fin.ext (by omega)
    · rintro rfl
      rfl
  rw [Finset.sum_congr rfl fun m _ => hterm m, Finset.sum_ite_eq' Finset.univ n, if_pos (Finset.mem_univ n)]

/-- The accumulated array: the zero array plus, at each node, the messages over its incoming edges and its own. -/
theorem v45_eq (n : Fin 200000) (k : Fin 32) :
    val_main_v45 (F := Ideal) a.xLocal a.xGlobal a.batch a.edges a.wLocal a.bLocal a.wGlobal a.bGlobal a.wMix a.bMix a.wMsg a.bMsg (ix2 n k) = 0 + (Cert.Spec.agg a n k + Cert.Spec.msg a n k) := by
  have h43 : val_main_v43 (F := Ideal) (ix2 n k) = 0 := by
    rw [val_main_v43_apply, val_main_cst_apply, Ideal.ofBits_def, Ideal.ofBits_zero_f32]
  have h44 : ∀ r : Fin 6600000,
      val_main_v44 (F := Ideal) a.edges (ix2 r (0 : Fin 1)) = val_main_v30 (F := Ideal) a.edges (ix1 r) := fun r => by
    rw [val_main_v44_apply]
    refine congrArg (val_main_v30 (F := Ideal) a.edges) ?_
    idx1_rfl
  have h0 : val_main_v45 (F := Ideal) a.xLocal a.xGlobal a.batch a.edges a.wLocal a.bLocal a.wGlobal a.bGlobal a.wMix a.bMix a.wMsg a.bMsg
      = Ideal.hostScatterAdd (Cert.LibScatterAddRead.rowsDims 200000 32 6600000
          Gen.scatter_S200000x32_S6600000x1_S6600000x32_1_0_0_1_wf) (val_main_v43 (F := Ideal))
          (val_main_v44 (F := Ideal) a.edges) (val_main_v42 (F := Ideal) a.xLocal a.xGlobal a.batch a.edges a.wLocal a.bLocal a.wGlobal a.bGlobal a.wMix a.bMix a.wMsg a.bMsg) := rfl
  rw [h0, Cert.LibScatterAddRead.scatterAdd_rows_apply, h43]
  refine congrArg (fun s => 0 + s) ?_
  simp only [h44, v42_eq]
  rw [sum_rows]
  simp only [v27_edge, v30_edge, v27_loop, v30_loop]
  rw [loops_sum]
  rfl

/-! ## The updated state and the output head -/

/-- The updated node state. -/
theorem v51_eq (n : Fin 200000) (k : Fin 32) :
    val_main_v51 (F := Ideal) a.xLocal a.xGlobal a.batch a.edges a.wLocal a.bLocal a.wGlobal a.bGlobal a.wMix a.bMix a.wMsg a.bMsg a.wSelf a.bSelf (ix2 n k) = Cert.Spec.hid a n k := by
  have e1 : ∀ l : Fin 32, lidx_main_v46 (ix2 n k) l = ix2 n l := fun l => by idx2_rfl
  have e2 : ∀ l : Fin 32, ridx_main_v46 (ix2 n k) l = ix2 l k := fun l => by idx2_rfl
  have e3 : idx_main_v48 (idx_main_v49 (ix2 n k)) = ix1 k := by idx1_rfl
  rw [val_main_v51_apply, val_main_v50_apply, val_main_v47_apply, val_main_v46_apply, val_main_v49_apply,
    val_main_v48_apply, val_main_call4_v0_apply, val_main_call4_cst_apply, v45_eq]
  simp only [e1, e2, e3, v23_eq, Ideal.maximumf_def, Ideal.addf_def, Ideal.ofBits_def, Ideal.ofBits_zero_f32]
  unfold Cert.Spec.hid
  rw [zero_add, add_assoc]

/-- The output head. -/
theorem v55_eq (n : Fin 200000) (j : Fin 2) :
    val_main_v55 (F := Ideal) a.xLocal a.xGlobal a.batch a.edges a.wLocal a.bLocal a.wGlobal a.bGlobal a.wMix a.bMix a.wMsg a.bMsg a.wSelf a.bSelf a.wOut a.bOut (ix2 n j) = Cert.Spec.out a n j := by
  have e1 : ∀ k : Fin 32, lidx_main_v52 (ix2 n j) k = ix2 n k := fun k => by idx2_rfl
  have e2 : ∀ k : Fin 32, ridx_main_v52 (ix2 n j) k = ix2 k j := fun k => by idx2_rfl
  have e3 : idx_main_v53 (idx_main_v54 (ix2 n j)) = ix1 j := by idx1_rfl
  rw [val_main_v55_apply, val_main_v52_apply, val_main_v54_apply, val_main_v53_apply]
  simp only [e1, e2, e3, v51_eq, Ideal.addf_def]
  rfl

/-- The reference's last stage, as a function of the sixteen argument arrays, is `Spec.result` of them. -/
theorem ref_eq (x0 : (⟨S200000x16, .f32⟩ : BufTy).Contents (Elt Ideal)) (x1 : (⟨S128x8, .f32⟩ : BufTy).Contents (Elt Ideal)) (x2 : (⟨S200000, .i32⟩ : BufTy).Contents (Elt Ideal)) (x3 : (⟨S2x6400000, .i32⟩ : BufTy).Contents (Elt Ideal)) (x4 : (⟨S16x32, .f32⟩ : BufTy).Contents (Elt Ideal)) (x5 : (⟨S32, .f32⟩ : BufTy).Contents (Elt Ideal)) (x6 : (⟨S8x32, .f32⟩ : BufTy).Contents (Elt Ideal)) (x7 : (⟨S32, .f32⟩ : BufTy).Contents (Elt Ideal)) (x8 : (⟨S96x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S32x32, .f32⟩ : BufTy).Contents (Elt Ideal)) (x13 : (⟨S32, .f32⟩ : BufTy).Contents (Elt Ideal)) (x14 : (⟨S32x2, .f32⟩ : BufTy).Contents (Elt Ideal)) (x15 : (⟨S2, .f32⟩ : BufTy).Contents (Elt Ideal)) :
    val_main_v55 (F := Ideal) x0 x1 x2 x3 x4 x5 x6 x7 x8 x9 x10 x11 x12 x13 x14 x15 = Cert.Spec.result ⟨x0, x1, x2, x3, x4, x5, x6, x7, x8, x9, x10, x11, x12, x13, x14, x15⟩ := by
  funext i
  obtain ⟨n, j, rfl⟩ : ∃ (n : Fin 200000) (j : Fin 2), i = ix2 n j := ⟨i 0, i 1, eq_ix2 i⟩
  exact v55_eq ⟨x0, x1, x2, x3, x4, x5, x6, x7, x8, x9, x10, x11, x12, x13, x14, x15⟩ n j

end Cert.RefValue

end
-- ==== Proof.SourceRange.lean ====
/-
  What the precondition says about the edge list: every source word is a node number.
-/
import proofs.«402760_j11974368821437_2_alg».proof.Pre_finite_inputs
import proofs.«402760_j11974368821437_2_alg».proof.Proof.Gen.Pre_finite_inputs
import Idealize.ShloMosaic.Lib.ReduceAll
import Idealize.ShloMosaic.Lib.ValueIdx
import Idealize.ShloMosaic.Lib.Pipeline.Value

noncomputable section

namespace Cert.SourceRange

open Idealize.ShloMosaic Idealize.ShloMosaic.ValueIdx

variable [Cert.Pre_finite_inputs.Facts]

open Cert.Pre_finite_inputs in
/-- Row 0 of the edge list, flattened, read at `e`: the list's entry `(0, e)`. -/
private theorem src_apply (x3 : IVec S2x6400000 32) (hs : S2x6400000.Slices ![0, 0] S1x6400000)
    (hc : S1x6400000.ShapeCasts S6400000) (e : Fin 6400000) :
    shapeCast S6400000 (extractStridedSlice S1x6400000 ![0, 0] x3 hs) hc (ix1 e) = x3 (ix2 (0 : Fin 2) e) := by
  refine (shapeCast_apply _ hc (ix1 e) (ix2 (0 : Fin 1) e) ?_).trans ?_
  · rw [Shape.rowMajor_val_two, Shape.rowMajor_val_one]
    show (0 : Nat) * 6400000 + e.val = e.val
    omega
  · refine extractStridedSlice_apply _ _ hs _ _ fun a => ?_
    match a with
    | ⟨0, _⟩ => rfl
    | ⟨1, _⟩ => exact (Nat.zero_add _).symm

open Cert.Pre_finite_inputs in
/-- Under the precondition every entry of row 0 of the edge list is, as a signed integer, in `[0, 200000)`. -/
theorem source_lt (x0 : (⟨Cert.Pre_finite_inputs.S200000x16, .f32⟩ : BufTy).Contents (Elt Ideal)) (x1 : (⟨Cert.Pre_finite_inputs.S128x8, .f32⟩ : BufTy).Contents (Elt Ideal)) (x2 : (⟨Cert.Pre_finite_inputs.S200000, .i32⟩ : BufTy).Contents (Elt Ideal)) (x3 : (⟨Cert.Pre_finite_inputs.S2x6400000, .i32⟩ : BufTy).Contents (Elt Ideal)) (x4 : (⟨Cert.Pre_finite_inputs.S16x32, .f32⟩ : BufTy).Contents (Elt Ideal)) (x5 : (⟨Cert.Pre_finite_inputs.S32, .f32⟩ : BufTy).Contents (Elt Ideal)) (x6 : (⟨Cert.Pre_finite_inputs.S8x32, .f32⟩ : BufTy).Contents (Elt Ideal)) (x7 : (⟨Cert.Pre_finite_inputs.S32, .f32⟩ : BufTy).Contents (Elt Ideal)) (x8 : (⟨Cert.Pre_finite_inputs.S96x32, .f32⟩ : BufTy).Contents (Elt Ideal)) (x9 : (⟨Cert.Pre_finite_inputs.S32, .f32⟩ : BufTy).Contents (Elt Ideal)) (x10 : (⟨Cert.Pre_finite_inputs.S32x32, .f32⟩ : BufTy).Contents (Elt Ideal)) (x11 : (⟨Cert.Pre_finite_inputs.S32, .f32⟩ : BufTy).Contents (Elt Ideal)) (x12 : (⟨Cert.Pre_finite_inputs.S32x32, .f32⟩ : BufTy).Contents (Elt Ideal)) (x13 : (⟨Cert.Pre_finite_inputs.S32, .f32⟩ : BufTy).Contents (Elt Ideal)) (x14 : (⟨Cert.Pre_finite_inputs.S32x2, .f32⟩ : BufTy).Contents (Elt Ideal)) (x15 : (⟨Cert.Pre_finite_inputs.S2, .f32⟩ : BufTy).Contents (Elt Ideal))
    (h : Cert.Pre_finite_inputs.fn (F := Ideal) x0 x1 x2 x3 x4 x5 x6 x7 x8 x9 x10 x11 x12 x13 x14 x15 = fun _ => 1#1) (e : Fin 6400000) :
    0 ≤ (x3 (ix2 (0 : Fin 2) e)).toInt ∧ (x3 (ix2 (0 : Fin 2) e)).toInt < 200000 := by
  have hp := congrFun h ix0
  unfold Cert.Pre_finite_inputs.fn Cert.Pre_finite_inputs.fn_part1 Cert.Pre_finite_inputs.fn_part2
    Cert.Pre_finite_inputs.fn_part3 Cert.Pre_finite_inputs.fn_part4 at hp
  dsimp only at hp
  have hall := (IntOp.andi_eq_one.mp hp).2
  haveI : Subsingleton Cert.Pre_finite_inputs.S_.Idx := ⟨fun a b => funext fun d => d.elim0⟩
  have hat := Host.reduce_andi_all _ _ _ _ ix0 hall (ix1 e)
  obtain ⟨h0, h1⟩ := IntOp.andi_eq_one.mp hat
  have g0 : IntOp.cmpi .sge (shapeCast S6400000 (extractStridedSlice S1x6400000 ![0, 0] x3 _) _ (ix1 e)) 0#32 = 1#1 := h0
  have g1 : IntOp.cmpi .slt (shapeCast S6400000 (extractStridedSlice S1x6400000 ![0, 0] x3 _) _ (ix1 e)) 200000#32 = 1#1 := h1
  rw [src_apply] at g0 g1
  have k0 := IntOp.cmpi_sge.mp g0
  have k1 := IntOp.cmpi_slt.mp g1
  have z0 : (0#32 : BitVec 32).toInt = 0 := by decide
  have z1 : (200000#32 : BitVec 32).toInt = 200000 := by decide
  omega

end Cert.SourceRange

end
-- ==== Proof.lean ====
/-
  The certificate: the kernel program and the reference compute the same two-class scores for every node of the
  graph batch, as extended reals, whenever the float inputs are finite and every edge's source word is a node number.

  Both programs are the network of `Proof/Spec.lean`.  The reference computes it in one pass (one contraction
  over the 96 concatenated columns, one message per edge and per self loop, one scatter over edges and loops); the
  kernel program computes the dense layers in two row-blocked stages and gathers and scatters between them, taking
  the message of a node once per node instead of once per edge (a row gather commutes with a row-wise map), and
  adding the self loop's message inside the second stage.  The two arrangements differ only by regrouping sums,
  which is free on the extended reals (addition is commutative and associative there); no distributive law is used,
  so the finiteness of the inputs is not needed.  The range of the source words is: a take at a word that is no node
  number fills its row with a not-a-number, which the reference's clamped gather does not.
-/
import proofs.«402760_j11974368821437_2_alg».proof.Defs
import proofs.«402760_j11974368821437_2_alg».proof.Proof.Gen.Kernel
import proofs.«402760_j11974368821437_2_alg».proof.Proof.Gen.Kernel.Skeleton
import proofs.«402760_j11974368821437_2_alg».proof.Proof.Gen.Kernel.Launch
import proofs.«402760_j11974368821437_2_alg».proof.Proof.Gen.Kernel.Points
import proofs.«402760_j11974368821437_2_alg».proof.Proof.Gen.Kernel.Frame
import proofs.«402760_j11974368821437_2_alg».proof.Proof.Gen.KernelIdeal
import proofs.«402760_j11974368821437_2_alg».proof.Proof.Gen.KernelIdeal.Skeleton
import proofs.«402760_j11974368821437_2_alg».proof.Proof.Gen.KernelIdeal.Launch
import proofs.«402760_j11974368821437_2_alg».proof.Proof.Gen.KernelIdeal.Points
import proofs.«402760_j11974368821437_2_alg».proof.Proof.Gen.KernelIdeal.Frame
import proofs.«402760_j11974368821437_2_alg».proof.Proof.Gen.ReferenceIdeal
import proofs.«402760_j11974368821437_2_alg».proof.Proof.Gen.ReferenceIdeal.Run
import proofs.«402760_j11974368821437_2_alg».proof.Proof.Gen.ReferenceIdeal.Read
import proofs.«402760_j11974368821437_2_alg».proof.Proof.Gen.Pre_finite_inputs
import proofs.«402760_j11974368821437_2_alg».proof.Proof.RunValue
import proofs.«402760_j11974368821437_2_alg».proof.Proof.KernelValue
import proofs.«402760_j11974368821437_2_alg».proof.Proof.RefValue
import proofs.«402760_j11974368821437_2_alg».proof.Proof.SourceRange
import Idealize.ShloMosaic.Adequacy
import Idealize.ShloMosaic.Init

noncomputable section

namespace Cert.Proof

open Idealize.ShloMosaic Idealize.SL.Sem Idealize.ShloMosaic.ValueIdx

/-- The word-level kernel program runs and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the network's output of the argument arrays: the kernel program by its run with the result
    buffer named and the value of that buffer; the reference by its run and the reading of its last stage. -/
theorem algebraic : Cert.algebraic_KernelIdeal_ReferenceIdeal := by
  intro m ρ m' ρ' hpre hagree
  have hs : ∀ c : Dev Cert.KernelIdeal.nD, ∀ e : Fin 6400000,
      0 ≤ ((Cert.KernelIdeal.KernelInputs.inputs m c).edges (ix2 (0 : Fin 2) e)).toInt
        ∧ ((Cert.KernelIdeal.KernelInputs.inputs m c).edges (ix2 (0 : Fin 2) e)).toInt < 200000 :=
    fun c e => Cert.SourceRange.source_lt _ _ _ _ _ _ _ _ _ _ _ _ _ _ _ _ (hpre c) e
  refine ⟨fun c => Cert.Spec.result (Cert.KernelIdeal.KernelInputs.inputs m c), ?_, ?_⟩
  · exact (θ_run Cert.KernelIdeal.defs _ _).mono
      (fun r h c => ⟨(h c).1.trans (Cert.KernelIdeal.KernelValue.result_eq m ρ c (hs c)), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq, Cert.RefValue.ref_eq]
    obtain ⟨h0, h1, h2, h3, h4, h5, h6, h7, h8, h9, h10, h11, h12, h13, h14, h15⟩ := hagree c
    rw [h0, h1, h2, h3, h4, h5, h6, h7, h8, h9, h10, h11, h12, h13, h14, h15]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
